-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 2048]⟩ ⟨2, ![16384, 2048]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![16384, 1024]⟩ ⟨2, ![16384, 2048]⟩ (Layout.meshBlock [2, 4, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  main_v3
-- ==== Pre_finite_inputs_ReferenceIdeal.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Kernel.lean ====
abbrev S8192x2048 : Shape := ⟨2, ![8192, 2048]⟩
abbrev S16384x1024 : Shape := ⟨2, ![16384, 1024]⟩
abbrev S4x512x2048 : Shape := ⟨3, ![4, 512, 2048]⟩
abbrev S4x512x1024 : Shape := ⟨3, ![4, 512, 1024]⟩
abbrev S4 : Shape := ⟨1, ![4]⟩
abbrev S16 : Shape := ⟨1, ![16]⟩
abbrev S_ : Shape := ⟨0, ![]⟩
abbrev S1 : Shape := ⟨1, ![1]⟩
abbrev S1x512x2048 : Shape := ⟨3, ![1, 512, 2048]⟩
abbrev S512x2048 : Shape := ⟨2, ![512, 2048]⟩
abbrev S512x1024 : Shape := ⟨2, ![512, 1024]⟩
abbrev S1x512x1024 : Shape := ⟨3, ![1, 512, 1024]⟩

abbrev nBuf : Space → Nat
  | .hbm => 2
  | .vmem => 3
  | .smem => 0
  | _ => 0

abbrev bufTy : (tb : Table) → Fin (tcTables nBuf tb) → BufTy
  | .hbm, ⟨0, _⟩ => ⟨S8192x2048, .f32⟩
  | .hbm, ⟨1, _⟩ => ⟨S16384x1024, .bf16⟩
  | .local _ .vmem, ⟨0, _⟩ => ⟨S4x512x2048, .f32⟩
  | .local _ .vmem, ⟨1, _⟩ => ⟨S4x512x1024, .bf16⟩
  | .local _ .vmem, ⟨2, _⟩ => ⟨S4x512x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) (c0_i32_29 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v38 : BitVec 32 := Scalar.muli v2 c8192_i32
  let v39 : BitVec 32 := Scalar.addi v38 c0_i32_29
  let c0_i32_37 : BitVec 32 := 0#32
  ![v39.toNat, 0]
def k0_dev2 (d0 : Dev nD) : Nat :=
  let c0_i32_34 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_33 : BitVec 32 := 16#32
  let v40 : BitVec 32 := Scalar.muli v9 c16_i32_33
  let v41 : BitVec 32 := Scalar.addi c0_i32_34 v40
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_35 : BitVec 32 := 4#32
  let v42 : BitVec 32 := Scalar.muli v5 c4_i32_35
  let v43 : BitVec 32 := Scalar.addi v41 v42
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v44 : BitVec 32 := Scalar.muli v8 c1_i32_36
  let v45 : BitVec 32 := Scalar.addi v43 v44
  v45.toNat
def k0_dev3 (d0 : Dev nD) : Nat :=
  let c0_i32_66 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_65 : BitVec 32 := 16#32
  let v76 : BitVec 32 := Scalar.muli v9 c16_i32_65
  let v77 : BitVec 32 := Scalar.addi c0_i32_66 v76
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_67 : BitVec 32 := 4#32
  let v78 : BitVec 32 := Scalar.muli v5 c4_i32_67
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_68 : BitVec 32 := 1#32
  let v80 : BitVec 32 := Scalar.muli v8 c1_i32_68
  let v81 : BitVec 32 := Scalar.addi v79 v80
  v81.toNat
def k0_dev4 (d0 : Dev nD) : Nat :=
  let c0_i32_97 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_96 : BitVec 32 := 16#32
  let v112 : BitVec 32 := Scalar.muli v9 c16_i32_96
  let v113 : BitVec 32 := Scalar.addi c0_i32_97 v112
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_98 : BitVec 32 := 4#32
  let v114 : BitVec 32 := Scalar.muli v5 c4_i32_98
  let v115 : BitVec 32 := Scalar.addi v113 v114
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v116 : BitVec 32 := Scalar.muli v8 c1_i32_99
  let v117 : BitVec 32 := Scalar.addi v115 v116
  v117.toNat
def k0_dev5 (d0 : Dev nD) : Nat :=
  let c0_i32_129 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_128 : BitVec 32 := 16#32
  let v148 : BitVec 32 := Scalar.muli v9 c16_i32_128
  let v149 : BitVec 32 := Scalar.addi c0_i32_129 v148
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_130 : BitVec 32 := 4#32
  let v150 : BitVec 32 := Scalar.muli v5 c4_i32_130
  let v151 : BitVec 32 := Scalar.addi v149 v150
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_131 : BitVec 32 := 1#32
  let v152 : BitVec 32 := Scalar.muli v8 c1_i32_131
  let v153 : BitVec 32 := Scalar.addi v151 v152
  v153.toNat
def k0_dev6 (d0 : Dev nD) : Nat :=
  let c0_i32_173 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_172 : BitVec 32 := 16#32
  let v194 : BitVec 32 := Scalar.muli v9 c16_i32_172
  let v195 : BitVec 32 := Scalar.addi c0_i32_173 v194
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_174 : BitVec 32 := 4#32
  let v196 : BitVec 32 := Scalar.muli v5 c4_i32_174
  let v197 : BitVec 32 := Scalar.addi v195 v196
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_175 : BitVec 32 := 1#32
  let v198 : BitVec 32 := Scalar.muli v8 c1_i32_175
  let v199 : BitVec 32 := Scalar.addi v197 v198
  v199.toNat
def k0_dev7 (d0 : Dev nD) : Nat :=
  let c0_i32_216 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_215 : BitVec 32 := 16#32
  let v240 : BitVec 32 := Scalar.muli v9 c16_i32_215
  let v241 : BitVec 32 := Scalar.addi c0_i32_216 v240
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_217 : BitVec 32 := 4#32
  let v242 : BitVec 32 := Scalar.muli v5 c4_i32_217
  let v243 : BitVec 32 := Scalar.addi v241 v242
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_218 : BitVec 32 := 1#32
  let v244 : BitVec 32 := Scalar.muli v8 c1_i32_218
  let v245 : BitVec 32 := Scalar.addi v243 v244
  v245.toNat
def k0_dev8 (d0 : Dev nD) : Nat :=
  let c0_i32_259 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_258 : BitVec 32 := 16#32
  let v286 : BitVec 32 := Scalar.muli v9 c16_i32_258
  let v287 : BitVec 32 := Scalar.addi c0_i32_259 v286
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_260 : BitVec 32 := 4#32
  let v288 : BitVec 32 := Scalar.muli v5 c4_i32_260
  let v289 : BitVec 32 := Scalar.addi v287 v288
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_261 : BitVec 32 := 1#32
  let v290 : BitVec 32 := Scalar.muli v8 c1_i32_261
  let v291 : BitVec 32 := Scalar.addi v289 v290
  v291.toNat
def k0_dev9 (d0 : Dev nD) : Nat :=
  let c0_i32_302 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_301 : BitVec 32 := 16#32
  let v332 : BitVec 32 := Scalar.muli v9 c16_i32_301
  let v333 : BitVec 32 := Scalar.addi c0_i32_302 v332
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_303 : BitVec 32 := 4#32
  let v334 : BitVec 32 := Scalar.muli v5 c4_i32_303
  let v335 : BitVec 32 := Scalar.addi v333 v334
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v336 : BitVec 32 := Scalar.muli v8 c1_i32_304
  let v337 : BitVec 32 := Scalar.addi v335 v336
  v337.toNat
def k0_dev10 (d0 : Dev nD) : Nat :=
  let c0_i32_345 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_344 : BitVec 32 := 16#32
  let v378 : BitVec 32 := Scalar.muli v9 c16_i32_344
  let v379 : BitVec 32 := Scalar.addi c0_i32_345 v378
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_346 : BitVec 32 := 4#32
  let v380 : BitVec 32 := Scalar.muli v5 c4_i32_346
  let v381 : BitVec 32 := Scalar.addi v379 v380
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_347 : BitVec 32 := 1#32
  let v382 : BitVec 32 := Scalar.muli v8 c1_i32_347
  let v383 : BitVec 32 := Scalar.addi v381 v382
  v383.toNat
def k0_dev11 (d0 : Dev nD) : Nat :=
  let c0_i32_388 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_387 : BitVec 32 := 16#32
  let v424 : BitVec 32 := Scalar.muli v9 c16_i32_387
  let v425 : BitVec 32 := Scalar.addi c0_i32_388 v424
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v426 : BitVec 32 := Scalar.muli v5 c4_i32_389
  let v427 : BitVec 32 := Scalar.addi v425 v426
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v428 : BitVec 32 := Scalar.muli v8 c1_i32_390
  let v429 : BitVec 32 := Scalar.addi v427 v428
  v429.toNat
def k0_dev12 (d0 : Dev nD) : Nat :=
  let c0_i32_431 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_430 : BitVec 32 := 16#32
  let v470 : BitVec 32 := Scalar.muli v9 c16_i32_430
  let v471 : BitVec 32 := Scalar.addi c0_i32_431 v470
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_432 : BitVec 32 := 4#32
  let v472 : BitVec 32 := Scalar.muli v5 c4_i32_432
  let v473 : BitVec 32 := Scalar.addi v471 v472
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_433 : BitVec 32 := 1#32
  let v474 : BitVec 32 := Scalar.muli v8 c1_i32_433
  let v475 : BitVec 32 := Scalar.addi v473 v474
  v475.toNat
def k0_dev13 (d0 : Dev nD) : Nat :=
  let c0_i32_474 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_473 : BitVec 32 := 16#32
  let v516 : BitVec 32 := Scalar.muli v9 c16_i32_473
  let v517 : BitVec 32 := Scalar.addi c0_i32_474 v516
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_475 : BitVec 32 := 4#32
  let v518 : BitVec 32 := Scalar.muli v5 c4_i32_475
  let v519 : BitVec 32 := Scalar.addi v517 v518
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_476 : BitVec 32 := 1#32
  let v520 : BitVec 32 := Scalar.muli v8 c1_i32_476
  let v521 : BitVec 32 := Scalar.addi v519 v520
  v521.toNat
def k0_dev14 (d0 : Dev nD) : Nat :=
  let c0_i32_517 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_516 : BitVec 32 := 16#32
  let v562 : BitVec 32 := Scalar.muli v9 c16_i32_516
  let v563 : BitVec 32 := Scalar.addi c0_i32_517 v562
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_518 : BitVec 32 := 4#32
  let v564 : BitVec 32 := Scalar.muli v5 c4_i32_518
  let v565 : BitVec 32 := Scalar.addi v563 v564
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_519 : BitVec 32 := 1#32
  let v566 : BitVec 32 := Scalar.muli v8 c1_i32_519
  let v567 : BitVec 32 := Scalar.addi v565 v566
  v567.toNat
def k0_dev15 (d0 : Dev nD) : Nat :=
  let c0_i32_560 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_559 : BitVec 32 := 16#32
  let v608 : BitVec 32 := Scalar.muli v9 c16_i32_559
  let v609 : BitVec 32 := Scalar.addi c0_i32_560 v608
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_561 : BitVec 32 := 4#32
  let v610 : BitVec 32 := Scalar.muli v5 c4_i32_561
  let v611 : BitVec 32 := Scalar.addi v609 v610
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_562 : BitVec 32 := 1#32
  let v612 : BitVec 32 := Scalar.muli v8 c1_i32_562
  let v613 : BitVec 32 := Scalar.addi v611 v612
  v613.toNat
def k0_dev16 (d0 : Dev nD) : Nat :=
  let c0_i32_603 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_602 : BitVec 32 := 16#32
  let v654 : BitVec 32 := Scalar.muli v9 c16_i32_602
  let v655 : BitVec 32 := Scalar.addi c0_i32_603 v654
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_604 : BitVec 32 := 4#32
  let v656 : BitVec 32 := Scalar.muli v5 c4_i32_604
  let v657 : BitVec 32 := Scalar.addi v655 v656
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_605 : BitVec 32 := 1#32
  let v658 : BitVec 32 := Scalar.muli v8 c1_i32_605
  let v659 : BitVec 32 := Scalar.addi v657 v658
  v659.toNat
def k0_dev17 (d0 : Dev nD) : Nat :=
  let c0_i32_641 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_640 : BitVec 32 := 16#32
  let v695 : BitVec 32 := Scalar.muli v9 c16_i32_640
  let v696 : BitVec 32 := Scalar.addi c0_i32_641 v695
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_642 : BitVec 32 := 4#32
  let v697 : BitVec 32 := Scalar.muli v5 c4_i32_642
  let v698 : BitVec 32 := Scalar.addi v696 v697
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_643 : BitVec 32 := 1#32
  let v699 : BitVec 32 := Scalar.muli v8 c1_i32_643
  let v700 : BitVec 32 := Scalar.addi v698 v699
  v700.toNat

class Facts₀ : Prop where
  hamt_1 : (1#32 : BitVec 32).msb = false
  inb_S4_S1_0 : ∀ a, (![0] : Fin 1 → Nat) a + S1.size a ≤ S4.size a
  squeezes_S1_S_ : S1.Squeezes S_
  inb_S4x512x2048_S1x512x2048_0_0_0 : ∀ a, (![0, 0, 0] : Fin 3 → Nat) a + S1x512x2048.size a ≤ S4x512x2048.size a
  squeezes_S1x512x2048_S512x2048 : S1x512x2048.Squeezes S512x2048
  inb_S8192x2048_S512x2048_0_0 : ∀ a, (![0, 0] : Fin 2 → Nat) a + S512x2048.size a ≤ S8192x2048.size a
  inb_S4_S1_1 : ∀ a, (![1] : Fin 1 → Nat) a + S1.size a ≤ S4.size a
  inb_S4x512x2048_S1x512x2048_1_0_0 : ∀ a, (![1, 0, 0] : Fin 3 → Nat) a + S1x512x2048.size a ≤ S4x512x2048.size a
  inb_S8192x2048_S512x2048_512_0 : ∀ a, (![512, 0] : Fin 2 → Nat) a + S512x2048.size a ≤ S8192x2048.size a
  h_S1x512x2048 : 0 < S1x512x2048.numel
  shapeCasts_S1x512x2048_S512x2048 : S1x512x2048.ShapeCasts S512x2048
  slices_S512x2048_o0_0_S512x1024 : S512x2048.Slices ![0, 0] S512x1024
  bitsLt_bf16_f32 : FTy.bits .bf16 < FTy.bits .f32
  inb_S4x512x1024_S1x512x1024_0_0_0 : ∀ a, (![0, 0, 0] : Fin 3 → Nat) a + S1x512x1024.size a ≤ S4x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  packedbf16_S4x512x1024_S1x512x1024_0_0_0 : (Rect.unit (s := S4x512x1024) ![0, 0, 0] S1x512x1024.size inb_S4x512x1024_S1x512x1024_0_0_0).PackedRows (EltTy.packing .bf16)
  slices_S512x2048_o0_1024_S512x1024 : S512x2048.Slices ![0, 1024] S512x1024
  inb_S16_S1_0 : ∀ a, (![0] : Fin 1 → Nat) a + S1.size a ≤ S16.size a
  squeezes_S1x512x1024_S512x1024 : S1x512x1024.Squeezes S512x1024
  wordsbf16_S4x512x1024_S1x512x1024_0_0_0 : (Rect.unit (s := S4x512x1024) ![0, 0, 0] S1x512x1024.size inb_S4x512x1024_S1x512x1024_0_0_0).WholeWords (EltTy.packing .bf16)
  inb_S4_S1_2 : ∀ a, (![2] : Fin 1 → Nat) a + S1.size a ≤ S4.size a
  inb_S4x512x2048_S1x512x2048_2_0_0 : ∀ a, (![2, 0, 0] : Fin 3 → Nat) a + S1x512x2048.size a ≤ S4x512x2048.size a
  inb_S8192x2048_S512x2048_1024_0 : ∀ a, (![1024, 0] : Fin 2 → Nat) a + S512x2048.size a ≤ S8192x2048.size a
  inb_S4x512x1024_S1x512x1024_1_0_0 : ∀ a, (![1, 0, 0] : Fin 3 → Nat) a + S1x512x1024.size a ≤ S4x512x1024.size a
  packedbf16_S4x512x1024_S1x512x1024_1_0_0 : (Rect.unit (s := S4x512x1024) ![1, 0, 0] S1x512x1024.size inb_S4x512x1024_S1x512x1024_1_0_0).PackedRows (EltTy.packing .bf16)
  inb_S16_S1_1 : ∀ a, (![1] : Fin 1 → Nat) a + S1.size a ≤ S16.size a
  wordsbf16_S4x512x1024_S1x512x1024_1_0_0 : (Rect.unit (s := S4x512x1024) ![1, 0, 0] S1x512x1024.size inb_S4x512x1024_S1x512x1024_1_0_0).WholeWords (EltTy.packing .bf16)
  inb_S4_S1_3 : ∀ a, (![3] : Fin 1 → Nat) a + S1.size a ≤ S4.size a
  inb_S4x512x2048_S1x512x2048_3_0_0 : ∀ a, (![3, 0, 0] : Fin 3 → Nat) a + S1x512x2048.size a ≤ S4x512x2048.size a
  inb_S8192x2048_S512x2048_1536_0 : ∀ a, (![1536, 0] : Fin 2 → Nat) a + S512x2048.size a ≤ S8192x2048.size a
  inb_S4x512x1024_S1x512x1024_2_0_0 : ∀ a, (![2, 0, 0] : Fin 3 → Nat) a + S1x512x1024.size a ≤ S4x512x1024.size a
  packedbf16_S4x512x1024_S1x512x1024_2_0_0 : (Rect.unit (s := S4x512x1024) ![2, 0, 0] S1x512x1024.size inb_S4x512x1024_S1x512x1024_2_0_0).PackedRows (EltTy.packing .bf16)
  inb_S16_S1_2 : ∀ a, (![2] : Fin 1 → Nat) a + S1.size a ≤ S16.size a
  wordsbf16_S4x512x1024_S1x512x1024_2_0_0 : (Rect.unit (s := S4x512x1024) ![2, 0, 0] S1x512x1024.size inb_S4x512x1024_S1x512x1024_2_0_0).WholeWords (EltTy.packing .bf16)
  inb_S8192x2048_S512x2048_2048_0 : ∀ a, (![2048, 0] : Fin 2 → Nat) a + S512x2048.size a ≤ S8192x2048.size a
  inb_S4x512x1024_S1x512x1024_3_0_0 : ∀ a, (![3, 0, 0] : Fin 3 → Nat) a + S1x512x1024.size a ≤ S4x512x1024.size a
  packedbf16_S4x512x1024_S1x512x1024_3_0_0 : (Rect.unit (s := S4x512x1024) ![3, 0, 0] S1x512x1024.size inb_S4x512x1024_S1x512x1024_3_0_0).PackedRows (EltTy.packing .bf16)
  inb_S16_S1_3 : ∀ a, (![3] : Fin 1 → Nat) a + S1.size a ≤ S16.size a
  wordsbf16_S4x512x1024_S1x512x1024_3_0_0 : (Rect.unit (s := S4x512x1024) ![3, 0, 0] S1x512x1024.size inb_S4x512x1024_S1x512x1024_3_0_0).WholeWords (EltTy.packing .bf16)
  inb_S8192x2048_S512x2048_2560_0 : ∀ a, (![2560, 0] : Fin 2 → Nat) a + S512x2048.size a ≤ S8192x2048.size a
  inb_S16_S1_4 : ∀ a, (![4] : Fin 1 → Nat) a + S1.size a ≤ S16.size a
  inb_S8192x2048_S512x2048_3072_0 : ∀ a, (![3072, 0] : Fin 2 → Nat) a + S512x2048.size a ≤ S8192x2048.size a
  inb_S16_S1_5 : ∀ a, (![5] : Fin 1 → Nat) a + S1.size a ≤ S16.size a
  inb_S8192x2048_S512x2048_3584_0 : ∀ a, (![3584, 0] : Fin 2 → Nat) a + S512x2048.size a ≤ S8192x2048.size a
  inb_S16_S1_6 : ∀ a, (![6] : Fin 1 → Nat) a + S1.size a ≤ S16.size a
  inb_S8192x2048_S512x2048_4096_0 : ∀ a, (![4096, 0] : Fin 2 → Nat) a + S512x2048.size a ≤ S8192x2048.size a
  inb_S16_S1_7 : ∀ a, (![7] : Fin 1 → Nat) a + S1.size a ≤ S16.size a
  inb_S8192x2048_S512x2048_4608_0 : ∀ a, (![4608, 0] : Fin 2 → Nat) a + S512x2048.size a ≤ S8192x2048.size a
  inb_S16_S1_8 : ∀ a, (![8] : Fin 1 → Nat) a + S1.size a ≤ S16.size a
  inb_S8192x2048_S512x2048_5120_0 : ∀ a, (![5120, 0] : Fin 2 → Nat) a + S512x2048.size a ≤ S8192x2048.size a
  inb_S16_S1_9 : ∀ a, (![9] : Fin 1 → Nat) a + S1.size a ≤ S16.size a
  inb_S8192x2048_S512x2048_5632_0 : ∀ a, (![5632, 0] : Fin 2 → Nat) a + S512x2048.size a ≤ S8192x2048.size a
  inb_S16_S1_10 : ∀ a, (![10] : Fin 1 → Nat) a + S1.size a ≤ S16.size a
  inb_S8192x2048_S512x2048_6144_0 : ∀ a, (![6144, 0] : Fin 2 → Nat) a + S512x2048.size a ≤ S8192x2048.size a
  inb_S16_S1_11 : ∀ a, (![11] : Fin 1 → Nat) a + S1.size a ≤ S16.size a
  inb_S8192x2048_S512x2048_6656_0 : ∀ a, (![6656, 0] : Fin 2 → Nat) a + S512x2048.size a ≤ S8192x2048.size a
  inb_S16_S1_12 : ∀ a, (![12] : Fin 1 → Nat) a + S1.size a ≤ S16.size a
  inb_S8192x2048_S512x2048_7168_0 : ∀ a, (![7168, 0] : Fin 2 → Nat) a + S512x2048.size a ≤ S8192x2048.size a
  inb_S16_S1_13 : ∀ a, (![13] : Fin 1 → Nat) a + S1.size a ≤ S16.size a
  inb_S8192x2048_S512x2048_7680_0 : ∀ a, (![7680, 0] : Fin 2 → Nat) a + S512x2048.size a ≤ S8192x2048.size a
  inb_S16_S1_14 : ∀ a, (![14] : Fin 1 → Nat) a + S1.size a ≤ S16.size a
  inb_S16_S1_15 : ∀ a, (![15] : Fin 1 → Nat) a + S1.size a ≤ S16.size a
  hcc0_scratch3 : 0 + S4.numel ≤ 28
  hcc0_scratch4 : 4 + S4.numel ≤ 28
  hcc0_scratch5 : 8 + S4.numel ≤ 28
  hcc0_scratch6 : 12 + S16.numel ≤ 28
  k0_dev1_lt : ∀ d0 : Dev nD, (k0_dev1 d0) < nD
  k0_off1_inb : ∀ d0 : Dev nD, ∀ (r : Fin 16), ∀ a, (k0_off1 d0 (BitVec.ofNat 32 (512 * r.val))) a + S512x1024.size a ≤ S16384x1024.size a
  k0_off1_wordsbf16 : ∀ d0 : Dev nD, ∀ (r : Fin 16), (Rect.unit (s := S16384x1024) (k0_off1 d0 (BitVec.ofNat 32 (512 * r.val))) S512x1024.size (k0_off1_inb d0 r)).WholeWords (EltTy.packing .bf16)
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD

variable [Facts₀]

abbrev cc0_scratch3 : DmaSems sig S4 := SemArray.consecutive 0 S4 hcc0_scratch3
abbrev cc0_scratch4 : DmaSems sig S4 := SemArray.consecutive 4 S4 hcc0_scratch4
abbrev cc0_scratch5 : DmaSems sig S4 := SemArray.consecutive 8 S4 hcc0_scratch5
abbrev cc0_scratch6 : DmaSems sig S16 := SemArray.consecutive 12 S16 hcc0_scratch6

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S16384x2048 : Shape := ⟨2, ![16384, 2048]⟩

abbrev nBuf : Space → Nat
  | .hbm => 2
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.KernelIdealX.Peer.lean ====
/-
  The pairing of devices. The mesh is 2 × 4 × 4, devices numbered row-major, so device `c` sits at
  (c / 16, c / 4 % 4, c % 4). Every exchange of this kernel is between a device and the one device that differs
  from it in the FIRST coordinate only: `peer c` has the other first coordinate and the same two others, which is
  `c + 16` for `c < 16` and `c - 16` otherwise. The pairing is an involution without fixed point.
-/
import proofs.«900651_g7700000000000652_dist_a2a_v7x_xyz2x4x4_x_m8192_n1024_bf16_1_alg».proof.Proof.Gen.KernelIdeal

noncomputable section

namespace Cert.KernelIdeal.A2A

open Cert.KernelIdeal Idealize.ShloMosaic

/-- The device with the other first mesh coordinate and the same second and third, in the closed form the printed
    device chains evaluate to. -/
def peer (c : Dev nD) : Dev nD :=
  ⟨(4 * ((c.val / 4) % 4) + (c.val % 4) + 16) - 16 * (c.val / 16), by
    have h : c.val < 32 := c.isLt
    show (4 * ((c.val / 4) % 4) + (c.val % 4) + 16) - 16 * (c.val / 16) < 32
    omega⟩

theorem peer_peer (c : Dev nD) : peer (peer c) = c := by revert c; decide
theorem peer_ne (c : Dev nD) : peer c ≠ c := by revert c; decide

/-- The pairing as a permutation of the devices (its own inverse). -/
def pairing : Dev nD ≃ Dev nD := ⟨peer, peer, peer_peer, peer_peer⟩

/-- A device's first mesh coordinate: which half of the rows of `x` it holds, and which half of the columns of
    the result it must end with. -/
def xco (c : Dev nD) : Nat := c.val / 16

theorem xco_lt (c : Dev nD) : xco c < 2 := by revert c; decide
theorem xco_peer (c : Dev nD) : xco (peer c) = 1 - xco c := by revert c; decide

end Cert.KernelIdeal.A2A

end
-- ==== Proof.KernelIdealX.Tables.lean ====
import proofs.«900651_g7700000000000652_dist_a2a_v7x_xyz2x4x4_x_m8192_n1024_bf16_1_alg».proof.Proof.KernelIdealX.Peer

noncomputable section

namespace Cert.KernelIdeal.A2A

open Cert.KernelIdeal Cert.KernelIdeal.Gen Idealize.ShloMosaic Idealize.ShloMosaic.TcCoe

/-- Each printed device chain names the peer. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)
theorem dev4_eq (c : Dev nD) : (⟨k0_dev4 c, k0_dev4_lt c⟩ : Dev nD) = peer c := Fin.ext (k0_dev4_eq c)
theorem dev5_eq (c : Dev nD) : (⟨k0_dev5 c, k0_dev5_lt c⟩ : Dev nD) = peer c := Fin.ext (k0_dev5_eq c)
theorem dev6_eq (c : Dev nD) : (⟨k0_dev6 c, k0_dev6_lt c⟩ : Dev nD) = peer c := Fin.ext (k0_dev6_eq c)
theorem dev7_eq (c : Dev nD) : (⟨k0_dev7 c, k0_dev7_lt c⟩ : Dev nD) = peer c := Fin.ext (k0_dev7_eq c)
theorem dev8_eq (c : Dev nD) : (⟨k0_dev8 c, k0_dev8_lt c⟩ : Dev nD) = peer c := Fin.ext (k0_dev8_eq c)
theorem dev9_eq (c : Dev nD) : (⟨k0_dev9 c, k0_dev9_lt c⟩ : Dev nD) = peer c := Fin.ext (k0_dev9_eq c)
theorem dev10_eq (c : Dev nD) : (⟨k0_dev10 c, k0_dev10_lt c⟩ : Dev nD) = peer c := Fin.ext (k0_dev10_eq c)
theorem dev11_eq (c : Dev nD) : (⟨k0_dev11 c, k0_dev11_lt c⟩ : Dev nD) = peer c := Fin.ext (k0_dev11_eq c)
theorem dev12_eq (c : Dev nD) : (⟨k0_dev12 c, k0_dev12_lt c⟩ : Dev nD) = peer c := Fin.ext (k0_dev12_eq c)
theorem dev13_eq (c : Dev nD) : (⟨k0_dev13 c, k0_dev13_lt c⟩ : Dev nD) = peer c := Fin.ext (k0_dev13_eq c)
theorem dev14_eq (c : Dev nD) : (⟨k0_dev14 c, k0_dev14_lt c⟩ : Dev nD) = peer c := Fin.ext (k0_dev14_eq c)
theorem dev15_eq (c : Dev nD) : (⟨k0_dev15 c, k0_dev15_lt c⟩ : Dev nD) = peer c := Fin.ext (k0_dev15_eq c)
theorem dev16_eq (c : Dev nD) : (⟨k0_dev16 c, k0_dev16_lt c⟩ : Dev nD) = peer c := Fin.ext (k0_dev16_eq c)
theorem dev17_eq (c : Dev nD) : (⟨k0_dev17 c, k0_dev17_lt c⟩ : Dev nD) = peer c := Fin.ext (k0_dev17_eq c)

end Cert.KernelIdeal.A2A

end
-- ==== Proof.KernelIdealX.Proto.lean ====
/-
  The protocol of the exchange, as a schedule of rounds.

  Device `c` holds rows 8192·x … of the whole `x` (x its first mesh coordinate) and must end with columns 1024·x … of
  the whole result. It cuts its 8192 rows into 16 chunks of 512. Of chunk `i` it KEEPS the column half it needs itself
  (a local copy into rows 8192·x + 512·i of its own result array) and SENDS the other half to its peer, which needs
  exactly that half (a remote copy into the same rows of the PEER's result array). So each result array is written in
  its own device's row half by sixteen local copies and in the other row half by the peer's sixteen remote copies.

  Cells (one duty a round each, the duty named `()`):
  · the barrier semaphore of a device: one round, one unit, paid by the peer's entry signal. What the signal hands
    over is the signaller's result rows that the receiver will write: the sixteen chunks of the far row half, at
    their launch contents.
  · a send semaphore (four, one per scratch slot): four rounds (chunks s, s+4, s+8, s+12), each paid by the device's
    own remote copy once the slot is read; it hands the slot back, at some contents.
  · a receive semaphore (sixteen, one per chunk): one round, paid by the peer's remote copy of that chunk once it has
    landed; it hands the owner those 512 rows of its result array HOLDING WHAT THE RESULT MUST HOLD THERE.
  The load and store semaphores serve local copies only and are no cells of the schedule.
-/
import proofs.«900651_g7700000000000652_dist_a2a_v7x_xyz2x4x4_x_m8192_n1024_bf16_1_alg».proof.Proof.KernelIdealX.Tables
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the exchange's own rounds, and the counters of the local copies -/

abbrev UB : Type := URounds (GSem nD τ sig) Unit
abbrev UX : Type := UB × Counters
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR
abbrev ER : Emb UB (MT nD τ sig Unit (Elt F) ℕ UU ℕ) := (Emb.inl : Emb UB UX).trans EX

instance ER_landsIn : (ER : Emb UB (MT nD τ sig Unit (Elt F) ℕ UU ℕ)).LandsIn (upEmb : UEmb _ (MT nD τ sig Unit (Elt F) ℕ UU ℕ)) := by
  unfold ER EX embR; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Semaphores, scratch slots and result rows, generic in the slot and the chunk

Each is the printed program's own expression with the literal index replaced by the variable's value, so that at a
literal slot or chunk it IS the program's expression (the two differ only in a numeral that evaluates). -/

theorem inbSem4 (s : Fin 4) : ∀ a, (![s.val] : Fin 1 → Nat) a + S1.size a ≤ S4.size a := by fin_cases s <;> decide
theorem inbSem16 (i : Fin 16) : ∀ a, (![i.val] : Fin 1 → Nat) a + S1.size a ≤ S16.size a := by fin_cases i <;> decide
theorem inbSlot (s : Fin 4) : ∀ a, (![s.val, 0, 0] : Fin 3 → Nat) a + S1x512x1024.size a ≤ S4x512x1024.size a := by
  fin_cases s <;> decide

/-- Slot `s`'s send semaphore. -/
abbrev sendS (s : Fin 4) : DmaSems sig S_ :=
  (cc0_scratch5.slice (Rect.unit (s := S4) ![s.val] S1.size (inbSem4 s))).squeeze S_ squeezes_S1_S_
/-- Chunk `i`'s receive semaphore. -/
abbrev recvS (i : Fin 16) : DmaSems sig S_ :=
  (cc0_scratch6.slice (Rect.unit (s := S16) ![i.val] S1.size (inbSem16 i))).squeeze S_ squeezes_S1_S_
/-- Slot `s` of the scratch buffer that holds the half to send. -/
abbrev sendSlot (s : Fin 4) : Memref sig .tc .vmem S512x1024 .bf16 :=
  ((Memref.whole cc0_scratch1).slice (Rect.unit (s := S4x512x1024) ![s.val, 0, 0] S1x512x1024.size (inbSlot s)) (fun _ => rfl)).squeeze
    S512x1024 squeezes_S1x512x1024_S512x1024
theorem inbSlotIn (s : Fin 4) : ∀ a, (![s.val, 0, 0] : Fin 3 → Nat) a + S1x512x2048.size a ≤ S4x512x2048.size a := by
  fin_cases s <;> decide
theorem inbChunkX (i : Fin 16) : ∀ a, (![512 * i.val, 0] : Fin 2 → Nat) a + S512x2048.size a ≤ S8192x2048.size a := by
  fin_cases i <;> decide
/-- Slot `s` of the scratch buffer the rows of `x` are loaded into. -/
abbrev inSlot (s : Fin 4) : Memref sig .tc .vmem S512x2048 .f32 :=
  ((Memref.whole cc0_scratch0).slice (Rect.unit (s := S4x512x2048) ![s.val, 0, 0] S1x512x2048.size (inbSlotIn s)) (fun _ => rfl)).squeeze
    S512x2048 squeezes_S1x512x2048_S512x2048
/-- Slot `s` of the scratch buffer that holds the half to keep. -/
abbrev keepSlot (s : Fin 4) : Memref sig .tc .vmem S512x1024 .bf16 :=
  ((Memref.whole cc0_scratch2).slice (Rect.unit (s := S4x512x1024) ![s.val, 0, 0] S1x512x1024.size (inbSlot s)) (fun _ => rfl)).squeeze
    S512x1024 squeezes_S1x512x1024_S512x1024
/-- Rows 512 i … 512 i + 511 of the device's block of `x`. -/
abbrev xChunk (i : Fin 16) : Memref sig .tc .hbm S512x2048 .f32 :=
  (Memref.whole main_arg0).slice (Rect.unit (s := S8192x2048) ![512 * i.val, 0] S512x2048.size (inbChunkX i)) (fun _ => rfl)
/-- The 512 rows of the result array that chunk `i` of device `d`'s rows goes to, on `d` itself and on its peer alike:
    rows 8192 (d / 16) + 512 i onwards (the printed offset function at the chunk's word). -/
abbrev outChunk (d : Dev nD) (i : Fin 16) : Memref sig .tc .hbm S512x1024 .bf16 :=
  (Memref.whole main_v1).slice (Rect.unit (s := S16384x1024) (k0_off1 d (BitVec.ofNat 32 (512 * i.val))) S512x1024.size (k0_off1_inb d i))
    (fun _ => rfl)

/-! ## Cells -/

abbrev barS : Sem sig := (SemArray.scalar (sig.barrier 0 rfl) : Sems sig S_).sem

abbrev barCell (c : Dev nD) : GSem nD τ sig := ((c : Thread nD τ), .reg barS)
abbrev sendCell (c : Dev nD) (s : Fin 4) : GSem nD τ sig := ((c : Thread nD τ), .dma (sendS s).sem)
abbrev recvCell (c : Dev nD) (i : Fin 16) : GSem nD τ sig := ((c : Thread nD τ), .dma (recvS i).sem)

/-- The credit of one half-chunk transfer (512 × 1024 bf16): the same number for every send and receive duty. -/
abbrev Nc : ℕ := (sendSlot (0 : Fin 4)).view.dmaCredit
theorem Nc_pos : 0 < Nc := View.dmaCredit_pos _ (by decide)

/-- Which chunk's receive semaphore a DMA semaphore is, found by search. -/
def recvIdx (q : DmaSem sig) : Option (Fin 16) := (List.finRange 16).find? fun i => decide ((recvS i).sem = q)
/-- Which slot's send semaphore a DMA semaphore is, found by search. -/
def sendIdx (q : DmaSem sig) : Option (Fin 4) := (List.finRange 4).find? fun s => decide ((sendS s).sem = q)

theorem recvIdx_recv (i : Fin 16) : recvIdx (recvS i).sem = some i := by fin_cases i <;> decide
theorem sendIdx_send (s : Fin 4) : sendIdx (sendS s).sem = some s := by fin_cases s <;> decide
theorem recvIdx_send (s : Fin 4) : recvIdx (sendS s).sem = none := by fin_cases s <;> decide
theorem recvIdx_send_none_of_recv (i : Fin 16) : sendIdx (recvS i).sem = none := by fin_cases i <;> decide

/-! ## Contents -/

/-- Device `d`'s block of `x` at launch. -/
abbrev xv (d : Dev nD) : Vec F S8192x2048 .f32 := m ((d : Thread nD τ).loc main_arg0)

/-- WHAT DEVICE `c`'s RESULT ARRAY MUST HOLD: at row `r`, column `k`, the (narrowed) entry of `x` at row `r` of the whole,
    column `1024·x(c) + k`. Row `r` of the whole `x` is row `r mod 8192` of the block of a device whose first coordinate is
    `r / 8192`: `c` itself or its peer. -/
def outSpec (c : Dev nD) : Buf (Elt F) ((c : Thread nD τ).loc main_v1) := fun j =>
  FloatOps.truncf .bf16 bitsLt_bf16_f32
    ((if (j 0).val / 8192 = xco c then xv m c else xv m (peer c))
      (ValueIdx.ix2 (⟨(j 0).val % 8192, Nat.mod_lt _ (by decide)⟩ : Fin 8192)
        (⟨1024 * xco c + (j 1).val, by
          have h1 := xco_lt c
          have h2 : (j 1).val < 1024 := (j 1).isLt
          omega⟩ : Fin 2048)))

/-! ## The schedule -/

/-- What the peer's entry signal hands device `c`: the sixteen chunks of the PEER's result array that `c` writes (the rows
    at `c`'s own offsets), at the peer's launch contents. -/
def barPay (c : Dev nD) : sProp 𝕄 :=
  bigSep Finset.univ fun i : Fin 16 =>
    ((outChunk c i).view.loc (peer c : Thread nD τ) ↦[(outChunk c i).view.set]{fullShare} m (((peer c : Dev nD) : Thread nD τ).loc main_v1) : sProp 𝕄)
/-- What the landing of the peer's chunk `i` hands device `c`: those rows of its result array (at the PEER's offsets),
    holding what the result must hold. -/
def recvPay (c : Dev nD) (i : Fin 16) : sProp 𝕄 :=
  ((outChunk (peer c) i).view.loc (c : Thread nD τ) ↦[(outChunk (peer c) i).view.set]{fullShare} outSpec m c : sProp 𝕄)
/-- What the completion of a send out of slot `s` hands device `c`: the slot, at some contents. -/
def sendPay (c : Dev nD) (s : Fin 4) : sProp 𝕄 :=
  iprop(∃ f, ((sendSlot s).view.loc (c : Thread nD τ) ↦[(sendSlot s).view.set]{fullShare} f : sProp 𝕄))

def sched : Rounds.Schedule (GSem nD τ sig) Unit 𝕄 where
  duties g r :=
    if g.1.2 = .tc then
      (match g.2 with
        | .reg q => if q = barS ∧ r = 0 then {()} else ∅
        | .dma q => if (recvIdx q).isSome ∧ r = 0 then {()} else if (sendIdx q).isSome ∧ r < 4 then {()} else ∅)
    else ∅
  unitless _ := False
  amount g _ _ := match g.2 with | .reg _ => 1 | .dma _ => Nc
  payload g _ _ := match g.2 with
    | .reg _ => barPay m g.1.1
    | .dma q => match recvIdx q with
      | some i => recvPay m g.1.1 i
      | none => match sendIdx q with
        | some s => sendPay g.1.1 s
        | none => iprop(emp)
  amount_pos g _ _ _ := by
    cases g.2 with
    | reg _ => exact Nat.one_pos
    | dma _ => exact Nc_pos

instance sched_payload_storable (g : GSem nD τ sig) (r : ℕ) (d : Unit) :
    BI.Storable (upEmb : UEmb _ 𝕄) ((sched (F := F) m).payload g r d) := by
  show BI.Storable upEmb (match g.2 with
    | .reg _ => barPay m g.1.1
    | .dma q => match recvIdx q with
      | some i => recvPay m g.1.1 i
      | none => match sendIdx q with
        | some s => sendPay g.1.1 s
        | none => iprop(emp))
  unfold barPay recvPay sendPay
  (repeat' split) <;> infer_instance

/-! ## The schedule's tables -/

section Tables
variable (c : Dev nD)

theorem duties_bar : (sched (F := F) m).duties (barCell c) 0 = {()} := by
  dsimp only [sched]; rw [if_pos rfl, if_pos ⟨rfl, rfl⟩]
theorem duties_recv (i : Fin 16) : (sched (F := F) m).duties (recvCell c i) 0 = {()} := by
  dsimp only [sched]; rw [if_pos rfl, recvIdx_recv, if_pos ⟨rfl, rfl⟩]
theorem duties_send (s : Fin 4) {r : ℕ} (hr : r < 4) : (sched (F := F) m).duties (sendCell c s) r = {()} := by
  dsimp only [sched]; rw [if_pos rfl, recvIdx_send, if_neg (fun h => Bool.false_ne_true h.1), sendIdx_send, if_pos ⟨rfl, hr⟩]
theorem duties_bar_later {r : ℕ} (hr : 1 ≤ r) : (sched (F := F) m).duties (barCell c) r = ∅ := by
  dsimp only [sched]; rw [if_pos rfl, if_neg (fun h => by omega)]
theorem duties_recv_later (i : Fin 16) {r : ℕ} (hr : 1 ≤ r) : (sched (F := F) m).duties (recvCell c i) r = ∅ := by
  dsimp only [sched]; rw [if_pos rfl, recvIdx_recv, if_neg (fun h => by omega), recvIdx_send_none_of_recv i, if_neg (fun h => Bool.false_ne_true h.1)]
theorem duties_send_later (s : Fin 4) {r : ℕ} (hr : 4 ≤ r) : (sched (F := F) m).duties (sendCell c s) r = ∅ := by
  dsimp only [sched]; rw [if_pos rfl, recvIdx_send, if_neg (fun h => Bool.false_ne_true h.1), if_neg (fun h => by omega)]

theorem amount_bar (r : ℕ) (d : Unit) : (sched (F := F) m).amount (barCell c) r d = 1 := rfl
theorem amount_recv (i : Fin 16) (r : ℕ) (d : Unit) : (sched (F := F) m).amount (recvCell c i) r d = Nc := rfl
theorem amount_send (s : Fin 4) (r : ℕ) (d : Unit) : (sched (F := F) m).amount (sendCell c s) r d = Nc := rfl

theorem payload_bar (r : ℕ) (d : Unit) : (sched (F := F) m).payload (barCell c) r d = barPay m c := rfl
theorem payload_recv (i : Fin 16) (r : ℕ) (d : Unit) : (sched (F := F) m).payload (recvCell c i) r d = recvPay m c i := by
  dsimp only [sched]; rw [recvIdx_recv]
theorem payload_send (s : Fin 4) (r : ℕ) (d : Unit) : (sched (F := F) m).payload (sendCell c s) r d = sendPay c s := by
  dsimp only [sched]; rw [recvIdx_send, sendIdx_send]

theorem expect_bar : (sched (F := F) m).expect (barCell c) 0 = 1 := by
  unfold Schedule.expect Schedule.amountOf; rw [duties_bar, Finset.sum_singleton, amount_bar]
theorem expect_recv (i : Fin 16) : (sched (F := F) m).expect (recvCell c i) 0 = Nc := by
  unfold Schedule.expect Schedule.amountOf; rw [duties_recv, Finset.sum_singleton, amount_recv]
theorem expect_send (s : Fin 4) {r : ℕ} (hr : r < 4) : (sched (F := F) m).expect (sendCell c s) r = Nc := by
  unfold Schedule.expect Schedule.amountOf; rw [duties_send m c s hr, Finset.sum_singleton, amount_send]

/-- The rest of a one-duty round with no duty taken is the duty's payload. -/
theorem rest_bar : bigSep ((sched (F := F) m).duties (barCell c) 0 \ ∅) (fun d => (sched (F := F) m).payload (barCell c) 0 d) = barPay m c := by
  rw [Finset.sdiff_empty, duties_bar, bigSep_singleton, payload_bar]
theorem rest_recv (i : Fin 16) : bigSep ((sched (F := F) m).duties (recvCell c i) 0 \ ∅) (fun d => (sched (F := F) m).payload (recvCell c i) 0 d) = recvPay m c i := by
  rw [Finset.sdiff_empty, duties_recv, bigSep_singleton, payload_recv]
theorem rest_send (s : Fin 4) {r : ℕ} (hr : r < 4) :
    bigSep ((sched (F := F) m).duties (sendCell c s) r \ ∅) (fun d => (sched (F := F) m).payload (sendCell c s) r d) = sendPay c s := by
  rw [Finset.sdiff_empty, duties_send m c s hr, bigSep_singleton, payload_send]

end Tables

/-! ## What a device owes

At launch: one unit to the peer's barrier cell and one transfer's credit to each of the peer's sixteen receive cells.
The receive credits are paid in chunk order, so the debt is kept as a sum whose LAST summand is the next to be paid:
`owedFrom c n` is what is still owed when `n` chunks are left to send (chunks 16 - n … 15). -/

def owedFrom (c : Dev nD) : ℕ → CellTallies nD τ sig Unit
  | 0 => 0
  | n + 1 => owedFrom c n + tallyAt (recvCell (peer c) ⟨15 - n % 16, by omega⟩) () Nc

def O₀ (c : Dev nD) : CellTallies nD τ sig Unit := owedFrom c 16 + tallyAt (barCell (peer c)) () 1

end Cert.KernelIdeal.A2A

end
-- ==== Proof.KernelIdealX.Ghost.lean ====
/-
  What a device's body starts from and ends with, stated once for the body's proof and for the launch.

  Levels: a device's local copies, its sends' completions and its barrier lie BELOW every receive cell, and those are
  the only cells a device waits on while it still owes anything (it owes the peer's receive cells their sixteen
  credits from launch until its last remote copy is issued; its own receive cells it awaits only after that). So no wait
  is ever on a cell at or above something the waiter still owes.
-/
import proofs.«900651_g7700000000000652_dist_a2a_v7x_xyz2x4x4_x_m8192_n1024_bf16_1_alg».proof.Proof.KernelIdealX.Proto
import proofs.«900651_g7700000000000652_dist_a2a_v7x_xyz2x4x4_x_m8192_n1024_bf16_1_alg».proof.Proof.Gen.KernelIdeal.Points
import proofs.«900651_g7700000000000652_dist_a2a_v7x_xyz2x4x4_x_m8192_n1024_bf16_1_alg».proof.Proof.Gen.KernelIdeal.Launch

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The cells of one device, indexed -/

/-- The barrier cell, the four send cells, the sixteen receive cells. -/
abbrev Cl : Type := Unit ⊕ (Fin 4 ⊕ Fin 16)
abbrev csem : Cl → SemLoc sig
  | .inl _ => .reg barS
  | .inr (.inl s) => .dma (sendS s).sem
  | .inr (.inr i) => .dma (recvS i).sem
abbrev kcell (ck : Dev nD × Cl) : GSem nD τ sig := ((ck.1 : Thread nD τ), csem ck.2)

/-- The eight DMA semaphores of the local copies (loads 0–3, stores 4–7), at zero. -/
def locals (c : Dev nD) : sProp 𝕄 :=
  iprop(semVal ((c : Thread nD τ), .dma 0) 0 ∗ semVal ((c : Thread nD τ), .dma 1) 0 ∗ semVal ((c : Thread nD τ), .dma 2) 0
    ∗ semVal ((c : Thread nD τ), .dma 3) 0 ∗ semVal ((c : Thread nD τ), .dma 4) 0 ∗ semVal ((c : Thread nD τ), .dma 5) 0
    ∗ semVal ((c : Thread nD τ), .dma 6) 0 ∗ semVal ((c : Thread nD τ), .dma 7) 0)

/-! ## Levels -/

def L (g : GSem nD τ sig) : Finset Unit := if g.1.2 = .tc then {()} else ∅
/-- Receive cells at 2, barrier cells at 1, everything else at 0. -/
def lv (g : GSem nD τ sig) (_ : Unit) : ℕ :=
  match g.2 with
  | .reg _ => 1
  | .dma q => if (recvIdx q).isSome then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state a device starts from -/

/-- The cells' invariants device `c`'s body opens, at the names `K` the launch allocated them: its own twenty-one, the
    peer's barrier cell (its signal) and the peer's sixteen receive cells (its remote copies). -/
def invs (K : Dev nD × Cl → ℕ) (c : Dev nD) : sProp 𝕄 :=
  iprop((bigSep Finset.univ fun k : Cl => cellInv ER (sched m) (K (c, k)) (kcell (c, k)))
    ∗ cellInv ER (sched m) (K (peer c, .inl ())) (barCell (peer c))
    ∗ bigSep Finset.univ fun i : Fin 16 => cellInv ER (sched m) (K (peer c, .inr (.inr i))) (recvCell (peer c) i))

instance invs_persistent (K : Dev nD × Cl → ℕ) (c : Dev nD) : BI.Persistent (invs m K c) := by unfold invs; infer_instance

/-- Its positions at round 0 of its own cells; round 0 reached of the cells it pays; the duty tokens it pays with: the
    peer's barrier duty, the peer's sixteen receive duties, its own sixteen send duties (four slots, four rounds). -/
def ghost (K : Dev nD × Cl → ℕ) (c : Dev nD) : sProp 𝕄 :=
  iprop(invs m K c
    ∗ (bigSep Finset.univ fun k : Cl => atPos ER (kcell (c, k)) 0 ∅ 0)
    ∗ reached ER (barCell (peer c)) 0
    ∗ (bigSep Finset.univ fun i : Fin 16 => reached ER (recvCell (peer c) i) 0)
    ∗ (bigSep Finset.univ fun s : Fin 4 => reached ER (sendCell c s) 0)
    ∗ dutyTok ER (barCell (peer c)) 0 ()
    ∗ (bigSep Finset.univ fun i : Fin 16 => dutyTok ER (recvCell (peer c) i) 0 ())
    ∗ (bigSep Finset.univ fun sr : Fin 4 × Fin 4 => dutyTok ER (sendCell c sr.1) sr.2.val ()))

/-- The credit dealt at launch: the barrier's one unit and each receive cell's transfer credit. -/
def creds (c : Dev nD) : sProp 𝕄 :=
  iprop(cred (tallyAt (barCell c) () 1) ∗ bigSep Finset.univ fun i : Fin 16 => cred (tallyAt (recvCell c i) () Nc))

/-- The buffers: the device's block of `x` and its result array as launched, the three scratch buffers at some contents. -/
def bufs (c : Dev nD) : sProp 𝕄 :=
  iprop(((Memref.whole main_arg0).view.loc (c : Thread nD τ) ↦{fullShare} m ((c : Thread nD τ).loc main_arg0))
    ∗ ((Memref.whole main_v1).view.loc (c : Thread nD τ) ↦{fullShare} m ((c : Thread nD τ).loc main_v1))
    ∗ (∃ f, (Memref.whole cc0_scratch0).view.loc (c : Thread nD τ) ↦{fullShare} f)
    ∗ (∃ f, (Memref.whole cc0_scratch1).view.loc (c : Thread nD τ) ↦{fullShare} f)
    ∗ (∃ f, (Memref.whole cc0_scratch2).view.loc (c : Thread nD τ) ↦{fullShare} f))

/-- What device `c`'s body starts from, its debt `owes c (O₀ c) W` apart. -/
def bodyPre (K : Dev nD × Cl → ℕ) (c : Dev nD) : sProp 𝕄 :=
  iprop(ghost m K c ∗ creds c ∗ levAts L lv ∗ locals c ∗ bufs m c)

/-- What it ends with: the result array holding what it must, `x` as launched, the scratch buffers at some contents, every
    one of the kernel's twenty-eight DMA semaphores back at zero (the local copies' eight and the closed send and receive
    cells' twenty). The barrier semaphore is the runtime's: nothing of it is handed back. -/
def bodyPost (c : Dev nD) : sProp 𝕄 :=
  iprop(((Memref.whole main_v1).view.loc (c : Thread nD τ) ↦{fullShare} outSpec m c)
    ∗ ((Memref.whole main_arg0).view.loc (c : Thread nD τ) ↦{fullShare} m ((c : Thread nD τ).loc main_arg0))
    ∗ (∃ f, (Memref.whole cc0_scratch0).view.loc (c : Thread nD τ) ↦{fullShare} f)
    ∗ (∃ f, (Memref.whole cc0_scratch1).view.loc (c : Thread nD τ) ↦{fullShare} f)
    ∗ (∃ f, (Memref.whole cc0_scratch2).view.loc (c : Thread nD τ) ↦{fullShare} f)
    ∗ locals c
    ∗ (bigSep Finset.univ fun s : Fin 4 => semVal (sendCell c s) 0)
    ∗ (bigSep Finset.univ fun i : Fin 16 => semVal (recvCell c i) 0))

end Cert.KernelIdeal.A2A

end
-- ==== Proof.KernelIdealX.Levels.lean ====
/-
  No wait of a device is on a cell at or above something it still owes: the ledger facts the waits of the body take.
  What a device owes after its entry signal is receive credit of the peer's cells only (level 2); what it waits on while it
  owes is its own barrier cell (level 1) and DMA semaphores that are no receive semaphore (level 0).
-/
import proofs.«900651_g7700000000000652_dist_a2a_v7x_xyz2x4x4_x_m8192_n1024_bf16_1_alg».proof.Proof.KernelIdealX.Ghost

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The levels of the three kinds of cell -/

/-- A receive cell sits at level 2: its semaphore is found among the receive semaphores. -/
theorem lv_recv (d : Dev nD) (i : Fin 16) (u : Unit) : lv (recvCell d i) u = 2 := by
  show (if (recvIdx (recvS i).sem).isSome then 2 else 0) = 2
  rw [recvIdx_recv]; rfl

/-- A DMA semaphore that is no receive semaphore sits at level 0, on whatever thread. -/
theorem lv_local (t : Thread nD τ) {q : DmaSem sig} (hq : recvIdx q = none) (u : Unit) : lv (t, .dma q) u = 0 := by
  show (if (recvIdx q).isSome then 2 else 0) = 0
  rw [hq]; rfl

/-- A regular semaphore sits at level 1, on whatever thread. -/
theorem lv_reg (t : Thread nD τ) (q : Sem sig) (u : Unit) : lv (t, .reg q) u = 1 := rfl

/-- Every cell of a TensorCore thread carries the one duty name. -/
theorem mem_L_tc (c : Dev nD) (sm : SemLoc sig) (u : Unit) : u ∈ L ((c : Thread nD τ), sm) := by
  rw [L_tc]; exact Finset.mem_singleton_self _

/-! ## Where the debt sits -/

/-- Whatever is still owed with `n` chunks left is owed to a receive cell of the peer. -/
theorem owedFrom_pos {c : Dev nD} {n : ℕ} {g : GSem nD τ sig} {u : Unit} (h : 0 < owedFrom c n g u) :
    ∃ i : Fin 16, g = recvCell (peer c) i := by
  induction n with
  | zero =>
    -- nothing is owed when no chunk is left
    have h' : 0 < (0 : CellTallies nD τ sig Unit) g u := h
    rw [Pi.zero_apply, Finsupp.coe_zero, Pi.zero_apply] at h'
    exact absurd h' (Nat.lt_irrefl 0)
  | succ n ih =>
    -- the debt with one more chunk left is the earlier debt plus one receive cell's credit
    have h' : 0 < (owedFrom c n + tallyAt (recvCell (peer c) ⟨15 - n % 16, by omega⟩) () Nc) g u := h
    rw [Pi.add_apply, Finsupp.add_apply, tallyAt_apply] at h'
    by_cases hg : g = recvCell (peer c) ⟨15 - n % 16, by omega⟩ ∧ u = ()
    · exact ⟨_, hg.1⟩
    · rw [if_neg hg, Nat.add_zero] at h'; exact ih h'

/-! ## The two kinds of wait a device makes while it owes -/

/-- A wait on a DMA semaphore that is no receive semaphore (a load's, a store's, a send's) is below everything a
    device can owe while chunks are left to send. -/
theorem mayWait_local (c : Dev nD) (q : DmaSem sig) (n : ℕ) (hq : recvIdx q = none) :
    (levAts L lv : sProp 𝕄) ⊢ MayWait (c : Thread nD τ) (.dma q) () (owedFrom c n) :=
  -- the cut is level 0: the waited cell is at 0, every owed cell is a receive cell of the peer, at 2
  MayOwe.of_cut (L := L) (lev := lv) 0
    (fun p hp => by rw [Finset.mem_singleton.mp hp]; exact mem_L_tc c _ _)
    (fun g u hg => by obtain ⟨i, rfl⟩ := owedFrom_pos hg; exact mem_L_tc (peer c) _ _)
    (fun p hp => by rw [Finset.mem_singleton.mp hp, lv_local _ hq])
    (fun g u hg => by obtain ⟨i, rfl⟩ := owedFrom_pos hg; rw [lv_recv]; exact Nat.two_pos)

/-- So is the wait on the device's own barrier semaphore. -/
theorem mayWait_bar (c : Dev nD) (n : ℕ) :
    (levAts L lv : sProp 𝕄) ⊢ MayWait (c : Thread nD τ) (.reg barS) () (owedFrom c n) :=
  -- the cut is level 1: the barrier cell is at 1, every owed cell is a receive cell of the peer, at 2
  MayOwe.of_cut (L := L) (lev := lv) 1
    (fun p hp => by rw [Finset.mem_singleton.mp hp]; exact mem_L_tc c _ _)
    (fun g u hg => by obtain ⟨i, rfl⟩ := owedFrom_pos hg; exact mem_L_tc (peer c) _ _)
    (fun p hp => by rw [Finset.mem_singleton.mp hp, lv_reg])
    (fun g u hg => by obtain ⟨i, rfl⟩ := owedFrom_pos hg; rw [lv_recv]; exact Nat.one_lt_two)

end Cert.KernelIdeal.A2A

end
-- ==== Proof.KernelIdealX.Parts.lean ====
/-
  Cutting the buffers the way the body addresses them, and putting them back.

  Each of the three scratch buffers is four slots [s, :, :]; the result array is thirty-two bands of 512 rows: band i of the
  row half of a device d (rows 8192·(d / 16) + 512·i, the rows d's chunk i goes to) for the sixteen i, and the same for
  the other row half, which is the peer's. The slots, and the bands, are pairwise disjoint and cover the buffer, so a
  points-to on the whole buffer is the separating conjunction of the points-to's on the parts at the same contents, and
  parts held at DIFFERENT contents join to the whole at SOME contents.
-/
import proofs.«900651_g7700000000000652_dist_a2a_v7x_xyz2x4x4_x_m8192_n1024_bf16_1_alg».proof.Proof.KernelIdealX.Proto

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A buffer covered by pairwise disjoint parts -/

section Cover

variable {ℓ : Loc nD τ sig} {T : Type} [Fintype T]

/-- If pairwise disjoint element sets `K t` cover a buffer, the points-to on the whole buffer is the separating
    conjunction of the points-to's on the parts, at the same contents. -/
theorem split_of_cover (K : T → Finset (Idx ℓ)) (hc : (Finset.univ : Finset (Idx ℓ)) = Finset.univ.biUnion K)
    (hd : ∀ t t', t ≠ t' → Disjoint (K t) (K t')) (f : Buf (Elt F) ℓ) :
    (ℓ ↦{fullShare} f : sProp 𝕄) = bigSep Finset.univ fun t : T => (ℓ ↦[K t]{fullShare} f : sProp 𝕄) :=
  (congrArg (fun I => (ℓ ↦[I]{fullShare} f : sProp 𝕄)) hc).trans
    (pointsTo_biUnion Finset.univ K (fun t _ t' _ hne => hd t t' hne))

/-- If pairwise disjoint element sets `K t` cover a buffer, parts held at different contents join to the whole buffer
    at the contents that agree with each part's on that part. -/
theorem join_of_cover (K : T → Finset (Idx ℓ)) (hc : (Finset.univ : Finset (Idx ℓ)) = Finset.univ.biUnion K)
    (hd : ∀ t t', t ≠ t' → Disjoint (K t) (K t')) (fs : T → Buf (Elt F) ℓ) (f₀ : Buf (Elt F) ℓ) :
    (bigSep Finset.univ fun t : T => (ℓ ↦[K t]{fullShare} fs t : sProp 𝕄))
      ⊢ iprop(∃ f, (ℓ ↦{fullShare} f : sProp 𝕄)) := by
  have h := pointsTo_biUnion_join (U := UU) (Ix := Unit) (Val := Elt F) (Name := ℕ) (Lvl := ℕ) (ℓ := ℓ) (q := fullShare)
    Finset.univ K fs f₀ (fun t _ t' _ hne => hd t t' hne)
  refine h.trans (exists_elim fun g => ?_)
  have e : (ℓ ↦[Finset.univ.biUnion K]{fullShare} g : sProp 𝕄) ⊢ (ℓ ↦[Finset.univ]{fullShare} g : sProp 𝕄) :=
    Entails.of_eq (congrArg (fun I => (ℓ ↦[I]{fullShare} g : sProp 𝕄)) hc.symm)
  exact (sep_elim_right.trans e).trans (exists_intro (Φ := fun f => (ℓ ↦[Finset.univ]{fullShare} f : sProp 𝕄)) g)

end Cover

/-! ## The slots of the scratch buffers

A slot `[s, :, :]` of a buffer of shape `[4, 512, W]` holds exactly the indices whose first coordinate is `s`. -/

/-- The index `j` of a `[4, 512, 2048]` buffer lies in the rectangle `[s, :, :]` iff its first coordinate is `s`. -/
theorem mem_slot2048 (s : Fin 4) (j : S4x512x2048.Idx) :
    j ∈ (Rect.unit (s := S4x512x2048) ![s.val, 0, 0] S1x512x2048.size (inbSlotIn s)).set ↔ (j 0).val = s.val := by
  rw [Rect.mem_set_unit]
  constructor
  · intro h
    have h0 := h 0
    change s.val ≤ (j 0).val ∧ (j 0).val < s.val + 1 at h0
    omega
  · intro h a
    fin_cases a
    · show s.val ≤ (j 0).val ∧ (j 0).val < s.val + 1
      omega
    · have h1 : (j 1).val < 512 := (j 1).isLt
      show 0 ≤ (j 1).val ∧ (j 1).val < 0 + 512
      omega
    · have h2 : (j 2).val < 2048 := (j 2).isLt
      show 0 ≤ (j 2).val ∧ (j 2).val < 0 + 2048
      omega

/-- The index `j` of a `[4, 512, 1024]` buffer lies in the rectangle `[s, :, :]` iff its first coordinate is `s`. -/
theorem mem_slot1024 (s : Fin 4) (j : S4x512x1024.Idx) :
    j ∈ (Rect.unit (s := S4x512x1024) ![s.val, 0, 0] S1x512x1024.size (inbSlot s)).set ↔ (j 0).val = s.val := by
  rw [Rect.mem_set_unit]
  constructor
  · intro h
    have h0 := h 0
    change s.val ≤ (j 0).val ∧ (j 0).val < s.val + 1 at h0
    omega
  · intro h a
    fin_cases a
    · show s.val ≤ (j 0).val ∧ (j 0).val < s.val + 1
      omega
    · have h1 : (j 1).val < 512 := (j 1).isLt
      show 0 ≤ (j 1).val ∧ (j 1).val < 0 + 512
      omega
    · have h2 : (j 2).val < 1024 := (j 2).isLt
      show 0 ≤ (j 2).val ∧ (j 2).val < 0 + 1024
      omega

/-- The elements of slot `s` of the buffer of loaded rows are those of the rectangle `[s, :, :]`: squeezing keeps the
    elements, and a slice of the whole buffer has its rectangle's. -/
theorem inSlot_set (s : Fin 4) :
    (inSlot s).view.set = (Rect.unit (s := S4x512x2048) ![s.val, 0, 0] S1x512x2048.size (inbSlotIn s)).set :=
  (View.set_reshape _ _).trans (View.set_slice_whole _ _)
/-- The same for the buffer of the half to send, -/
theorem sendSlot_set (s : Fin 4) :
    (sendSlot s).view.set = (Rect.unit (s := S4x512x1024) ![s.val, 0, 0] S1x512x1024.size (inbSlot s)).set :=
  (View.set_reshape _ _).trans (View.set_slice_whole _ _)
/-- and for the buffer of the half to keep. -/
theorem keepSlot_set (s : Fin 4) :
    (keepSlot s).view.set = (Rect.unit (s := S4x512x1024) ![s.val, 0, 0] S1x512x1024.size (inbSlot s)).set :=
  (View.set_reshape _ _).trans (View.set_slice_whole _ _)

/-- An index lies in slot `s` of the buffer of loaded rows iff its first coordinate is `s`; -/
theorem mem_inSlot (s : Fin 4) (j : S4x512x2048.Idx) : j ∈ (inSlot s).view.set ↔ (j 0).val = s.val := by
  rw [inSlot_set]; exact mem_slot2048 s j
/-- the same for the buffer of the half to send, -/
theorem mem_sendSlot (s : Fin 4) (j : S4x512x1024.Idx) : j ∈ (sendSlot s).view.set ↔ (j 0).val = s.val := by
  rw [sendSlot_set]; exact mem_slot1024 s j
/-- and for the buffer of the half to keep. -/
theorem mem_keepSlot (s : Fin 4) (j : S4x512x1024.Idx) : j ∈ (keepSlot s).view.set ↔ (j 0).val = s.val := by
  rw [keepSlot_set]; exact mem_slot1024 s j

/-- Every index lies in the slot its first coordinate names. -/
theorem in_cover : (Finset.univ : Finset S4x512x2048.Idx) = Finset.univ.biUnion (fun s : Fin 4 => (inSlot s).view.set) := by
  ext j
  simp only [Finset.mem_univ, Finset.mem_biUnion, true_and, true_iff]
  exact ⟨⟨(j 0).val, (j 0).isLt⟩, (mem_inSlot _ j).mpr rfl⟩
/-- The same for the buffer of the half to send, -/
theorem send_cover : (Finset.univ : Finset S4x512x1024.Idx) = Finset.univ.biUnion (fun s : Fin 4 => (sendSlot s).view.set) := by
  ext j
  simp only [Finset.mem_univ, Finset.mem_biUnion, true_and, true_iff]
  exact ⟨⟨(j 0).val, (j 0).isLt⟩, (mem_sendSlot _ j).mpr rfl⟩
/-- and for the buffer of the half to keep. -/
theorem keep_cover : (Finset.univ : Finset S4x512x1024.Idx) = Finset.univ.biUnion (fun s : Fin 4 => (keepSlot s).view.set) := by
  ext j
  simp only [Finset.mem_univ, Finset.mem_biUnion, true_and, true_iff]
  exact ⟨⟨(j 0).val, (j 0).isLt⟩, (mem_keepSlot _ j).mpr rfl⟩

/-- Two different slots share no index: a common one would have both as its first coordinate. -/
theorem in_disj (t t' : Fin 4) (hne : t ≠ t') : Disjoint ((inSlot t).view.set) ((inSlot t').view.set) := by
  rw [Finset.disjoint_left]
  intro j h1 h2
  rw [mem_inSlot] at h1 h2
  exact hne (Fin.ext (h1.symm.trans h2))
/-- The same for the buffer of the half to send, -/
theorem send_disj (t t' : Fin 4) (hne : t ≠ t') : Disjoint ((sendSlot t).view.set) ((sendSlot t').view.set) := by
  rw [Finset.disjoint_left]
  intro j h1 h2
  rw [mem_sendSlot] at h1 h2
  exact hne (Fin.ext (h1.symm.trans h2))
/-- and for the buffer of the half to keep. -/
theorem keep_disj (t t' : Fin 4) (hne : t ≠ t') : Disjoint ((keepSlot t).view.set) ((keepSlot t').view.set) := by
  rw [Finset.disjoint_left]
  intro j h1 h2
  rw [mem_keepSlot] at h1 h2
  exact hne (Fin.ext (h1.symm.trans h2))

/-- The scratch buffer of the loaded rows, whole, is its four slots. -/
theorem in_split (c : Dev nD) (f : Buf (Elt F) ((c : Thread nD τ).loc cc0_scratch0)) :
    ((Memref.whole cc0_scratch0).view.loc (c : Thread nD τ) ↦{fullShare} f : sProp 𝕄)
      = bigSep Finset.univ fun s : Fin 4 => ((inSlot s).view.loc (c : Thread nD τ) ↦[(inSlot s).view.set]{fullShare} f : sProp 𝕄) :=
  split_of_cover (ℓ := (c : Thread nD τ).loc cc0_scratch0) (fun s : Fin 4 => (inSlot s).view.set) in_cover in_disj f
theorem send_split (c : Dev nD) (f : Buf (Elt F) ((c : Thread nD τ).loc cc0_scratch1)) :
    ((Memref.whole cc0_scratch1).view.loc (c : Thread nD τ) ↦{fullShare} f : sProp 𝕄)
      = bigSep Finset.univ fun s : Fin 4 => ((sendSlot s).view.loc (c : Thread nD τ) ↦[(sendSlot s).view.set]{fullShare} f : sProp 𝕄) :=
  split_of_cover (ℓ := (c : Thread nD τ).loc cc0_scratch1) (fun s : Fin 4 => (sendSlot s).view.set) send_cover send_disj f
theorem keep_split (c : Dev nD) (f : Buf (Elt F) ((c : Thread nD τ).loc cc0_scratch2)) :
    ((Memref.whole cc0_scratch2).view.loc (c : Thread nD τ) ↦{fullShare} f : sProp 𝕄)
      = bigSep Finset.univ fun s : Fin 4 => ((keepSlot s).view.loc (c : Thread nD τ) ↦[(keepSlot s).view.set]{fullShare} f : sProp 𝕄) :=
  split_of_cover (ℓ := (c : Thread nD τ).loc cc0_scratch2) (fun s : Fin 4 => (keepSlot s).view.set) keep_cover keep_disj f

/-- Four slots held at four contents are the whole buffer at some contents. -/
theorem in_join (c : Dev nD) (fs : Fin 4 → Buf (Elt F) ((c : Thread nD τ).loc cc0_scratch0)) :
    (bigSep Finset.univ fun s : Fin 4 => ((inSlot s).view.loc (c : Thread nD τ) ↦[(inSlot s).view.set]{fullShare} fs s : sProp 𝕄))
      ⊢ iprop(∃ f, ((Memref.whole cc0_scratch0).view.loc (c : Thread nD τ) ↦{fullShare} f : sProp 𝕄)) :=
  join_of_cover (ℓ := (c : Thread nD τ).loc cc0_scratch0) (fun s : Fin 4 => (inSlot s).view.set) in_cover in_disj fs (fs 0)
theorem send_join (c : Dev nD) (fs : Fin 4 → Buf (Elt F) ((c : Thread nD τ).loc cc0_scratch1)) :
    (bigSep Finset.univ fun s : Fin 4 => ((sendSlot s).view.loc (c : Thread nD τ) ↦[(sendSlot s).view.set]{fullShare} fs s : sProp 𝕄))
      ⊢ iprop(∃ f, ((Memref.whole cc0_scratch1).view.loc (c : Thread nD τ) ↦{fullShare} f : sProp 𝕄)) :=
  join_of_cover (ℓ := (c : Thread nD τ).loc cc0_scratch1) (fun s : Fin 4 => (sendSlot s).view.set) send_cover send_disj fs (fs 0)
theorem keep_join (c : Dev nD) (fs : Fin 4 → Buf (Elt F) ((c : Thread nD τ).loc cc0_scratch2)) :
    (bigSep Finset.univ fun s : Fin 4 => ((keepSlot s).view.loc (c : Thread nD τ) ↦[(keepSlot s).view.set]{fullShare} fs s : sProp 𝕄))
      ⊢ iprop(∃ f, ((Memref.whole cc0_scratch2).view.loc (c : Thread nD τ) ↦{fullShare} f : sProp 𝕄)) :=
  join_of_cover (ℓ := (c : Thread nD τ).loc cc0_scratch2) (fun s : Fin 4 => (keepSlot s).view.set) keep_cover keep_disj fs (fs 0)

/-! ## The bands of the result array

Band `i` at device `d`'s offsets is rows `8192 · xco d + 512 i … + 511`: the indices whose row, divided by 512, is
`16 · xco d + i`. The peer's first coordinate is the other one, so the thirty-two bands are the thirty-two values of
`row / 512`. -/

/-- A band's elements are those of its rectangle of the whole array. -/
theorem outChunk_set (d : Dev nD) (i : Fin 16) :
    (outChunk d i).view.set
      = (Rect.unit (s := S16384x1024) (k0_off1 d (BitVec.ofNat 32 (512 * i.val))) S512x1024.size (k0_off1_inb d i)).set :=
  View.set_slice_whole _ _

/-- An index lies in band `i` at `d`'s offsets iff its row over 512 is `16 · xco d + i`. -/
theorem mem_outChunk (d : Dev nD) (i : Fin 16) (j : S16384x1024.Idx) :
    j ∈ (outChunk d i).view.set ↔ (j 0).val / 512 = 16 * xco d + i.val := by
  rw [outChunk_set, Rect.mem_set_unit, k0_off1_eq]
  have hi : i.val < 16 := i.isLt
  unfold xco
  constructor
  · intro h
    have h0 := h 0
    change 8192 * (d.val / 16) + 512 * i.val ≤ (j 0).val ∧ (j 0).val < 8192 * (d.val / 16) + 512 * i.val + 512 at h0
    omega
  · intro h a
    fin_cases a
    · show 8192 * (d.val / 16) + 512 * i.val ≤ (j 0).val ∧ (j 0).val < 8192 * (d.val / 16) + 512 * i.val + 512
      omega
    · have h1 : (j 1).val < 1024 := (j 1).isLt
      show 0 ≤ (j 1).val ∧ (j 1).val < 0 + 1024
      omega

/-- The rows a device's sixteen chunks go to. -/
def outHalf (d : Dev nD) : Finset S16384x1024.Idx := Finset.univ.biUnion fun i : Fin 16 => (outChunk d i).view.set

/-- An index lies in `d`'s row half iff its row over 8192 is `xco d`. -/
theorem mem_outHalf (d : Dev nD) (j : S16384x1024.Idx) : j ∈ outHalf d ↔ (j 0).val / 8192 = xco d := by
  have hx := xco_lt d
  have hj : (j 0).val < 16384 := (j 0).isLt
  unfold outHalf
  rw [Finset.mem_biUnion]
  constructor
  · rintro ⟨i, _, hi⟩
    have hi' := (mem_outChunk d i j).mp hi
    have := i.isLt
    omega
  · intro h
    refine ⟨⟨(j 0).val / 512 % 16, Nat.mod_lt _ (by decide)⟩, Finset.mem_univ _, (mem_outChunk d _ j).mpr ?_⟩
    show (j 0).val / 512 = 16 * xco d + (j 0).val / 512 % 16
    omega

/-- Two different bands at one device's offsets share no index. -/
theorem out_disj (d : Dev nD) (t t' : Fin 16) (hne : t ≠ t') : Disjoint ((outChunk d t).view.set) ((outChunk d t').view.set) := by
  rw [Finset.disjoint_left]
  intro j h1 h2
  rw [mem_outChunk] at h1 h2
  exact hne (Fin.ext (by omega))

/-- The two row halves share no index, -/
theorem outHalf_disj (d : Dev nD) : Disjoint (outHalf d) (outHalf (peer d)) := by
  rw [Finset.disjoint_left]
  intro j h1 h2
  rw [mem_outHalf] at h1 h2
  rw [xco_peer] at h2
  have hx := xco_lt d
  omega

/-- and cover the array. -/
theorem outHalf_cover (d : Dev nD) : (Finset.univ : Finset S16384x1024.Idx) = outHalf d ∪ outHalf (peer d) := by
  ext j
  have hx := xco_lt d
  have hj : (j 0).val < 16384 := (j 0).isLt
  simp only [Finset.mem_univ, Finset.mem_union, true_iff, mem_outHalf, xco_peer]
  omega

/-- The result array ON DEVICE `c'`, whole, is the sixteen bands at device `d`'s offsets and the sixteen at its peer's (used at
    `c' = d` and at `c' = peer d`). -/
theorem out_split (c' d : Dev nD) (f : Buf (Elt F) ((c' : Thread nD τ).loc main_v1)) :
    ((Memref.whole main_v1).view.loc (c' : Thread nD τ) ↦{fullShare} f : sProp 𝕄)
      = iprop((bigSep Finset.univ fun i : Fin 16 => ((outChunk d i).view.loc (c' : Thread nD τ) ↦[(outChunk d i).view.set]{fullShare} f : sProp 𝕄))
          ∗ bigSep Finset.univ fun i : Fin 16 => ((outChunk (peer d) i).view.loc (c' : Thread nD τ) ↦[(outChunk (peer d) i).view.set]{fullShare} f : sProp 𝕄)) := by
  have hu := pointsTo_union (U := UU) (Ix := Unit) (Val := Elt F) (Name := ℕ) (Lvl := ℕ) (ℓ := (c' : Thread nD τ).loc main_v1)
    (q := fullShare) (f := f) (I := outHalf d) (J := outHalf (peer d)) (outHalf_disj d)
  have hA := pointsTo_biUnion (U := UU) (Ix := Unit) (Val := Elt F) (Name := ℕ) (Lvl := ℕ) (ℓ := (c' : Thread nD τ).loc main_v1)
    (q := fullShare) (f := f) Finset.univ (fun i : Fin 16 => (outChunk d i).view.set) (fun t _ t' _ hne => out_disj d t t' hne)
  have hB := pointsTo_biUnion (U := UU) (Ix := Unit) (Val := Elt F) (Name := ℕ) (Lvl := ℕ) (ℓ := (c' : Thread nD τ).loc main_v1)
    (q := fullShare) (f := f) Finset.univ (fun i : Fin 16 => (outChunk (peer d) i).view.set) (fun t _ t' _ hne => out_disj (peer d) t t' hne)
  exact ((congrArg (fun I => ((c' : Thread nD τ).loc main_v1 ↦[I]{fullShare} f : sProp 𝕄)) (outHalf_cover d)).trans
    (BI.equiv_iff.mp ⟨hu.1, hu.2⟩)).trans (congrArg₂ (fun P Q : sProp 𝕄 => iprop(P ∗ Q)) hA hB)

end Cert.KernelIdeal.A2A

end
-- ==== Proof.KernelIdealX.Send.lean ====
/-
  The remote copy of one chunk, as one rule: device `c` sends the half of chunk `i` that its peer needs, out of scratch slot
  `s` (round `r` of that slot's send cell), into the peer's result rows at `c`'s own offsets. The copy pays the slot's send
  duty (which hands the slot back, at whatever it holds) and the peer's receive duty of chunk `i`, whose payload says the
  rows now hold what the PEER's result must hold there: that is the premise `hval`, a fact about what the slot holds.
-/
import proofs.«900651_g7700000000000652_dist_a2a_v7x_xyz2x4x4_x_m8192_n1024_bf16_1_alg».proof.Proof.KernelIdealX.Ghost

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

omit [FloatOps F] in
/-- A separating conjunction over a device's cells, by kind: the barrier cell, the four send cells, the sixteen receive cells. -/
theorem bigSep_cl (Φ : Unit ⊕ (Fin 4 ⊕ Fin 16) → sProp 𝕄) :
    bigSep Finset.univ Φ
      = iprop(Φ (.inl ()) ∗ (bigSep Finset.univ fun s : Fin 4 => Φ (.inr (.inl s))) ∗ bigSep Finset.univ fun i : Fin 16 => Φ (.inr (.inr i))) := by
  rw [bigSep_univ_sum, bigSep_univ_sum, bigSep_univ_of_subsingleton ()]
  rfl

/-- What a slot of the send buffer must hold when chunk `i` is sent: the narrowed entries of rows 512 i … of the device's block
    of `x`, in the column half the PEER needs (columns 1024·(1 - x) …). -/
def sendSpec (c : Dev nD) (i : Fin 16) : FVec F S512x1024 .bf16 := fun y =>
  FloatOps.truncf .bf16 bitsLt_bf16_f32
    (xv m c (ValueIdx.ix2 (⟨512 * i.val + (y 0).val, by have := (y 0).isLt; have h : (y 0).val < 512 := this; omega⟩ : Fin 8192)
      (⟨1024 * (1 - xco c) + (y 1).val, by have h1 := xco_lt c; have h : (y 1).val < 1024 := (y 1).isLt; omega⟩ : Fin 2048)))

/-- What a slot of the keep buffer must hold when chunk `i` is stored: the same rows, in the column half the device itself
    needs (columns 1024·x …). -/
def keepSpec (c : Dev nD) (i : Fin 16) : FVec F S512x1024 .bf16 := fun y =>
  FloatOps.truncf .bf16 bitsLt_bf16_f32
    (xv m c (ValueIdx.ix2 (⟨512 * i.val + (y 0).val, by have h : (y 0).val < 512 := (y 0).isLt; omega⟩ : Fin 8192)
      (⟨1024 * xco c + (y 1).val, by have h1 := xco_lt c; have h : (y 1).val < 1024 := (y 1).isLt; omega⟩ : Fin 2048)))

/-- The remote copy of chunk `i` out of slot `s` at round `r`, addressed to `n = peer c` (substituted, not rewritten). -/
theorem wp_send_chunk (κ₁ κ₂ : ℕ) (c n : Dev nD) (hn : n = peer c) (i : Fin 16) (s : Fin 4) (r : ℕ) (hr : r < 4)
    {hsc : ((outChunk c i : Memref sig (Dev.tc n : Thread nD τ).2.kind .hbm S512x1024 .bf16)).view.ref.isScScratch = false}
    {hsrc : (sendSlot s).view.WordExact} {hdst : (outChunk c i).view.WordExact}
    {hsem : DmaTarget.Typed .vmem (.dma (recvS i).sem) (.remote (Dev.tc n : Thread nD τ) (outChunk c i) (.dma (sendS s).sem) hsc)}
    {α : Type} {Q : α → sProp 𝕄} {k : PUnit → Prog (TpuEff nD τ sig (Elt F) Λ₀ .tc) α}
    (fs : Buf (Elt F) ((sendSlot s).view.loc (c : Thread nD τ))) (O : CellTallies nD τ sig Unit) (W : Waits sig Unit)
    (hval : ∀ j ∈ (outChunk c i).view.set,
      (outChunk c i).view.write (Elt F) (m (((peer c : Dev nD) : Thread nD τ).loc main_v1)) ((sendSlot s).view.read (Elt F) fs) Finset.univ j
        = outSpec m (peer c) j) :
    iprop(cellInv ER (sched m) κ₁ (sendCell c s) ∗ cellInv ER (sched m) κ₂ (recvCell (peer c) i)
        ∗ ((sendSlot s).view.loc (c : Thread nD τ) ↦[(sendSlot s).view.set]{fullShare} fs)
        ∗ ((outChunk c i).view.loc (peer c : Thread nD τ) ↦[(outChunk c i).view.set]{fullShare} m (((peer c : Dev nD) : Thread nD τ).loc main_v1))
        ∗ owes (c : Thread nD τ) (O + tallyAt (recvCell (peer c) i) () Nc) W
        ∗ dutyTok ER (sendCell c s) r () ∗ reached ER (sendCell c s) r
        ∗ dutyTok ER (recvCell (peer c) i) 0 () ∗ reached ER (recvCell (peer c) i) 0)
      ⊢ iprop(((cred (tallyAt (sendCell c s) () Nc) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sendSlot s) (.remote (Dev.tc n : Thread nD τ) (outChunk c i) (.dma (sendS s).sem) hsc) (.dma (recvS i).sem) hsrc hdst hsem) k) Q) := by
  subst hn
  exact Rounds.wp_send_pointsTo 𝒱₀ ER (sched m) (c : Thread nD τ) none (c' := (peer c : Thread nD τ)) (src := sendSlot s) (dst := outChunk c i)
    (sS := .dma (sendS s).sem) (sem := .dma (recvS i).sem) (q := fullShare) (fs := fs) (κ₁ := κ₁) (κ₂ := κ₂)
    (r₁ := r) (r₂ := 0) (d₁ := ()) (d₂ := ()) (fd := m (((peer c : Dev nD) : Thread nD τ).loc main_v1))
    (by rw [duties_send m c s hr]; exact Finset.mem_singleton_self _) (by rw [duties_recv]; exact Finset.mem_singleton_self _)
    () () Nc rfl (amount_send m c s r ()) (amount_recv m (peer c) i 0 ()) O rfl (W := W)
    (by rw [payload_send]; unfold sendPay; iintro H; iexists fs; iexact H)
    (by rw [payload_recv]; unfold recvPay; rw [peer_peer]; exact Entails.of_eq (BI.Region.is_congr hval))

end Cert.KernelIdeal.A2A

end
-- ==== Proof.KernelIdealX.Data.lean ====
/-
  What the scratch slots hold, read back, and what a landing writes.

  A chunk's 512 rows of `x` are copied whole into slot `s` of the row buffer; the body reads the slot back as one
  [1, 512, 2048] vector and stores, narrowed, one column half of it ([512, 1024], columns off …) into slot `s` of the send
  buffer and the other into slot `s` of the keep buffer. Read back through the slot, the stored half is, entry by entry,
  the narrowed entry of `x` at row 512·i + y₀ and column off + y₁. A copy of such a slot into the 512 result rows of chunk
  `i` then leaves those rows holding what the result must hold there.
-/
import proofs.«900651_g7700000000000652_dist_a2a_v7x_xyz2x4x4_x_m8192_n1024_bf16_1_alg».proof.Proof.KernelIdealX.Send

import Idealize.ShloMosaic.Lib.Pipeline.Value

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- One column half of the rows read back, narrowed: the body's pure value between its load and its store (every one of
    the skeleton's payloads is this function at `off = 0` or `off = 1024`). -/
def half (off : Nat) (hoff : S512x2048.Slices ![0, off] S512x1024) (v : Vec F S1x512x2048 .f32) : FVec F S1x512x1024 .bf16 :=
  shapeCast S1x512x1024
    (truncf .bf16 (extractStridedSlice S512x1024 ![0, off] (shapeCast S512x2048 v shapeCasts_S1x512x2048_S512x2048) hoff) bitsLt_bf16_f32)
    shapeCasts_S512x1024_S1x512x1024

/-! ## Reading a squeezed slot back, generically -/

section Generic
variable {sig' : RefSig} {κ' : Kind} {cs' : Space} {s₀ s' : Shape} {e' : EltTy} {Val : EltTy → Type}

/-- A vector stored through a rectangle of a memref, read back through the squeezed slice at that rectangle, is the
    vector re-indexed by row-major position. -/
theorem read_squeeze_write_access (M : Memref sig' κ' cs' s₀ e') (r : Rect s₀) (hr : ∀ a, r.stride a = 1)
    (hq : r.shape.Squeezes s') (hc : r.shape.ShapeCasts s') (f : M.view.ty.Contents Val) (w : r.shape.Idx → Val e') :
    ((M.slice r hr).squeeze s' hq).view.read Val (View.write Val (M.access r) f w Finset.univ) = shapeCast s' w hc := by
  rw [Memref.read_squeeze_slice M r hr hq hc, View.readAt_rect, View.read_write_univ]

/-- A vector written whole through the squeezed slice of a memref at a rectangle, loaded back through the memref at that
    rectangle and re-indexed to the squeezed shape, is the vector. -/
theorem shapeCast_readAt_writes_whole (M : Memref sig' κ' cs' s₀ e') (r : Rect s₀) (hr : ∀ a, r.stride a = 1)
    (hq : r.shape.Squeezes s') (hc : r.shape.ShapeCasts s') (f : M.view.ty.Contents Val) (w : s'.Idx → Val e') :
    shapeCast s' (M.view.readAt Val r.toLoadRect (View.writes ((M.slice r hr).squeeze s' hq).view Val f [⟨Rect.whole s', w⟩])) hc = w := by
  rw [← Memref.read_squeeze_slice M r hr hq hc]
  funext x
  have h := View.read_writes_cons_emb ((M.slice r hr).squeeze s' hq).view f (Rect.whole s') w [] x
  rwa [Rect.emb_whole_apply] at h

/-- A narrowing of a vector reads, at an index, the narrowing of the entry there. -/
theorem truncf_at {G : FTy → Type} [FloatOps G] {s : Shape} {φ ψ : FTy} (x : FVec G s φ) (h : ψ.bits < φ.bits) (j : s.Idx) :
    truncf ψ x h j = FloatOps.truncf ψ h (x j) := rfl

/-- A slice of a whole buffer reads, at an index, the buffer at the index placed by the rectangle. -/
theorem read_slice_whole_at (b : Ref sig' κ') (r : Rect b.ty.shape) (hr : ∀ a, r.stride a = 1) (f : b.ty.Contents Val) (x : r.shape.Idx) :
    ((Memref.whole b).slice r hr).view.read Val f x = f (r.emb x) := rfl

end Generic

/-! ## What the two scratch slots hold -/

/-- The send buffer's slot `s` after the store of a half of chunk `i`, read back through the slot. -/
theorem read_sendSlot (c : Dev nD) (X : Buf (Elt F) ((c : Thread nD τ).loc main_arg0)) (i : Fin 16) (s : Fin 4)
    (off : Nat) (hoff : S512x2048.Slices ![0, off] S512x1024) (hle : off ≤ 1024)
    (pay : Vec F S1x512x2048 .f32 → FVec F S1x512x1024 .bf16) (hpay : pay = half off hoff)
    (pin : Buf (Elt F) ((c : Thread nD τ).loc cc0_scratch0)) (ps : Buf (Elt F) ((c : Thread nD τ).loc cc0_scratch1)) (y : S512x1024.Idx) :
    (sendSlot s).view.read (Elt F)
        (View.write (Elt F) ((Memref.whole cc0_scratch1).access (Rect.unit (s := S4x512x1024) ![s.val, 0, 0] S1x512x1024.size (inbSlot s))) ps
          (pay (View.readAt (Elt F) (Memref.whole cc0_scratch0).view
            (Rect.unit (s := S4x512x2048) ![s.val, 0, 0] S1x512x2048.size (inbSlotIn s)).toLoadRect
            ((inSlot s).view.writes (Elt F) pin [⟨Rect.whole S512x2048, ReadAs.same.apply (View.read (Elt F) (xChunk i).view X)⟩])))
          Finset.univ) y
      = FloatOps.truncf .bf16 bitsLt_bf16_f32
          (X (ValueIdx.ix2 (⟨512 * i.val + (y 0).val, by have h : (y 0).val < 512 := (y 0).isLt; omega⟩ : Fin 8192)
            (⟨off + (y 1).val, by have h : (y 1).val < 1024 := (y 1).isLt; omega⟩ : Fin 2048))) := by
  subst hpay
  unfold half
  -- the slot read back is the stored vector re-indexed, and the two re-indexings cancel
  refine (congrFun (read_squeeze_write_access (Memref.whole cc0_scratch1) _ (fun _ => rfl) squeezes_S1x512x1024_S512x1024
    shapeCasts_S1x512x1024_S512x1024 ps _) y).trans ?_
  refine (congrFun (shapeCast_shapeCast _ shapeCasts_S512x1024_S1x512x1024 shapeCasts_S1x512x1024_S512x1024) y).trans ?_
  -- entry by entry: the narrowing of the entry of the column half at row y₀, column y₁
  refine (truncf_at _ bitsLt_bf16_f32 y).trans (congrArg (FloatOps.truncf .bf16 bitsLt_bf16_f32) ?_)
  have hy0 : (y 0).val < 512 := (y 0).isLt
  have hy1 : (y 1).val < 1024 := (y 1).isLt
  refine (extractStridedSlice_apply ![0, off] _ hoff y
    (ValueIdx.ix2 (⟨(y 0).val, hy0⟩ : Fin 512) (⟨off + (y 1).val, by omega⟩ : Fin 2048)) (fun a => ?_)).trans ?_
  · match a with
    | ⟨0, _⟩ => show (y 0).val = 0 + (y 0).val; omega
    | ⟨1, _⟩ => rfl
  -- the rows loaded back are the chunk of `x` that was copied in, whatever the row buffer held before
  refine (congrFun (shapeCast_readAt_writes_whole (Memref.whole cc0_scratch0) _ (fun _ => rfl) squeezes_S1x512x2048_S512x2048
    shapeCasts_S1x512x2048_S512x2048 pin _) _).trans ?_
  refine (read_slice_whole_at main_arg0 _ (fun _ => rfl) X _).trans (congrArg X (funext fun a => Fin.ext ?_))
  match a with
  | ⟨0, _⟩ => show 512 * i.val + 1 * (y 0).val = 512 * i.val + (y 0).val; omega
  | ⟨1, _⟩ => show 0 + 1 * (off + (y 1).val) = off + (y 1).val; omega

/-- The same for the keep buffer. -/
theorem read_keepSlot (c : Dev nD) (X : Buf (Elt F) ((c : Thread nD τ).loc main_arg0)) (i : Fin 16) (s : Fin 4)
    (off : Nat) (hoff : S512x2048.Slices ![0, off] S512x1024) (hle : off ≤ 1024)
    (pay : Vec F S1x512x2048 .f32 → FVec F S1x512x1024 .bf16) (hpay : pay = half off hoff)
    (pin : Buf (Elt F) ((c : Thread nD τ).loc cc0_scratch0)) (ps : Buf (Elt F) ((c : Thread nD τ).loc cc0_scratch2)) (y : S512x1024.Idx) :
    (keepSlot s).view.read (Elt F)
        (View.write (Elt F) ((Memref.whole cc0_scratch2).access (Rect.unit (s := S4x512x1024) ![s.val, 0, 0] S1x512x1024.size (inbSlot s))) ps
          (pay (View.readAt (Elt F) (Memref.whole cc0_scratch0).view
            (Rect.unit (s := S4x512x2048) ![s.val, 0, 0] S1x512x2048.size (inbSlotIn s)).toLoadRect
            ((inSlot s).view.writes (Elt F) pin [⟨Rect.whole S512x2048, ReadAs.same.apply (View.read (Elt F) (xChunk i).view X)⟩])))
          Finset.univ) y
      = FloatOps.truncf .bf16 bitsLt_bf16_f32
          (X (ValueIdx.ix2 (⟨512 * i.val + (y 0).val, by have h : (y 0).val < 512 := (y 0).isLt; omega⟩ : Fin 8192)
            (⟨off + (y 1).val, by have h : (y 1).val < 1024 := (y 1).isLt; omega⟩ : Fin 2048))) := by
  subst hpay
  unfold half
  -- the slot read back is the stored vector re-indexed, and the two re-indexings cancel
  refine (congrFun (read_squeeze_write_access (Memref.whole cc0_scratch2) _ (fun _ => rfl) squeezes_S1x512x1024_S512x1024
    shapeCasts_S1x512x1024_S512x1024 ps _) y).trans ?_
  refine (congrFun (shapeCast_shapeCast _ shapeCasts_S512x1024_S1x512x1024 shapeCasts_S1x512x1024_S512x1024) y).trans ?_
  -- entry by entry: the narrowing of the entry of the column half at row y₀, column y₁
  refine (truncf_at _ bitsLt_bf16_f32 y).trans (congrArg (FloatOps.truncf .bf16 bitsLt_bf16_f32) ?_)
  have hy0 : (y 0).val < 512 := (y 0).isLt
  have hy1 : (y 1).val < 1024 := (y 1).isLt
  refine (extractStridedSlice_apply ![0, off] _ hoff y
    (ValueIdx.ix2 (⟨(y 0).val, hy0⟩ : Fin 512) (⟨off + (y 1).val, by omega⟩ : Fin 2048)) (fun a => ?_)).trans ?_
  · match a with
    | ⟨0, _⟩ => show (y 0).val = 0 + (y 0).val; omega
    | ⟨1, _⟩ => rfl
  -- the rows loaded back are the chunk of `x` that was copied in, whatever the row buffer held before
  refine (congrFun (shapeCast_readAt_writes_whole (Memref.whole cc0_scratch0) _ (fun _ => rfl) squeezes_S1x512x2048_S512x2048
    shapeCasts_S1x512x2048_S512x2048 pin _) _).trans ?_
  refine (read_slice_whole_at main_arg0 _ (fun _ => rfl) X _).trans (congrArg X (funext fun a => Fin.ext ?_))
  match a with
  | ⟨0, _⟩ => show 512 * i.val + 1 * (y 0).val = 512 * i.val + (y 0).val; omega
  | ⟨1, _⟩ => show 0 + 1 * (off + (y 1).val) = off + (y 1).val; omega

/-! ## Where a chunk's rows sit in a result array, and what the result must hold there -/

/-- Row `y` of chunk `i` at device `c`'s offsets is row 8192·x(c) + 512·i + y₀, column y₁, of the result array. -/
theorem outChunk_emb (c : Dev nD) (i : Fin 16) (y : S512x1024.Idx) :
    (outChunk c i).view.emb y
      = (ValueIdx.ix2 (⟨8192 * (c.val / 16) + 512 * i.val + (y 0).val, by
            have h : (y 0).val < 512 := (y 0).isLt
            have hc : c.val < 32 := c.isLt
            have hi := i.isLt
            omega⟩ : Fin 16384)
          (⟨(y 1).val, (y 1).isLt⟩ : Fin 1024) : S16384x1024.Idx) := by
  funext a
  refine Fin.ext ?_
  match a with
  | ⟨0, _⟩ =>
    show k0_off1 c (BitVec.ofNat 32 (512 * i.val)) 0 + 1 * (y 0).val = 8192 * (c.val / 16) + 512 * i.val + (y 0).val
    rw [k0_off1_eq]
    show 8192 * (c.val / 16) + 512 * i.val + 1 * (y 0).val = _
    omega
  | ⟨1, _⟩ =>
    show k0_off1 c (BitVec.ofNat 32 (512 * i.val)) 1 + 1 * (y 1).val = (y 1).val
    rw [k0_off1_eq]
    show 0 + 1 * (y 1).val = _
    omega

/-- A whole write through the rows of a chunk leaves, at each element under them, the written vector at the row and
    column of the element inside the chunk. -/
theorem write_outChunk (c : Dev nD) (i : Fin 16) (fd : S16384x1024.Idx → Elt F .bf16) (w : S512x1024.Idx → Elt F .bf16) :
    ∀ j ∈ (outChunk c i).view.set, ∃ y : S512x1024.Idx,
      j = (outChunk c i).view.emb y ∧ (outChunk c i).view.write (Elt F) fd w Finset.univ j = w y := by
  intro j hj
  obtain ⟨y, rfl⟩ := View.exists_emb_of_mem_set _ hj
  exact ⟨y, rfl, (View.write_emb_of_mem (v := (outChunk c i).view) fd w (Finset.mem_univ y)).trans (cast_eq _ _)⟩

/-- In a device's own row half the result must hold its own block of `x`, narrowed, in its own column half. -/
theorem outSpec_near (d : Dev nD) (r : Fin 16384) (k : Fin 1024) (h : r.val / 8192 = xco d) :
    outSpec m d (ValueIdx.ix2 r k)
      = FloatOps.truncf .bf16 bitsLt_bf16_f32 (xv m d (ValueIdx.ix2 (⟨r.val % 8192, Nat.mod_lt _ (by decide)⟩ : Fin 8192)
          (⟨1024 * xco d + k.val, by have h1 := xco_lt d; have h2 := k.isLt; omega⟩ : Fin 2048))) := by
  show FloatOps.truncf .bf16 bitsLt_bf16_f32 ((if r.val / 8192 = xco d then xv m d else xv m (peer d)) _) = _
  rw [if_pos h]
  rfl

/-- In the other row half it must hold the peer's block of `x`, narrowed, in the device's own column half. -/
theorem outSpec_far (d : Dev nD) (r : Fin 16384) (k : Fin 1024) (h : r.val / 8192 ≠ xco d) :
    outSpec m d (ValueIdx.ix2 r k)
      = FloatOps.truncf .bf16 bitsLt_bf16_f32 (xv m (peer d) (ValueIdx.ix2 (⟨r.val % 8192, Nat.mod_lt _ (by decide)⟩ : Fin 8192)
          (⟨1024 * xco d + k.val, by have h1 := xco_lt d; have h2 := k.isLt; omega⟩ : Fin 2048))) := by
  show FloatOps.truncf .bf16 bitsLt_bf16_f32 ((if r.val / 8192 = xco d then xv m d else xv m (peer d)) _) = _
  rw [if_neg h]
  rfl

/-- Entries of blocks of `x` on equal devices at equal rows and columns are equal. -/
theorem xv_congr {d d' : Dev nD} (hd : d = d') {a a' : Fin 8192} {b b' : Fin 2048} (ha : a.val = a'.val) (hb : b.val = b'.val) :
    xv m d (ValueIdx.ix2 a b) = xv m d' (ValueIdx.ix2 a' b') := by
  subst hd
  obtain rfl := Fin.ext ha
  obtain rfl := Fin.ext hb
  rfl

/-! ## The two landings -/

/-- THE LANDING OF A REMOTE COPY: a slot that reads as the half the peer needs of chunk `i` (`sendSpec`), copied into the 512
    rows of chunk `i` at `c`'s offsets of the PEER's result array (over whatever was there), leaves those rows holding what
    the peer's result must hold there. (Row 8192·x(c) + 512·i + y₀ of the whole `x` is in `c`'s block, not the peer's, and the
    peer needs the columns 1024·x(peer c) … = 1024·(1 - x(c)) ….) -/
theorem landing (c : Dev nD) (i : Fin 16) (s : Fin 4) (fs : Buf (Elt F) ((sendSlot s).view.loc (c : Thread nD τ)))
    (fd : Buf (Elt F) (((peer c : Dev nD) : Thread nD τ).loc main_v1))
    (hfs : ∀ y, (sendSlot s).view.read (Elt F) fs y = sendSpec m c i y) :
    ∀ j ∈ (outChunk c i).view.set,
      (outChunk c i).view.write (Elt F) fd ((sendSlot s).view.read (Elt F) fs) Finset.univ j = outSpec m (peer c) j := by
  intro j hj
  obtain ⟨y, rfl, e⟩ := write_outChunk c i fd ((sendSlot s).view.read (Elt F) fs) j hj
  have hy0 : (y 0).val < 512 := (y 0).isLt
  have hx := xco_lt c
  have hi := i.isLt
  refine e.trans ((hfs y).trans ?_)
  refine Eq.trans ?_ (congrArg (outSpec m (peer c)) (outChunk_emb c i y).symm)
  -- the rows are in `c`'s row half, not the peer's: the peer must hold `c`'s block of `x` there, in the peer's column half
  refine Eq.trans ?_ (outSpec_far m (peer c) _ _ ?_).symm
  · refine congrArg (FloatOps.truncf .bf16 bitsLt_bf16_f32) (xv_congr m (peer_peer c).symm ?_ ?_)
    · show 512 * i.val + (y 0).val = (8192 * (c.val / 16) + 512 * i.val + (y 0).val) % 8192
      omega
    · show 1024 * (1 - xco c) + (y 1).val = 1024 * xco (peer c) + (y 1).val
      rw [xco_peer]
  · show (8192 * (c.val / 16) + 512 * i.val + (y 0).val) / 8192 ≠ xco (peer c)
    rw [xco_peer]
    unfold xco at hx ⊢
    omega

/-- THE LANDING OF A LOCAL COPY: a slot that reads as the half the device itself needs of chunk `i` (`keepSpec`), copied into
    the 512 rows of chunk `i` of its OWN result array (one whole piece laid over whatever was there), leaves those rows holding
    what its result must hold there. -/
theorem kept (c : Dev nD) (i : Fin 16) (s : Fin 4) (fk : Buf (Elt F) ((keepSlot s).view.loc (c : Thread nD τ)))
    (fd : Buf (Elt F) ((c : Thread nD τ).loc main_v1))
    (hfk : ∀ y, (keepSlot s).view.read (Elt F) fk y = keepSpec m c i y) :
    ∀ j ∈ (outChunk c i).view.set,
      (outChunk c i).view.writes (Elt F) fd [⟨Rect.whole S512x1024, ReadAs.same.apply (View.read (Elt F) (keepSlot s).view fk)⟩] j
        = outSpec m c j := by
  intro j hj
  -- one whole piece over the old contents is one whole write
  refine (congrFun (View.write_univ_eq_writes_whole (outChunk c i).view fd [] ((keepSlot s).view.read (Elt F) fk)).symm j).trans ?_
  obtain ⟨y, rfl, e⟩ := write_outChunk c i fd ((keepSlot s).view.read (Elt F) fk) j hj
  have hy0 : (y 0).val < 512 := (y 0).isLt
  have hi := i.isLt
  refine e.trans ((hfk y).trans ?_)
  refine Eq.trans ?_ (congrArg (outSpec m c) (outChunk_emb c i y).symm)
  -- the rows are in `c`'s own row half: it must hold its own block of `x` there, in its own column half
  refine Eq.trans ?_ (outSpec_near m c _ _ ?_).symm
  · refine congrArg (FloatOps.truncf .bf16 bitsLt_bf16_f32) (xv_congr m rfl ?_ rfl)
    show 512 * i.val + (y 0).val = (8192 * (c.val / 16) + 512 * i.val + (y 0).val) % 8192
    omega
  · show (8192 * (c.val / 16) + 512 * i.val + (y 0).val) / 8192 = xco c
    unfold xco
    omega

end Cert.KernelIdeal.A2A

end
-- ==== Proof.KernelIdealX.Close.lean ====
/-
  Putting the result array back together at the end of the body: sixteen near bands, each at contents that agree on
  the band with what the array must hold, and the sixteen far bands the peer's landings handed over (already at what
  the array must hold), are the whole array at what it must hold.
-/
import proofs.«900651_g7700000000000652_dist_a2a_v7x_xyz2x4x4_x_m8192_n1024_bf16_1_alg».proof.Proof.KernelIdealX.Parts

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem out_rejoin (c : Dev nD) (fn : Fin 16 → Buf (Elt F) ((c : Thread nD τ).loc main_v1))
    (hfn : ∀ i : Fin 16, ∀ j ∈ (outChunk c i).view.set, fn i j = outSpec m c j) :
    iprop((bigSep Finset.univ fun i : Fin 16 => ((outChunk c i).view.loc (c : Thread nD τ) ↦[(outChunk c i).view.set]{fullShare} fn i : sProp 𝕄))
        ∗ bigSep Finset.univ fun i : Fin 16 => recvPay m c i)
      ⊢ ((Memref.whole main_v1).view.loc (c : Thread nD τ) ↦{fullShare} outSpec m c : sProp 𝕄) := by
  -- On its own band each near points-to may be restated at the contents the array must hold.
  have h1 : (bigSep Finset.univ fun i : Fin 16 => ((outChunk c i).view.loc (c : Thread nD τ) ↦[(outChunk c i).view.set]{fullShare} fn i : sProp 𝕄))
      = bigSep Finset.univ fun i : Fin 16 => ((outChunk c i).view.loc (c : Thread nD τ) ↦[(outChunk c i).view.set]{fullShare} outSpec m c : sProp 𝕄) :=
    bigSep_congr fun i _ => pointsTo_congr (hfn i)
  -- The far bands are held at those contents already: the thirty-two bands are the whole array.
  have h2 : iprop((bigSep Finset.univ fun i : Fin 16 => ((outChunk c i).view.loc (c : Thread nD τ) ↦[(outChunk c i).view.set]{fullShare} outSpec m c : sProp 𝕄))
        ∗ bigSep Finset.univ fun i : Fin 16 => recvPay m c i)
      = ((Memref.whole main_v1).view.loc (c : Thread nD τ) ↦{fullShare} outSpec m c : sProp 𝕄) :=
    (out_split c c (outSpec m c)).symm
  rw [h1]
  exact Entails.of_eq h2

end Cert.KernelIdeal.A2A

end
-- ==== Proof.KernelIdealX.Body.lean ====
/-
  One thread's body, run once at a symbolic device.

  The body is straight-line (sixteen chunks unrolled). It is run by the symbolic executor from the ghost state of
  Ghost.lean with the scratch buffers held slot by slot and the result array band by band, the way the body addresses
  them; the entry signal and each of the sixteen remote copies are applied by hand, each remote copy with the fact that
  the slot it sends holds the half of its chunk that the peer needs. At the end every band of the result array holds what
  the array must hold there (the near bands by the local copies, the far bands by the peer's landings), so the array is
  whole at that one content.
-/
import proofs.«900651_g7700000000000652_dist_a2a_v7x_xyz2x4x4_x_m8192_n1024_bf16_1_alg».proof.Proof.KernelIdealX.Levels
import proofs.«900651_g7700000000000652_dist_a2a_v7x_xyz2x4x4_x_m8192_n1024_bf16_1_alg».proof.Proof.KernelIdealX.Parts
import proofs.«900651_g7700000000000652_dist_a2a_v7x_xyz2x4x4_x_m8192_n1024_bf16_1_alg».proof.Proof.KernelIdealX.Data
import proofs.«900651_g7700000000000652_dist_a2a_v7x_xyz2x4x4_x_m8192_n1024_bf16_1_alg».proof.Proof.KernelIdealX.Close
import proofs.«900651_g7700000000000652_dist_a2a_v7x_xyz2x4x4_x_m8192_n1024_bf16_1_alg».proof.Proof.Gen.KernelIdeal.Skeleton

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Tactic

/-! ## The two conditions of the body, decided by the device's first coordinate -/

theorem cond0_x0 (c : Dev nD) (hx : c.val / 16 = 0) :
    Scalar.cmpi CmpIPredicate.ne (Scalar.extui (Scalar.cmpi CmpIPredicate.eq (Scalar.remsi (Scalar.divsi (Dev.word c) 16#32) 2#32) 0#32)) 0#32 = 1#1 := by
  revert c; decide
theorem cond1_x0 (c : Dev nD) (hx : c.val / 16 = 0) :
    ¬ Scalar.cmpi CmpIPredicate.ne (Scalar.extui (Scalar.cmpi CmpIPredicate.eq (Scalar.remsi (Scalar.divsi (Dev.word c) 16#32) 2#32) 1#32)) 0#32 = 1#1 := by
  revert c; decide
theorem cond0_x1 (c : Dev nD) (hx : c.val / 16 = 1) :
    ¬ Scalar.cmpi CmpIPredicate.ne (Scalar.extui (Scalar.cmpi CmpIPredicate.eq (Scalar.remsi (Scalar.divsi (Dev.word c) 16#32) 2#32) 0#32)) 0#32 = 1#1 := by
  revert c; decide
theorem cond1_x1 (c : Dev nD) (hx : c.val / 16 = 1) :
    Scalar.cmpi CmpIPredicate.ne (Scalar.extui (Scalar.cmpi CmpIPredicate.eq (Scalar.remsi (Scalar.divsi (Dev.word c) 16#32) 2#32) 1#32)) 0#32 = 1#1 := by
  revert c; decide

/-! ## What the slots hold, in the form the copies' landings ask for -/

/-- The send slot after the store of the half at `off = 1024·(1 - x)` of chunk `i` reads as what the peer needs. -/
theorem send_reads (c : Dev nD) (i : Fin 16) (s : Fin 4) (off : Nat) (hoff : S512x2048.Slices ![0, off] S512x1024) (hle : off ≤ 1024)
    (hoffc : off = 1024 * (1 - xco c))
    (pay : Vec F S1x512x2048 .f32 → FVec F S1x512x1024 .bf16) (hpay : pay = half off hoff)
    (pin : Buf (Elt F) ((c : Thread nD τ).loc cc0_scratch0)) (ps : Buf (Elt F) ((c : Thread nD τ).loc cc0_scratch1)) (y : S512x1024.Idx) :
    (sendSlot s).view.read (Elt F)
        (View.write (Elt F) ((Memref.whole cc0_scratch1).access (Rect.unit (s := S4x512x1024) ![s.val, 0, 0] S1x512x1024.size (inbSlot s))) ps
          (pay (View.readAt (Elt F) (Memref.whole cc0_scratch0).view
            (Rect.unit (s := S4x512x2048) ![s.val, 0, 0] S1x512x2048.size (inbSlotIn s)).toLoadRect
            ((inSlot s).view.writes (Elt F) pin [⟨Rect.whole S512x2048, ReadAs.same.apply (View.read (Elt F) (xChunk i).view (m ((c : Thread nD τ).loc main_arg0)))⟩])))
          Finset.univ) y
      = sendSpec m c i y := by
  subst hoffc
  exact read_sendSlot c (m ((c : Thread nD τ).loc main_arg0)) i s _ hoff hle pay hpay pin ps y

/-- The keep slot after the store of the half at `off = 1024·x` of chunk `i` reads as what the device itself needs. -/
theorem keep_reads (c : Dev nD) (i : Fin 16) (s : Fin 4) (off : Nat) (hoff : S512x2048.Slices ![0, off] S512x1024) (hle : off ≤ 1024)
    (hoffc : off = 1024 * xco c)
    (pay : Vec F S1x512x2048 .f32 → FVec F S1x512x1024 .bf16) (hpay : pay = half off hoff)
    (pin : Buf (Elt F) ((c : Thread nD τ).loc cc0_scratch0)) (ps : Buf (Elt F) ((c : Thread nD τ).loc cc0_scratch2)) (y : S512x1024.Idx) :
    (keepSlot s).view.read (Elt F)
        (View.write (Elt F) ((Memref.whole cc0_scratch2).access (Rect.unit (s := S4x512x1024) ![s.val, 0, 0] S1x512x1024.size (inbSlot s))) ps
          (pay (View.readAt (Elt F) (Memref.whole cc0_scratch0).view
            (Rect.unit (s := S4x512x2048) ![s.val, 0, 0] S1x512x2048.size (inbSlotIn s)).toLoadRect
            ((inSlot s).view.writes (Elt F) pin [⟨Rect.whole S512x2048, ReadAs.same.apply (View.read (Elt F) (xChunk i).view (m ((c : Thread nD τ).loc main_arg0)))⟩])))
          Finset.univ) y
      = keepSpec m c i y := by
  subst hoffc
  exact read_keepSlot c (m ((c : Thread nD τ).loc main_arg0)) i s _ hoff hle pay hpay pin ps y

/-- The rows a device hands its peer at the entry signal, seen from the signaller: the bands at the PEER's offsets of the
    signaller's own result array are the barrier payload of the peer. -/
theorem barPay_of_signaller (d e : Dev nD) (he : e = peer d) :
    (bigSep Finset.univ fun i : Fin 16 =>
        ((outChunk d i).view.loc (e : Thread nD τ) ↦[(outChunk d i).view.set]{fullShare} m ((e : Thread nD τ).loc main_v1) : sProp 𝕄))
      = barPay m d := by
  subst he; rfl

/-! ## Small restatements the run needs -/

omit [FloatOps F] in
theorem kcell_bar (c : Dev nD) : kcell (c, .inl ()) = barCell c := rfl
omit [FloatOps F] in
theorem kcell_send (c : Dev nD) (s : Fin 4) : kcell (c, .inr (.inl s)) = sendCell c s := rfl
omit [FloatOps F] in
theorem kcell_recv (c : Dev nD) (i : Fin 16) : kcell (c, .inr (.inr i)) = recvCell c i := rfl

/-- The send cell's payload as the slot's points-to itself (at some contents). -/
theorem payload_send' (c : Dev nD) (s : Fin 4) (r : ℕ) (d : Unit) :
    (sched (F := F) m).payload (sendCell c s) r d
      = iprop(∃ f, ((sendSlot s).view.loc (c : Thread nD τ) ↦[(sendSlot s).view.set]{fullShare} f : sProp 𝕄)) := payload_send m c s r d
/-- The receive cell's payload as the band's points-to itself. -/
theorem payload_recv' (c : Dev nD) (i : Fin 16) (r : ℕ) (d : Unit) :
    (sched (F := F) m).payload (recvCell c i) r d
      = ((outChunk (peer c) i).view.loc (c : Thread nD τ) ↦[(outChunk (peer c) i).view.set]{fullShare} outSpec m c : sProp 𝕄) := payload_recv m c i r d

/-- Four slots at four contents are the whole buffer at some contents (the three scratch buffers). -/
theorem in_join4 (c : Dev nD) (f0 f1 f2 f3 : Buf (Elt F) ((c : Thread nD τ).loc cc0_scratch0)) :
    iprop(((inSlot 0).view.loc (c : Thread nD τ) ↦[(inSlot 0).view.set]{fullShare} f0) ∗ ((inSlot 1).view.loc (c : Thread nD τ) ↦[(inSlot 1).view.set]{fullShare} f1)
        ∗ ((inSlot 2).view.loc (c : Thread nD τ) ↦[(inSlot 2).view.set]{fullShare} f2) ∗ ((inSlot 3).view.loc (c : Thread nD τ) ↦[(inSlot 3).view.set]{fullShare} f3))
      ⊢ iprop(∃ f, ((Memref.whole cc0_scratch0).view.loc (c : Thread nD τ) ↦{fullShare} f : sProp 𝕄)) := by
  have h := in_join (F := F) c ![f0, f1, f2, f3]
  rw [bigSep_fin4] at h
  exact h
theorem send_join4 (c : Dev nD) (f0 f1 f2 f3 : Buf (Elt F) ((c : Thread nD τ).loc cc0_scratch1)) :
    iprop(((sendSlot 0).view.loc (c : Thread nD τ) ↦[(sendSlot 0).view.set]{fullShare} f0) ∗ ((sendSlot 1).view.loc (c : Thread nD τ) ↦[(sendSlot 1).view.set]{fullShare} f1)
        ∗ ((sendSlot 2).view.loc (c : Thread nD τ) ↦[(sendSlot 2).view.set]{fullShare} f2) ∗ ((sendSlot 3).view.loc (c : Thread nD τ) ↦[(sendSlot 3).view.set]{fullShare} f3))
      ⊢ iprop(∃ f, ((Memref.whole cc0_scratch1).view.loc (c : Thread nD τ) ↦{fullShare} f : sProp 𝕄)) := by
  have h := send_join (F := F) c ![f0, f1, f2, f3]
  rw [bigSep_fin4] at h
  exact h
theorem keep_join4 (c : Dev nD) (f0 f1 f2 f3 : Buf (Elt F) ((c : Thread nD τ).loc cc0_scratch2)) :
    iprop(((keepSlot 0).view.loc (c : Thread nD τ) ↦[(keepSlot 0).view.set]{fullShare} f0) ∗ ((keepSlot 1).view.loc (c : Thread nD τ) ↦[(keepSlot 1).view.set]{fullShare} f1)
        ∗ ((keepSlot 2).view.loc (c : Thread nD τ) ↦[(keepSlot 2).view.set]{fullShare} f2) ∗ ((keepSlot 3).view.loc (c : Thread nD τ) ↦[(keepSlot 3).view.set]{fullShare} f3))
      ⊢ iprop(∃ f, ((Memref.whole cc0_scratch2).view.loc (c : Thread nD τ) ↦{fullShare} f : sProp 𝕄)) := by
  have h := keep_join (F := F) c ![f0, f1, f2, f3]
  rw [bigSep_fin4] at h
  exact h

/-- The thirty-two bands, every one at what the result must hold, are the result array whole at that. -/
theorem out_join32 (c : Dev nD) (Φ Ψ : Fin 16 → sProp 𝕄)
    (hΦ : Φ = fun i => ((outChunk c i).view.loc (c : Thread nD τ) ↦[(outChunk c i).view.set]{fullShare} outSpec m c : sProp 𝕄))
    (hΨ : Ψ = fun i => ((outChunk (peer c) i).view.loc (c : Thread nD τ) ↦[(outChunk (peer c) i).view.set]{fullShare} outSpec m c : sProp 𝕄)) :
    iprop((Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15)
        ∗ (Ψ 0 ∗ Ψ 1 ∗ Ψ 2 ∗ Ψ 3 ∗ Ψ 4 ∗ Ψ 5 ∗ Ψ 6 ∗ Ψ 7 ∗ Ψ 8 ∗ Ψ 9 ∗ Ψ 10 ∗ Ψ 11 ∗ Ψ 12 ∗ Ψ 13 ∗ Ψ 14 ∗ Ψ 15))
      ⊢ ((Memref.whole main_v1).view.loc (c : Thread nD τ) ↦{fullShare} outSpec m c : sProp 𝕄) := by
  subst hΦ hΨ
  have h := out_split (F := F) c c (outSpec m c)
  rw [bigSep_fin16, bigSep_fin16] at h
  exact Entails.of_eq h.symm

/-! ## The run

The executor reads the device equations as canonical forms and the schedule's tables as rewrites. The run is the same
text for both values of the device's first coordinate; what differs is which half of the loaded rows is sent (columns
1024… when the coordinate is 0, columns 0… when it is 1) and which is kept, so the steps below are written once, over the
two column offsets, and instantiated twice. -/

attribute [local sl_canon] dev1_eq dev2_eq dev3_eq dev4_eq dev5_eq dev6_eq dev7_eq dev8_eq dev9_eq dev10_eq dev11_eq dev12_eq dev13_eq
  dev14_eq dev15_eq dev16_eq dev17_eq
attribute [local sl_rounds] duties_bar duties_recv duties_send amount_bar amount_recv amount_send payload_bar payload_recv' payload_send'
  expect_bar expect_recv expect_send
set_option maxRecDepth 16384

set_option hygiene false in
/-- THE OPENING. The ghost state is opened into its cells' invariants, positions, reached rounds, duty tokens and credits; the
    three scratch buffers are cut into their slots and the result array into its thirty-two bands; the body runs to its entry
    signal, which hands the peer the sixteen far bands (the rows the peer will write); it runs on through the first loads
    and the barrier wait, which hands over the peer's far bands in return, to the first remote copy. -/
local macro "a2a_open" : tactic => `(tactic| (
  unfold bodyPre ghost invs creds locals bufs
  rw [bigSep_cl, bigSep_cl, bigSep_univ_prod]
  repeat rw [bigSep_fin4]
  repeat rw [bigSep_fin16]
  rw [kcell_bar]
  repeat rw [kcell_send]
  repeat rw [kcell_recv]
  iintro ⟨⟨⟨⟨⟨#HIb, ⟨#HIs0, #HIs1, #HIs2, #HIs3⟩,
            ⟨#HIr0, #HIr1, #HIr2, #HIr3, #HIr4, #HIr5, #HIr6, #HIr7, #HIr8, #HIr9, #HIr10, #HIr11, #HIr12, #HIr13, #HIr14, #HIr15⟩⟩,
          #HIbP,
          ⟨#HIrP0, #HIrP1, #HIrP2, #HIrP3, #HIrP4, #HIrP5, #HIrP6, #HIrP7, #HIrP8, #HIrP9, #HIrP10, #HIrP11, #HIrP12, #HIrP13, #HIrP14, #HIrP15⟩⟩,
        ⟨HaB, ⟨HaS0, HaS1, HaS2, HaS3⟩,
          ⟨HaR0, HaR1, HaR2, HaR3, HaR4, HaR5, HaR6, HaR7, HaR8, HaR9, HaR10, HaR11, HaR12, HaR13, HaR14, HaR15⟩⟩,
        #HrBP,
        ⟨#HrRP0, #HrRP1, #HrRP2, #HrRP3, #HrRP4, #HrRP5, #HrRP6, #HrRP7, #HrRP8, #HrRP9, #HrRP10, #HrRP11, #HrRP12, #HrRP13, #HrRP14, #HrRP15⟩,
        ⟨#HrS0, #HrS1, #HrS2, #HrS3⟩,
        HtBP,
        ⟨HtRP0, HtRP1, HtRP2, HtRP3, HtRP4, HtRP5, HtRP6, HtRP7, HtRP8, HtRP9, HtRP10, HtRP11, HtRP12, HtRP13, HtRP14, HtRP15⟩,
        ⟨⟨HtS0_0, HtS0_1, HtS0_2, HtS0_3⟩, ⟨HtS1_0, HtS1_1, HtS1_2, HtS1_3⟩, ⟨HtS2_0, HtS2_1, HtS2_2, HtS2_3⟩, ⟨HtS3_0, HtS3_1, HtS3_2, HtS3_3⟩⟩⟩,
      ⟨HcB, ⟨HcR0, HcR1, HcR2, HcR3, HcR4, HcR5, HcR6, HcR7, HcR8, HcR9, HcR10, HcR11, HcR12, HcR13, HcR14, HcR15⟩⟩,
      #Hlev, ⟨Hl0, Hl1, Hl2, Hl3, Hs0, Hs1, Hs2, Hs3⟩,
      ⟨Hx, Hout, ⟨%fin, Hin⟩, ⟨%fsend, Hsend⟩, ⟨%fkeep, Hkeep⟩⟩⟩, HO, Hk⟩
  ihave Hin := (Entails.of_eq ((in_split c fin).trans (bigSep_fin4 _))) $$ Hin
  icases Hin with ⟨Hin0, Hin1, Hin2, Hin3⟩
  ihave Hsend := (Entails.of_eq ((send_split c fsend).trans (bigSep_fin4 _))) $$ Hsend
  icases Hsend with ⟨Hsend0, Hsend1, Hsend2, Hsend3⟩
  ihave Hkeep := (Entails.of_eq ((keep_split c fkeep).trans (bigSep_fin4 _))) $$ Hkeep
  icases Hkeep with ⟨Hkeep0, Hkeep1, Hkeep2, Hkeep3⟩
  ihave Hout := (Entails.of_eq (out_split c c (m ((c : Thread nD τ).loc main_v1)))) $$ Hout
  icases Hout with ⟨Hnear, Hfar⟩
  ihave Hnear := (Entails.of_eq (bigSep_fin16 _)) $$ Hnear
  icases Hnear with ⟨Hn0, Hn1, Hn2, Hn3, Hn4, Hn5, Hn6, Hn7, Hn8, Hn9, Hn10, Hn11, Hn12, Hn13, Hn14, Hn15⟩
  ihave Hbp := (Entails.of_eq (barPay_of_signaller m (peer c) c (peer_peer c).symm)) $$ Hfar
  sl_unfold [bodyAt0, cc0_body]
  sl_exec
  iapply (Rounds.wp_signal 𝒱₀ ER (sched m) (c : Thread nD τ) none (dst := (peer c : Thread nD τ)) (κ := K (peer c, .inl ()))
      (d := ()) (by rw [duties_bar]; exact Finset.mem_singleton_self _) ((amount_bar m (peer c) 0 ()).trans (by decide)) () (owedFrom c 16) rfl)
    $$ [HO HtBP Hbp]
  · isplitr; · iexact HIbP
    isplitl [HO]; · iexact HO
    isplitl [HtBP]; · iexact HtBP
    isplitl [Hbp]; · rw [payload_bar]; iexact Hbp
    iexact HrBP
  iintro HO
  sl_exec
  unfold barPay
  ihave Hf := (Entails.of_eq (bigSep_fin16 _)) $$ HaB_pay1
  icases Hf with ⟨Hf0, Hf1, Hf2, Hf3, Hf4, Hf5, Hf6, Hf7, Hf8, Hf9, Hf10, Hf11, Hf12, Hf13, Hf14, Hf15⟩))

set_option hygiene false in
/-- ONE CHUNK'S REMOTE COPY, first round of its slot: chunk i out of slot s to the peer (the printed device chain dv names
    it), the slot holding the half at column offset off; afterwards what is still owed is O; then the body runs on to the
    next remote copy. The slot is held since the opening (sl), its round-0 duty token is ts, its round 0 was reached at
    launch (rs); hf is the peer's band the copy lands in, tr / ir / rr the peer's receive duty token, cell invariant and
    reached round; cs names the send credit the copy returns. -/
local macro "a2a_send0 " i:num ", " s:num ", " dv:ident ", " off:term:max ", " hoff:ident ", " O:term:max ", " sl:ident ", " hf:ident ", "
    ts:ident ", " tr:ident ", " is:ident ", " ir:ident ", " rs:ident ", " rr:ident ", " cs:ident : tactic => `(tactic| (
  iapply (wp_send_chunk m (K (c, .inr (.inl $s))) (K (peer c, .inr (.inr $i))) c _ ($dv c) (i := $i) (s := $s) (r := 0) (by decide) _ $O _
      (landing m c $i $s _ _ (fun y => send_reads m c $i $s $off $hoff (by decide) (by rw [hxc]) _ rfl _ _ y)))
    $$ [$sl:ident $hf:ident HO $ts:ident $tr:ident]
  · isplitr; · iexact $is:ident
    isplitr; · iexact $ir:ident
    isplitl [$sl:ident]; · iexact $sl:ident
    isplitl [$hf:ident]; · iexact $hf:ident
    isplitl [HO]; · iexact HO
    isplitl [$ts:ident]; · iexact $ts:ident
    isplitr; · iexact $rs:ident
    isplitl [$tr:ident]; · iexact $tr:ident
    iexact $rr:ident
  iintro ⟨$cs:ident, HO⟩
  sl_exec))

set_option hygiene false in
/-- The same at a later round r of the slot: the slot (sl) and that round r is reached (rs, a fact the wait on the slot's
    send cell handed back with the slot) both come from that wait. -/
local macro "a2a_sendR " i:num ", " s:num ", " r:num ", " dv:ident ", " off:term:max ", " hoff:ident ", " O:term:max ", " sl:ident ", " hf:ident ", "
    ts:ident ", " tr:ident ", " is:ident ", " ir:ident ", " rs:ident ", " rr:ident ", " cs:ident : tactic => `(tactic| (
  iapply (wp_send_chunk m (K (c, .inr (.inl $s))) (K (peer c, .inr (.inr $i))) c _ ($dv c) (i := $i) (s := $s) (r := $r) (by decide) _ $O _
      (landing m c $i $s _ _ (fun y => send_reads m c $i $s $off $hoff (by decide) (by rw [hxc]) _ rfl _ _ y)))
    $$ [$sl:ident $hf:ident HO $ts:ident $rs:ident $tr:ident]
  · isplitr; · iexact $is:ident
    isplitr; · iexact $ir:ident
    isplitl [$sl:ident]; · iexact $sl:ident
    isplitl [$hf:ident]; · iexact $hf:ident
    isplitl [HO]; · iexact HO
    isplitl [$ts:ident]; · iexact $ts:ident
    isplitl [$rs:ident]; · iexact $rs:ident
    isplitl [$tr:ident]; · iexact $tr:ident
    iexact $rr:ident
  iintro ⟨$cs:ident, HO⟩
  sl_exec))

set_option hygiene false in
/-- A near band after its local copy holds, on the band, what the result must hold: chunk i out of keep slot s, the slot
    holding the half at column offset off. -/
local macro "a2a_near " i:num ", " s:num ", " off:term:max ", " hoff:ident ", " hn:ident : tactic => `(tactic| (
  ihave $hn:ident := (Entails.of_eq (pointsTo_congr (kept m c $i $s _ _ (fun y => keep_reads m c $i $s $off $hoff (by decide) (by rw [hxc]) _ rfl _ _ y)))) $$ $hn:ident))

set_option hygiene false in
/-- A send cell after its four rounds is closed: its counter is the device's again, at zero. -/
local macro "a2a_closeS " s:num ", " ha:ident ", " hi:ident ", " hz:ident : tactic => `(tactic| (
  imod (Rounds.cell_close ER (sched m) (Set.mem_univ (K (c, .inr (.inl $s)))) (fun h => h) (R := 4) (fun r hr => duties_send_later m c $s hr)) $$ [$ha:ident] with $hz:ident
  · isplitr; · iexact $hi:ident
    iexact $ha:ident))

set_option hygiene false in
/-- A receive cell after its one round is closed likewise. -/
local macro "a2a_closeR " i:num ", " ha:ident ", " hi:ident ", " hz:ident : tactic => `(tactic| (
  imod (Rounds.cell_close ER (sched m) (Set.mem_univ (K (c, .inr (.inr $i)))) (fun h => h) (R := 1) (fun r hr => duties_recv_later m c $i hr)) $$ [$ha:ident] with $hz:ident
  · isplitr; · iexact $hi:ident
    iexact $ha:ident))

set_option hygiene false in
/-- THE RETURN. The thirty-two bands are the result array whole at what it must hold; the slots are the scratch buffers
    whole at some contents; the twenty-eight counters are at zero; nothing is owed. -/
local macro "a2a_finish" : tactic => `(tactic| (
  sl_step
  iapply Hk
  unfold bodyPost locals
  rw [bigSep_fin4, bigSep_fin16]
  isplitr [HO]
  · isplitl [Hn0 Hn1 Hn2 Hn3 Hn4 Hn5 Hn6 Hn7 Hn8 Hn9 Hn10 Hn11 Hn12 Hn13 Hn14 Hn15 HaR0_pay1 HaR1_pay1 HaR2_pay1 HaR3_pay1 HaR4_pay1 HaR5_pay1 HaR6_pay1
        HaR7_pay1 HaR8_pay1 HaR9_pay1 HaR10_pay1 HaR11_pay1 HaR12_pay1 HaR13_pay1 HaR14_pay1 HaR15_pay1]
    · iapply (out_join32 m c _ _ rfl rfl)
      isplitl [Hn0 Hn1 Hn2 Hn3 Hn4 Hn5 Hn6 Hn7 Hn8 Hn9 Hn10 Hn11 Hn12 Hn13 Hn14 Hn15]
      · isplitl [Hn0]; · iexact Hn0
        isplitl [Hn1]; · iexact Hn1
        isplitl [Hn2]; · iexact Hn2
        isplitl [Hn3]; · iexact Hn3
        isplitl [Hn4]; · iexact Hn4
        isplitl [Hn5]; · iexact Hn5
        isplitl [Hn6]; · iexact Hn6
        isplitl [Hn7]; · iexact Hn7
        isplitl [Hn8]; · iexact Hn8
        isplitl [Hn9]; · iexact Hn9
        isplitl [Hn10]; · iexact Hn10
        isplitl [Hn11]; · iexact Hn11
        isplitl [Hn12]; · iexact Hn12
        isplitl [Hn13]; · iexact Hn13
        isplitl [Hn14]; · iexact Hn14
        iexact Hn15
      · isplitl [HaR0_pay1]; · iexact HaR0_pay1
        isplitl [HaR1_pay1]; · iexact HaR1_pay1
        isplitl [HaR2_pay1]; · iexact HaR2_pay1
        isplitl [HaR3_pay1]; · iexact HaR3_pay1
        isplitl [HaR4_pay1]; · iexact HaR4_pay1
        isplitl [HaR5_pay1]; · iexact HaR5_pay1
        isplitl [HaR6_pay1]; · iexact HaR6_pay1
        isplitl [HaR7_pay1]; · iexact HaR7_pay1
        isplitl [HaR8_pay1]; · iexact HaR8_pay1
        isplitl [HaR9_pay1]; · iexact HaR9_pay1
        isplitl [HaR10_pay1]; · iexact HaR10_pay1
        isplitl [HaR11_pay1]; · iexact HaR11_pay1
        isplitl [HaR12_pay1]; · iexact HaR12_pay1
        isplitl [HaR13_pay1]; · iexact HaR13_pay1
        isplitl [HaR14_pay1]; · iexact HaR14_pay1
        iexact HaR15_pay1
    isplitl [Hx]; · iexact Hx
    isplitl [Hin0 Hin1 Hin2 Hin3]
    · iapply (in_join4 c _ _ _ _)
      isplitl [Hin0]; · iexact Hin0
      isplitl [Hin1]; · iexact Hin1
      isplitl [Hin2]; · iexact Hin2
      iexact Hin3
    isplitl [HaS0_pay1 HaS1_pay1 HaS2_pay1 HaS3_pay1]
    · iapply (send_join4 c _ _ _ _)
      isplitl [HaS0_pay1]; · iexact HaS0_pay1
      isplitl [HaS1_pay1]; · iexact HaS1_pay1
      isplitl [HaS2_pay1]; · iexact HaS2_pay1
      iexact HaS3_pay1
    isplitl [Hkeep0 Hkeep1 Hkeep2 Hkeep3]
    · iapply (keep_join4 c _ _ _ _)
      isplitl [Hkeep0]; · iexact Hkeep0
      isplitl [Hkeep1]; · iexact Hkeep1
      isplitl [Hkeep2]; · iexact Hkeep2
      iexact Hkeep3
    isplitl [Hl0 Hl1 Hl2 Hl3 Hs0 Hs1 Hs2 Hs3]
    · isplitl [Hl0]; · iexact Hl0
      isplitl [Hl1]; · iexact Hl1
      isplitl [Hl2]; · iexact Hl2
      isplitl [Hl3]; · iexact Hl3
      isplitl [Hs0]; · iexact Hs0
      isplitl [Hs1]; · iexact Hs1
      isplitl [Hs2]; · iexact Hs2
      iexact Hs3
    isplitl [HzS0 HzS1 HzS2 HzS3]
    · isplitl [HzS0]; · iexact HzS0
      isplitl [HzS1]; · iexact HzS1
      isplitl [HzS2]; · iexact HzS2
      iexact HzS3
    isplitl [HzR0]; · iexact HzR0
    isplitl [HzR1]; · iexact HzR1
    isplitl [HzR2]; · iexact HzR2
    isplitl [HzR3]; · iexact HzR3
    isplitl [HzR4]; · iexact HzR4
    isplitl [HzR5]; · iexact HzR5
    isplitl [HzR6]; · iexact HzR6
    isplitl [HzR7]; · iexact HzR7
    isplitl [HzR8]; · iexact HzR8
    isplitl [HzR9]; · iexact HzR9
    isplitl [HzR10]; · iexact HzR10
    isplitl [HzR11]; · iexact HzR11
    isplitl [HzR12]; · iexact HzR12
    isplitl [HzR13]; · iexact HzR13
    isplitl [HzR14]; · iexact HzR14
    iexact HzR15
  · iexists _; iexact HO))

set_option hygiene false in
/-- THE WHOLE BODY over the two column offsets: offS / hoffS the half that is sent, offK / hoffK the half that is kept. Chunk i
    goes out of slot i mod 4 at round i div 4; the slots of rounds 1–3 and their reached rounds come back from the waits on
    the slots' send cells (the executor's names for them); after chunk 15 nothing is owed. -/
local macro "a2a_body " offS:term:max ", " hoffS:ident ", " offK:term:max ", " hoffK:ident : tactic => `(tactic| (
  a2a_open
  a2a_send0 0, 0, dev2_eq, $offS, $hoffS, (owedFrom c 15), Hsend0, Hf0, HtS0_0, HtRP0, HIs0, HIrP0, HrS0, HrRP0, HcS0
  a2a_send0 1, 1, dev3_eq, $offS, $hoffS, (owedFrom c 14), Hsend1, Hf1, HtS1_0, HtRP1, HIs1, HIrP1, HrS1, HrRP1, HcS1
  a2a_send0 2, 2, dev4_eq, $offS, $hoffS, (owedFrom c 13), Hsend2, Hf2, HtS2_0, HtRP2, HIs2, HIrP2, HrS2, HrRP2, HcS2
  a2a_send0 3, 3, dev5_eq, $offS, $hoffS, (owedFrom c 12), Hsend3, Hf3, HtS3_0, HtRP3, HIs3, HIrP3, HrS3, HrRP3, HcS3
  a2a_sendR 4, 0, 1, dev6_eq, $offS, $hoffS, (owedFrom c 11), HaS0_pay1, Hf4, HtS0_1, HtRP4, HIs0, HIrP4, HaS0_reached, HrRP4, HcS0
  a2a_sendR 5, 1, 1, dev7_eq, $offS, $hoffS, (owedFrom c 10), HaS1_pay1, Hf5, HtS1_1, HtRP5, HIs1, HIrP5, HaS1_reached, HrRP5, HcS1
  a2a_sendR 6, 2, 1, dev8_eq, $offS, $hoffS, (owedFrom c 9), HaS2_pay1, Hf6, HtS2_1, HtRP6, HIs2, HIrP6, HaS2_reached, HrRP6, HcS2
  a2a_sendR 7, 3, 1, dev9_eq, $offS, $hoffS, (owedFrom c 8), HaS3_pay1, Hf7, HtS3_1, HtRP7, HIs3, HIrP7, HaS3_reached, HrRP7, HcS3
  a2a_sendR 8, 0, 2, dev10_eq, $offS, $hoffS, (owedFrom c 7), HaS0_pay1, Hf8, HtS0_2, HtRP8, HIs0, HIrP8, HaS0_reached, HrRP8, HcS0
  a2a_sendR 9, 1, 2, dev11_eq, $offS, $hoffS, (owedFrom c 6), HaS1_pay1, Hf9, HtS1_2, HtRP9, HIs1, HIrP9, HaS1_reached, HrRP9, HcS1
  a2a_sendR 10, 2, 2, dev12_eq, $offS, $hoffS, (owedFrom c 5), HaS2_pay1, Hf10, HtS2_2, HtRP10, HIs2, HIrP10, HaS2_reached, HrRP10, HcS2
  a2a_sendR 11, 3, 2, dev13_eq, $offS, $hoffS, (owedFrom c 4), HaS3_pay1, Hf11, HtS3_2, HtRP11, HIs3, HIrP11, HaS3_reached, HrRP11, HcS3
  a2a_sendR 12, 0, 3, dev14_eq, $offS, $hoffS, (owedFrom c 3), HaS0_pay1, Hf12, HtS0_3, HtRP12, HIs0, HIrP12, HaS0_reached, HrRP12, HcS0
  a2a_sendR 13, 1, 3, dev15_eq, $offS, $hoffS, (owedFrom c 2), HaS1_pay1, Hf13, HtS1_3, HtRP13, HIs1, HIrP13, HaS1_reached, HrRP13, HcS1
  a2a_sendR 14, 2, 3, dev16_eq, $offS, $hoffS, (owedFrom c 1), HaS2_pay1, Hf14, HtS2_3, HtRP14, HIs2, HIrP14, HaS2_reached, HrRP14, HcS2
  a2a_sendR 15, 3, 3, dev17_eq, $offS, $hoffS, (0), HaS3_pay1, Hf15, HtS3_3, HtRP15, HIs3, HIrP15, HaS3_reached, HrRP15, HcS3
  a2a_near 0, 0, $offK, $hoffK, Hn0
  a2a_near 1, 1, $offK, $hoffK, Hn1
  a2a_near 2, 2, $offK, $hoffK, Hn2
  a2a_near 3, 3, $offK, $hoffK, Hn3
  a2a_near 4, 0, $offK, $hoffK, Hn4
  a2a_near 5, 1, $offK, $hoffK, Hn5
  a2a_near 6, 2, $offK, $hoffK, Hn6
  a2a_near 7, 3, $offK, $hoffK, Hn7
  a2a_near 8, 0, $offK, $hoffK, Hn8
  a2a_near 9, 1, $offK, $hoffK, Hn9
  a2a_near 10, 2, $offK, $hoffK, Hn10
  a2a_near 11, 3, $offK, $hoffK, Hn11
  a2a_near 12, 0, $offK, $hoffK, Hn12
  a2a_near 13, 1, $offK, $hoffK, Hn13
  a2a_near 14, 2, $offK, $hoffK, Hn14
  a2a_near 15, 3, $offK, $hoffK, Hn15
  a2a_closeS 0, HaS0, HIs0, HzS0
  a2a_closeS 1, HaS1, HIs1, HzS1
  a2a_closeS 2, HaS2, HIs2, HzS2
  a2a_closeS 3, HaS3, HIs3, HzS3
  a2a_closeR 0, HaR0, HIr0, HzR0
  a2a_closeR 1, HaR1, HIr1, HzR1
  a2a_closeR 2, HaR2, HIr2, HzR2
  a2a_closeR 3, HaR3, HIr3, HzR3
  a2a_closeR 4, HaR4, HIr4, HzR4
  a2a_closeR 5, HaR5, HIr5, HzR5
  a2a_closeR 6, HaR6, HIr6, HzR6
  a2a_closeR 7, HaR7, HIr7, HzR7
  a2a_closeR 8, HaR8, HIr8, HzR8
  a2a_closeR 9, HaR9, HIr9, HzR9
  a2a_closeR 10, HaR10, HIr10, HzR10
  a2a_closeR 11, HaR11, HIr11, HzR11
  a2a_closeR 12, HaR12, HIr12, HzR12
  a2a_closeR 13, HaR13, HIr13, HzR13
  a2a_closeR 14, HaR14, HIr14, HzR14
  a2a_closeR 15, HaR15, HIr15, HzR15
  a2a_finish))

set_option maxHeartbeats 32000000 in
/-- The body on a device whose first coordinate is 0: it keeps the left column half of its rows and sends the right. -/
theorem sound_body_x0 (K : Dev nD × Cl → ℕ) (c : Dev nD) (hx : c.val / 16 = 0) (W : Waits sig Unit) (Kt : PUnit → sProp 𝕄) :
    iprop(bodyPre m K c ∗ owes (c : Thread nD τ) (O₀ c) W ∗ ((bodyPost m c ∗ ∃ W', owes (c : Thread nD τ) 0 W') -∗ Kt ⟨⟩))
      ⊢ wp frame (wpE (defs₀ (F := F)) 𝒱₀ c none) Set.univ (bodyAt0 (F := F) t0_0) Kt := by
  have h34 := cond0_x0 c hx
  have h37 := cond1_x0 c hx
  have hmwB := mayWait_bar (F := F) c 16
  have hmw := fun (q : DmaSem sig) (n : ℕ) (hq : recvIdx q = none) => mayWait_local (F := F) c q n hq
  have hxc : xco c = 0 := hx
  a2a_body 1024, slices_S512x2048_o0_1024_S512x1024, 0, slices_S512x2048_o0_0_S512x1024

set_option maxHeartbeats 32000000 in
/-- The body on a device whose first coordinate is 1: it keeps the right column half of its rows and sends the left. -/
theorem sound_body_x1 (K : Dev nD × Cl → ℕ) (c : Dev nD) (hx : c.val / 16 = 1) (W : Waits sig Unit) (Kt : PUnit → sProp 𝕄) :
    iprop(bodyPre m K c ∗ owes (c : Thread nD τ) (O₀ c) W ∗ ((bodyPost m c ∗ ∃ W', owes (c : Thread nD τ) 0 W') -∗ Kt ⟨⟩))
      ⊢ wp frame (wpE (defs₀ (F := F)) 𝒱₀ c none) Set.univ (bodyAt0 (F := F) t0_0) Kt := by
  have h34 := cond0_x1 c hx
  have h37 := cond1_x1 c hx
  have hmwB := mayWait_bar (F := F) c 16
  have hmw := fun (q : DmaSem sig) (n : ℕ) (hq : recvIdx q = none) => mayWait_local (F := F) c q n hq
  have hxc : xco c = 1 := hx
  a2a_body 0, slices_S512x2048_o0_0_S512x1024, 1024, slices_S512x2048_o0_1024_S512x1024

/-- THE BODY: from `bodyPre` and the launch debt, one thread's body runs to its return with `bodyPost` and nothing owed. -/
theorem sound_body (K : Dev nD × Cl → ℕ) (c : Dev nD) (W : Waits sig Unit) (Kt : PUnit → sProp 𝕄) :
    iprop(bodyPre m K c ∗ owes (c : Thread nD τ) (O₀ c) W ∗ ((bodyPost m c ∗ ∃ W', owes (c : Thread nD τ) 0 W') -∗ Kt ⟨⟩))
      ⊢ wp frame (wpE (defs₀ (F := F)) 𝒱₀ c none) Set.univ (bodyAt0 (F := F) t0_0) Kt := by
  have h : c.val / 16 = 0 ∨ c.val / 16 = 1 := by have := c.isLt; have h32 : c.val < 32 := this; omega
  rcases h with h | h
  · exact sound_body_x0 m K c h W Kt
  · exact sound_body_x1 m K c h W Kt

end Cert.KernelIdeal.A2A

end
-- ==== Proof.KernelIdealX.Deal.lean ====
/-
  The ghost state of the exchange dealt at launch, for all thirty-two devices at once.

  The exchange's cells are, on every device, its barrier cell, its four send cells and its sixteen receive cells; their duties
  one for the barrier cell, one for each receive cell and four (one a round) for each send cell. The launch element funds every
  cell's round state, position and round-0 mark and every duty's token. A device's counters at zero (the barrier semaphore,
  which the launch does not scope, and twenty of the kernel's twenty-eight DMA semaphores; the other eight serve local copies
  and are no cells) become its cells' invariants. Since a device pays into its peer's cells, the invariants are allocated for
  all devices under one update and every device is then handed the records it reads and the tokens of the duties IT pays: its
  peer's barrier and receive tokens, its own send tokens. Last, the launch credit: what the peer owes a device at launch is one
  unit on its barrier cell and one transfer's credit on each of its receive cells.
-/
import proofs.«900651_g7700000000000652_dist_a2a_v7x_xyz2x4x4_x_m8192_n1024_bf16_1_alg».proof.Proof.KernelIdealX.Body

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Launch

/-! ## The exchange's cells and duty tokens, over all devices -/

/-- The kernel's own (scoped) semaphores: its twenty-eight DMA semaphores. -/
abbrev osem : Fin 28 → SemLoc sig := fun k => .dma ⟨k.val, k.isLt⟩

theorem ownSemFacts : Pipeline.OwnSemFacts cfg0.spec osem := by decide

theorem csem_injective : Function.Injective (csem : Cl → SemLoc sig) := by decide

theorem kcell_injective : Function.Injective (kcell : Dev nD × Cl → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl

/-- Every device's twenty-one cells. -/
def myCells : Finset (GSem nD τ sig) := Finset.univ.map ⟨kcell, kcell_injective⟩

/-- The duties of one device's cells: the barrier's, the sixteen receive cells', and the four send cells' four rounds. -/
abbrev Tk : Type := Unit ⊕ (Fin 16 ⊕ (Fin 4 × Fin 4))

/-- A duty's cell on its device, and its round. -/
abbrev tokAt : Tk → SemLoc sig × ℕ
  | .inl _ => (.reg barS, 0)
  | .inr (.inl i) => (.dma (recvS i).sem, 0)
  | .inr (.inr sr) => (.dma (sendS sr.1).sem, sr.2.val)

theorem tokAt_injective : Function.Injective tokAt := by decide

abbrev tokOf (ct : Dev nD × Tk) : GSem nD τ sig × ℕ × Unit := (((ct.1 : Thread nD τ), (tokAt ct.2).1), (tokAt ct.2).2, ())

theorem tokOf_injective : Function.Injective (tokOf : Dev nD × Tk → GSem nD τ sig × ℕ × Unit) := by
  rintro ⟨c, t⟩ ⟨c', t'⟩ h
  have h1 : c = c' := congrArg (fun x : GSem nD τ sig × ℕ × Unit => x.1.1.1) h
  subst h1
  have h2 : t = t' := tokAt_injective (Prod.ext (congrArg (fun x : GSem nD τ sig × ℕ × Unit => x.1.2) h)
    (congrArg (fun x : GSem nD τ sig × ℕ × Unit => x.2.1) h))
  subst h2; rfl

/-- Every duty of every device's cells. -/
def myToks : Finset (GSem nD τ sig × ℕ × Unit) := Finset.univ.map ⟨tokOf, tokOf_injective⟩

/-- The launch element: the staging cells' (there are none), the exchange's cells and duties, no counter of a local copy. -/
def u₀ : UU :=
  (initOf (Pipeline.cells cfgs cellOf_inj) (Pipeline.launchToks cfgs cellOf_inj), (initOf myCells myToks, 1))

/-- The duty tokens of device `c`'s own cells. -/
def toks (c : Dev nD) : sProp 𝕄 :=
  iprop(dutyTok ER (barCell c) 0 ()
    ∗ (bigSep Finset.univ fun i : Fin 16 => dutyTok ER (recvCell c i) 0 ())
    ∗ bigSep Finset.univ fun sr : Fin 4 × Fin 4 => dutyTok ER (sendCell c sr.1) sr.2.val ())

/-- What the launch element deals device `c`. -/
def G (c : Dev nD) : sProp 𝕄 :=
  iprop((bigSep Finset.univ fun k : Cl => roundState ER (sched m) (kcell (c, k)) 0)
    ∗ (bigSep Finset.univ fun k : Cl => iprop(atPos ER (kcell (c, k)) 0 ∅ 0 ∗ reached ER (kcell (c, k)) 0)) ∗ toks c)

/-- What the global step makes of it and of the semaphores at zero: the body's ghost state at some names, and the local
    copies' semaphores, which are no cells. -/
def G' (c : Dev nD) : sProp 𝕄 := iprop((∃ K, ghost m K c) ∗ locals c)

theorem fund_cells : BI.own (ER (initOf myCells myToks)) ⊢ (|==> bigSep Finset.univ (G m) : sProp 𝕄) := by
  have hX (Φ : GSem nD τ sig → sProp 𝕄) : bigSep myCells Φ = bigSep Finset.univ fun c : Dev nD => bigSep Finset.univ fun k : Cl => Φ (kcell (c, k)) := by
    unfold myCells; rw [bigSep_map, bigSep_univ_prod]; rfl
  have hT : bigSep myToks (fun x => (dutyTok ER x.1 x.2.1 x.2.2 : sProp 𝕄)) = bigSep Finset.univ fun c : Dev nD => toks c := by
    unfold myToks; rw [bigSep_map, bigSep_univ_prod]
    exact bigSep_congr fun c _ => by
      unfold toks
      rw [bigSep_univ_sum, bigSep_univ_sum, bigSep_univ_of_subsingleton ()]
      rfl
  iintro HX
  imod (Rounds.fund ER (sched m) myCells myToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero, regrouped -/

omit [FloatOps F] in
/-- A conjunction over a device's cells: the barrier cell's, the four send cells', the sixteen receive cells'. -/
theorem bigSep_Cl (Φ : Cl → sProp 𝕄) :
    bigSep Finset.univ Φ = iprop(Φ (.inl ()) ∗ (bigSep Finset.univ fun s : Fin 4 => Φ (.inr (.inl s)))
      ∗ bigSep Finset.univ fun i : Fin 16 => Φ (.inr (.inr i))) := by
  rw [bigSep_univ_sum, bigSep_univ_sum, bigSep_univ_of_subsingleton ()]
  rfl

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem bigSep_fin28 (Φ : Fin 28 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15
      ∗ Φ 16 ∗ Φ 17 ∗ Φ 18 ∗ Φ 19 ∗ Φ 20 ∗ Φ 21 ∗ Φ 22 ∗ Φ 23 ∗ Φ 24 ∗ Φ 25 ∗ Φ 26 ∗ Φ 27) :=
  bigSep_univ_eq_bigSepL [0, 1, 2, 3, 4, 5, 6, 7, 8, 9, 10, 11, 12, 13, 14, 15, 16, 17, 18, 19, 20, 21, 22, 23, 24, 25, 26, 27] (by decide) (by decide) Φ
omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

omit [FloatOps F] in
/-- Dealt out: the cells' counters, and the local copies' semaphores beside them. -/
theorem sems_deal (c : Dev nD) :
    iprop(Pipeline.ownSems0 (Ix := Unit) (Name := ℕ) (U := UU) (Lvl := ℕ) (Val := Elt F) (τ := τ) osem c ∗ unscopedSems0 c)
      ⊢ iprop((bigSep Finset.univ fun k : Cl => semVal (kcell (c, k)) 0) ∗ locals c : sProp 𝕄) := by
  unfold Pipeline.ownSems0
  rw [bigSep_fin28, unscopedSems0_eq, bigSep_Cl, bigSep_fin4, bigSep_fin16]
  unfold locals
  iintro ⟨⟨H0, H1, H2, H3, H4, H5, H6, H7, H8, H9, H10, H11, H12, H13, H14, H15, H16, H17, H18, H19, H20, H21, H22, H23, H24, H25, H26, H27⟩, HB⟩
  isplitl [HB H8 H9 H10 H11 H12 H13 H14 H15 H16 H17 H18 H19 H20 H21 H22 H23 H24 H25 H26 H27]
  · isplitl [HB]; · iexact HB
    isplitl [H8 H9 H10 H11]
    · isplitl [H8]; · iexact H8
      isplitl [H9]; · iexact H9
      isplitl [H10]; · iexact H10
      iexact H11
    · isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      iexact H27
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

omit [FloatOps F] in
/-- Handed back: the local copies' semaphores and the closed send and receive cells' are the kernel's twenty-eight. -/
theorem sems_back (c : Dev nD) :
    iprop(locals c ∗ (bigSep Finset.univ fun s : Fin 4 => semVal (sendCell c s) 0) ∗ bigSep Finset.univ fun i : Fin 16 => semVal (recvCell c i) 0)
      ⊢ (Pipeline.ownSems0 (Ix := Unit) (Name := ℕ) (U := UU) (Lvl := ℕ) (Val := Elt F) (τ := τ) osem c : sProp 𝕄) := by
  unfold Pipeline.ownSems0
  rw [bigSep_fin28, bigSep_fin4, bigSep_fin16]
  unfold locals
  iintro ⟨⟨H0, H1, H2, H3, H4, H5, H6, H7⟩, ⟨H8, H9, H10, H11⟩, H12, H13, H14, H15, H16, H17, H18, H19, H20, H21, H22, H23, H24, H25, H26, H27⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

/-! ## The cells' invariants allocated, and the ghost state dealt to the payers -/

/-- One device's step: its cells' invariants from their counters and round states at zero. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cl => iprop(∃ κ : ℕ, cellInv ER (sched m) κ (kcell (c, k))))
          ∗ (bigSep Finset.univ fun k : Cl => iprop(atPos ER (kcell (c, k)) 0 ∅ 0 ∗ reached ER (kcell (c, k)) 0)) ∗ toks c ∗ locals c) := by
  unfold G
  iintro ⟨Hos, Hus, Hst, Hat, Htok⟩
  ihave Hv := (sems_deal (F := F) c) $$ [Hos Hus]
  · isplitl [Hos] <;> iassumption
  icases Hv with ⟨Hv, Hloc⟩
  imod (show iprop((bigSep Finset.univ fun k : Cl => semVal (kcell (c, k)) 0) ∗ bigSep Finset.univ fun k : Cl => roundState ER (sched m) (kcell (c, k)) 0)
      ⊢ (|={Set.univ}=> bigSep Finset.univ fun k : Cl => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-- Every cell's invariant at the names `K`, and round 0 of every cell reached: what every device may read. -/
def records (K : Dev nD × Cl → ℕ) : sProp 𝕄 :=
  iprop((bigSep Finset.univ fun ck : Dev nD × Cl => cellInv ER (sched m) (K ck) (kcell ck))
    ∗ bigSep Finset.univ fun ck : Dev nD × Cl => reached ER (kcell ck) 0)

instance records_persistent (K : Dev nD × Cl → ℕ) : BI.Persistent (records m K) := by unfold records; infer_instance

omit [FloatOps F] in
/-- Of a conjunction over all devices' cells: one cell's conjunct; -/
theorem all_at (Ψ : Dev nD × Cl → sProp 𝕄) (ck : Dev nD × Cl) : bigSep Finset.univ Ψ ⊢ Ψ ck := bigSep_elim (Finset.mem_univ ck)
omit [FloatOps F] in
/-- one device's; -/
theorem all_row (Ψ : Dev nD × Cl → sProp 𝕄) (d : Dev nD) : bigSep Finset.univ Ψ ⊢ bigSep Finset.univ fun k : Cl => Ψ (d, k) := by
  rw [bigSep_univ_prod]; exact bigSep_elim (Finset.mem_univ d)
omit [FloatOps F] in
/-- one device's send cells'; -/
theorem all_send (Ψ : Dev nD × Cl → sProp 𝕄) (d : Dev nD) : bigSep Finset.univ Ψ ⊢ bigSep Finset.univ fun s : Fin 4 => Ψ (d, .inr (.inl s)) := by
  refine (all_row Ψ d).trans ?_
  rw [bigSep_Cl]
  iintro ⟨-, H, -⟩; iexact H
omit [FloatOps F] in
/-- one device's receive cells'. -/
theorem all_recv (Ψ : Dev nD × Cl → sProp 𝕄) (d : Dev nD) : bigSep Finset.univ Ψ ⊢ bigSep Finset.univ fun i : Fin 16 => Ψ (d, .inr (.inr i)) := by
  refine (all_row Ψ d).trans ?_
  rw [bigSep_Cl]
  iintro ⟨-, -, H⟩; iexact H

/-- The tokens of the duties device `c` pays: the peer's barrier duty, the peer's sixteen receive duties, its own sixteen send
    duties. -/
def payToks (c : Dev nD) : sProp 𝕄 :=
  iprop(dutyTok ER (barCell (peer c)) 0 ()
    ∗ (bigSep Finset.univ fun i : Fin 16 => dutyTok ER (recvCell (peer c) i) 0 ())
    ∗ bigSep Finset.univ fun sr : Fin 4 × Fin 4 => dutyTok ER (sendCell c sr.1) sr.2.val ())
/-- What stays with device `c`: its positions and those tokens. -/
def linear (c : Dev nD) : sProp 𝕄 :=
  iprop((bigSep Finset.univ fun k : Cl => atPos ER (kcell (c, k)) 0 ∅ 0) ∗ payToks c)

theorem ghost_intro (K : Dev nD × Cl → ℕ) (c : Dev nD) : iprop(records m K ∗ linear c) ⊢ iprop(∃ K, ghost m K c) := by
  unfold records linear payToks ghost invs
  iintro ⟨⟨#HI, #HR⟩, Hat, HtB, HtR, HtS⟩
  iexists K
  isplitr
  · isplitr; · iapply (all_row (fun ck => cellInv ER (sched m) (K ck) (kcell ck)) c); iexact HI
    isplitr; · iapply (all_at (fun ck => cellInv ER (sched m) (K ck) (kcell ck)) (peer c, .inl ())); iexact HI
    iapply (all_recv (fun ck => cellInv ER (sched m) (K ck) (kcell ck)) (peer c)); iexact HI
  isplitl [Hat]; · iexact Hat
  isplitr; · iapply (all_at (fun ck => reached ER (kcell ck) 0) (peer c, .inl ())); iexact HR
  isplitr; · iapply (all_recv (fun ck => reached ER (kcell ck) 0) (peer c)); iexact HR
  isplitr; · iapply (all_send (fun ck => reached ER (kcell ck) 0) c); iexact HR
  isplitl [HtB]; · iexact HtB
  isplitl [HtR]; · iexact HtR
  iexact HtS

omit [FloatOps F] in
/-- The tokens dealt to the payers: a device's barrier and receive tokens go to its peer, its send tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pairing (fun c : Dev nD => (dutyTok ER (barCell c) 0 () : sProp 𝕄)),
    bigSep_univ_equiv pairing (fun c : Dev nD => (bigSep Finset.univ fun i : Fin 16 => dutyTok ER (recvCell c i) 0 () : sProp 𝕄))]
  iintro ⟨H1, H2, H3⟩
  isplitl [H1]; · iexact H1
  isplitl [H2]; · iexact H2
  iexact H3

theorem regroup :
    (bigSep Finset.univ fun c : Dev nD => iprop((bigSep Finset.univ fun k : Cl => iprop(∃ κ : ℕ, cellInv ER (sched m) κ (kcell (c, k))))
          ∗ (bigSep Finset.univ fun k : Cl => iprop(atPos ER (kcell (c, k)) 0 ∅ 0 ∗ reached ER (kcell (c, k)) 0)) ∗ toks c ∗ locals c) : sProp 𝕄)
      ⊢ bigSep Finset.univ (G' m) := by
  rw [bigSep_sep', bigSep_sep', bigSep_sep', ← bigSep_univ_prod (fun ck : Dev nD × Cl => iprop(∃ κ : ℕ, cellInv ER (sched m) κ (kcell ck))),
    bigSep_congr (s := Finset.univ) (fun (c : Dev nD) _ => bigSep_sep' Finset.univ (fun k : Cl => (atPos ER (kcell (c, k)) 0 ∅ 0 : sProp 𝕄)) (fun k => reached ER (kcell (c, k)) 0)),
    bigSep_sep', ← bigSep_univ_prod (fun ck : Dev nD × Cl => (reached ER (kcell ck) 0 : sProp 𝕄))]
  iintro ⟨HI, ⟨Hat, #HR⟩, Htok, Hloc⟩
  ihave HK := (BI.bigSep_exists_pi Finset.univ (fun (ck : Dev nD × Cl) (κ : ℕ) => (cellInv ER (sched m) κ (kcell ck) : sProp 𝕄))) $$ HI
  icases HK with ⟨%K, #HI⟩
  ihave Htk := (toks_around (F := F)) $$ Htok
  iapply (Entails.of_eq (bigSep_sep' Finset.univ (fun c : Dev nD => iprop(∃ K, ghost m K c)) (fun c : Dev nD => locals c)).symm)
  isplitr [Hloc]
  · iapply (bigSep_with_persistent (R := records m K) fun c _ => ghost_intro m K c)
    isplitr
    · unfold records; isplitl; · iexact HI
      iexact HR
    · iapply (Entails.of_eq (bigSep_sep' Finset.univ (fun c : Dev nD => bigSep Finset.univ fun k : Cl => (atPos ER (kcell (c, k)) 0 ∅ 0 : sProp 𝕄)) payToks).symm)
      isplitl [Hat]; · iexact Hat
      iexact Htk
  · iexact Hloc

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- What is owed with `n` chunks left, as a sum over the chunks counted from the last. -/
theorem owedFrom_eq_sum (d : Dev nD) (n : ℕ) :
    owedFrom d n = ∑ k ∈ Finset.range n, (tallyAt (recvCell (peer d) ⟨15 - k % 16, by omega⟩) () Nc : CellTallies nD τ sig Unit) := by
  induction n with
  | zero => rfl
  | succ n ih => rw [Finset.sum_range_succ, ← ih]; rfl

omit [FloatOps F] in
/-- At launch a device owes each of its peer's sixteen receive cells one transfer's credit. -/
theorem owedFrom_16 (d : Dev nD) :
    owedFrom d 16 = ∑ i : Fin 16, (tallyAt (recvCell (peer d) i) () Nc : CellTallies nD τ sig Unit) := by
  rw [owedFrom_eq_sum, Finset.sum_range,
    ← Equiv.sum_comp Fin.revPerm (fun i : Fin 16 => (tallyAt (recvCell (peer d) i) () Nc : CellTallies nD τ sig Unit))]
  refine Finset.sum_congr rfl fun i _ => ?_
  have hi : (⟨15 - i.val % 16, by omega⟩ : Fin 16) = Fin.revPerm i := by
    refine Fin.ext ?_
    have := i.isLt
    simp only [Fin.revPerm_apply, Fin.val_rev]
    omega
  rw [hi]

omit [FloatOps F] in
theorem O₀_eq : (O₀ : Dev nD → CellTallies nD τ sig Unit)
    = fun d => (∑ i : Fin 16, (tallyAt (recvCell (peer d) i) () Nc : CellTallies nD τ sig Unit)) + tallyAt (barCell (peer d)) () 1 := by
  funext d; unfold O₀; rw [owedFrom_16]

omit [FloatOps F] in
/-- Each receive cell's launch credit, the peer being the one device that owes it. -/
theorem cred_recv (c : Dev nD) :
    (bigSep Finset.univ fun i : Fin 16 => Pipeline.launchCred (fun d : Dev nD => (tallyAt (recvCell (peer d) i) () Nc : CellTallies nD τ sig Unit)) c : sProp 𝕄)
      ⊢ bigSep Finset.univ fun i : Fin 16 => cred (tallyAt (recvCell c i) () Nc) :=
  bigSep_mono fun i _ => Pipeline.launchCred_tallyAt (SemLoc.dma (recvS i).sem) peer peer peer_peer peer_peer () Nc c

omit [FloatOps F] in
/-- The launch deals a device the credit its peer owes it: the barrier's unit and each receive cell's transfer credit. -/
theorem creds_intro (c : Dev nD) : (Pipeline.launchCred O₀ c : sProp 𝕄) ⊢ creds c := by
  rw [O₀_eq, Pipeline.launchCred_add (fun d : Dev nD => ∑ i : Fin 16, (tallyAt (recvCell (peer d) i) () Nc : CellTallies nD τ sig Unit))
      (fun d : Dev nD => tallyAt (barCell (peer d)) () 1) c,
    Pipeline.launchCred_sum Finset.univ (fun (i : Fin 16) (d : Dev nD) => (tallyAt (recvCell (peer d) i) () Nc : CellTallies nD τ sig Unit)) c]
  unfold creds
  iintro ⟨HR, HB⟩
  isplitl [HB]
  · iapply (Pipeline.launchCred_tallyAt (SemLoc.reg barS) peer peer peer_peer peer_peer () 1 c); iexact HB
  · iapply (cred_recv (F := F) c); iexact HR

end Launch

end Cert.KernelIdeal.A2A

end
-- ==== Proof.KernelIdealX.Run.lean ====
/-
  The run of the exchange on the 32 devices: every weakly fair execution of @main terminates, nothing faulting, with every
  device's result array holding what it must (`outSpec`: its column block of the whole narrowed `x`, stated through the
  devices' own blocks) and its block of `x` unchanged.

  From one thread's body to the run of all of them. The launch element is split between the staging cells (none here) and the
  exchange's own cells; every device is dealt the round state, position and round-0 mark of its twenty-one cells and the
  tokens of their duties; the cells' invariants are allocated for all devices at once, since a device pays into its peer's
  cells; the tokens are dealt to the payers (the barrier and receive tokens to the peer, the send tokens to the owner); the
  launch credit is what the peer owes: one unit on the barrier cell, one transfer's credit on each receive cell.
-/
import proofs.«900651_g7700000000000652_dist_a2a_v7x_xyz2x4x4_x_m8192_n1024_bf16_1_alg».proof.Proof.KernelIdealX.Deal

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Launch

/-! ## The proof data: one point, no window -/

/-- Before the one point: the body's start at some names of the invariants, owing the launch debt. After it: the body's end,
    owing nothing. -/
def dats (_ : Fin 1) (c : Dev nD) : Dat τ (Elt F) Unit ℕ UU ℕ cfg0 c where
  A w := (s₀ m ρ).mem ((cfg0.win w).arr.view.loc (c : Thread nD τ))
  after w _ := w.elim0
  Φ t := match t with
    | ⟨0, _⟩ => iprop(∃ K, bodyPre m K c)
    | ⟨_ + 1, _⟩ => bodyPost m c
  q _ := fullShare
  owed t := match t with
    | ⟨0, _⟩ => O₀ c
    | ⟨_ + 1, _⟩ => 0

omit [FloatOps F] in
/-- A conjunction over the windows, of which there are none, is empty. -/
theorem bigSep_noWindow (Φ : Fin cfg0.W → sProp 𝕄) : bigSep Finset.univ Φ = iprop(emp) := by
  rw [show (Finset.univ : Finset (Fin cfg0.W)) = ∅ from Finset.univ_eq_empty, BI.bigSep_empty]; rfl

/-- The library's body obligation on device `c`: the one point's obligation is the body lemma, the start's names opened and
    the debt's recorded set read off. -/
theorem body_obligation (c : Dev nD) : BodyObligation (dats (F := F) m ρ 0 c) (defs₀ (F := F)) 𝒱₀ () Set.univ := fun t => by
  rw [Gen.fin_N0 t, bigSep_noWindow, bigSep_noWindow]
  show iprop((∃ K, bodyPre m K c)
      ∗ (∃ W : Waits sig Unit, ⌜(↑W : Set (SemLoc sig × Unit)) ⊆ (dats m ρ 0 c).bound () t0_0.castSucc⌝ ∗ owes (c : Thread nD τ) (O₀ c) W) ∗ emp)
    ⊢ wp frame (wpE (defs₀ (F := F)) 𝒱₀ c none) Set.univ (bodyAt0 (F := F) t0_0)
        (fun _ => iprop(bodyPost m c
          ∗ (∃ W : Waits sig Unit, ⌜(↑W : Set (SemLoc sig × Unit)) ⊆ (dats m ρ 0 c).bound () t0_0.succ⌝ ∗ owes (c : Thread nD τ) 0 W) ∗ emp))
  iintro ⟨⟨%K, Hpre⟩, ⟨%W, %hW, HO⟩, -⟩
  iapply (sound_body m K c W _)
  isplitl [Hpre]; · iexact Hpre
  isplitl [HO]; · iexact HO
  iintro ⟨Hpost, %W', HO'⟩
  isplitl [Hpost]; · iexact Hpost
  isplitl [HO']
  · iexists W'
    isplitr; · ipureintro; exact fun _ _ => Or.inl trivial
    iexact HO'
  · iempintro

/-! ## The launch theorem's side conditions -/

/-- What a device holds after the global step, before its scoped buffers: the body's ghost state, the launch credit, the
    levels, the local copies' semaphores, its block of `x` and its result array as launched. -/
def X (c : Dev nD) : sProp 𝕄 :=
  iprop((∃ K, ghost m K c) ∗ creds c ∗ levAts L lv ∗ locals c
    ∗ (((c : Thread nD τ).loc main_arg0) ↦{fullShare} m ((c : Thread nD τ).loc main_arg0))
    ∗ (((c : Thread nD τ).loc main_v1) ↦{fullShare} m ((c : Thread nD τ).loc main_v1)))

/-- What is read off at the end: the result array and the block of `x`. -/
def Y (c : Dev nD) : sProp 𝕄 :=
  iprop((((c : Thread nD τ).loc main_v1) ↦{fullShare} outSpec m c)
    ∗ (((c : Thread nD τ).loc main_arg0) ↦{fullShare} m ((c : Thread nD τ).loc main_arg0)))

theorem X_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  iintro ⟨⟨Hx, Hv⟩, Hlev, Hcr, -, HG⟩
  ihave Hc := (creds_intro (F := F) c) $$ Hcr
  unfold G'
  icases HG with ⟨HG, Hloc⟩
  imodintro
  unfold X
  isplitl
  · isplitl [HG]; · iexact HG
    isplitl [Hc]; · iexact Hc
    isplitl [Hlev]; · iexact Hlev
    isplitl [Hloc]; · iexact Hloc
    isplitl [Hx]; · iexact Hx
    iexact Hv
  · iempintro

theorem phi0_intro (c : Dev nD) :
    iprop(X m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(∃ K, bodyPre m K c) from rfl, scopedRest0_eq]
  unfold X bodyPre bufs
  iintro ⟨⟨⟨%K, HG⟩, Hc, Hlev, Hloc, Hx, Hv⟩, -, ⟨%f0, H0⟩, ⟨%f1, H1⟩, ⟨%f2, H2⟩⟩
  iexists K
  isplitl [HG]; · iexact HG
  isplitl [Hc]; · iexact Hc
  isplitl [Hlev]; · iexact Hlev
  isplitl [Hloc]; · iexact Hloc
  isplitl [Hx]; · iexact Hx
  isplitl [Hv]; · iexact Hv
  isplitl [H0]; · iexists f0; iexact H0
  isplitl [H1]; · iexists f1; iexact H1
  iexists f2; iexact H2

theorem phi1_exit (c : Dev nD) :
    (dats m ρ 0 c).Φ (Fin.last cfg0.N) ⊢ iprop(Y m c ∗ Pipeline.ownSems0 osem c ∗ Pipeline.scopedRest cfg0.spec c) := by
  rw [show (dats m ρ 0 c).Φ (Fin.last cfg0.N) = bodyPost m c from rfl, scopedRest0_eq]
  unfold bodyPost Y
  iintro ⟨Hv, Hx, ⟨%f0, H0⟩, ⟨%f1, H1⟩, ⟨%f2, H2⟩, Hloc, HS, HR⟩
  isplitl [Hv Hx]
  · isplitl [Hv] <;> iassumption
  isplitl [Hloc HS HR]
  · iapply (sems_back (F := F) c)
    isplitl [Hloc]; · iexact Hloc
    isplitl [HS] <;> iassumption
  isplitl [H0]; · iexists f0; iexact H0
  isplitl [H1]; · iexists f1; iexact H1
  iexists f2; iexact H2

theorem waits (c : Dev nD) : (levAts L lv : sProp 𝕄) ⊢ Pipeline.cellsWaits cfgs (dats m ρ) () 0 c :=
  Pipeline.cellsWaits_intro cfgs (dats m ρ) () 0 c fun w => w.elim0

end Launch

open Launch in
set_option maxRecDepth 8000 in
/-- At the compiled mesh of thirty-two devices, for any float values, from any memory with zero counters: every weakly fair
    execution of @main (the devices paired across the first mesh axis, each pair shaking hands on the barrier semaphore and then
    exchanging sixteen half-chunks) terminates, and every final state has each device's result array holding its column block of
    the whole narrowed `x` (`outSpec`) and its block of `x` unchanged. -/
theorem run_main :
    θ_run (defs (F := F)) (onTc (τ := τ) (main (F := F))) ⟨m, fun _ => 0, ρ⟩ (fun r => ∀ c : Dev nD,
      r.2.mem ((c.tc : Thread nD τ).loc main_v1) = outSpec m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave H' := (own_pair_emb EX _ _) $$ HX
      icases H' with ⟨HR, -⟩
      imod (fund_cells m) $$ HR with HG
      imodintro
      isplitl [HP] <;> iassumption)
    (hglob := glob m)
    (hA := fun _ _ => rfl) (hpf := fun _ k => k.elim0)
    (X := X m) (Y := Y m) (Z := fun _ => iprop(emp))
    (hX := X_intro m ρ) (hin := phi0_intro m ρ) (hout := phi1_exit m ρ)
    (QY := fun c s => s.mem ((c.tc : Thread nD τ).loc main_v1) = outSpec m c
      ∧ s.mem ((c.tc : Thread nD τ).loc main_arg0) = m ((c.tc : Thread nD τ).loc main_arg0))
    (hY := fun c s' => by
      unfold Y
      iintro ⟨⟨Hv, Hx⟩, -, HSI⟩
      icombine HSI Hv gives %hv
      icombine HSI Hx gives %hx
      imodintro
      isplitr; · ipureintro; exact ⟨Buf.eq_of_forall_mem_univ hv, Buf.eq_of_forall_mem_univ hx⟩
      iexact HSI)
    (hQ := fun _ h c => (h c).2.2)

/-- info: 'Cert.KernelIdeal.A2A.run_main' depends on axioms: [propext, Classical.choice, Quot.sound] -/
#guard_msgs in #print axioms run_main

end Cert.KernelIdeal.A2A

end
-- ==== Proof.KernelIdealX.OutValue.lean ====
/-
  The value of the exchange: what each device's result array must hold (`outSpec`) is its column block of the whole
  narrowed `x`, when each device's argument is its row block of the whole `x`. Index arithmetic only: row `r` of the whole
  is row `r mod 8192` of the row block of a device whose first mesh coordinate is `r / 8192`, and that device is `c`
  itself or its peer, whichever has that coordinate; column `k` of `c`'s column block is column `1024·x(c) + k` of the whole.
-/
import proofs.«900651_g7700000000000652_dist_a2a_v7x_xyz2x4x4_x_m8192_n1024_bf16_1_alg».proof.Proof.KernelIdealX.Proto
import Idealize.ShloMosaic.Lib.Layout

noncomputable section

namespace Cert.KernelIdeal.A2A

open Cert.KernelIdeal Cert.KernelIdeal.Gen
open Idealize.ShloMosaic Idealize.ShloMosaic.TcCoe

variable {F : FTy → Type} [FloatOps F]
variable (m : (ℓ : Loc nD τ sig) → Buf (Elt F) ℓ)

/-- Along a dimension cut by the first mesh axis alone, a device's block is numbered by its first mesh coordinate. -/
theorem meshLin_axis0 (c : Dev nD) : Layout.meshLin [2, 4, 4] c.val [0] = xco c := by revert c; decide

/-- Each device's argument its row block of the whole `Xw` ⟹ each device's required result its column block of the
    whole narrowed `Xw`. -/
theorem outSpec_eq_block (Xw : (⟨2, ![16384, 2048]⟩ : Shape).Idx → Elt F .f32)
    (hag : ∀ d : Dev nD, m ((d : Thread nD τ).loc main_arg0)
      = Layout.blockN ⟨2, ![8192, 2048]⟩ ⟨2, ![16384, 2048]⟩ (Layout.meshBlock [2, 4, 4] ![[0], []] d) Xw)
    (c : Dev nD) :
    outSpec m c
      = Layout.blockN ⟨2, ![16384, 1024]⟩ ⟨2, ![16384, 2048]⟩ (Layout.meshBlock [2, 4, 4] ![[], [0]] c)
          (truncf .bf16 Xw bitsLt_bf16_f32) := by
  funext j
  have hr : (j 0).val < 16384 := (j 0).isLt
  have hk : (j 1).val < 1024 := (j 1).isLt
  have hx := xco_lt c
  have hc := meshLin_axis0 c
  have hp := meshLin_axis0 (peer c)
  have hxp := xco_peer c
  show FloatOps.truncf .bf16 bitsLt_bf16_f32 _ = FloatOps.truncf .bf16 bitsLt_bf16_f32 (Xw _)
  congr 1
  by_cases h : (j 0).val / 8192 = xco c
  · rw [if_pos h]
    show m ((c : Thread nD τ).loc main_arg0) _ = _
    rw [hag c]
    show Xw _ = Xw _
    congr 1
    funext b
    refine Fin.ext ?_
    match b with
    | ⟨0, _⟩ =>
      show Layout.meshLin [2, 4, 4] c.val [0] * 8192 + (j 0).val % 8192
        = Layout.meshLin [2, 4, 4] c.val [] * 16384 + (j 0).val
      rw [hc]
      show xco c * 8192 + (j 0).val % 8192 = 0 * 16384 + (j 0).val
      omega
    | ⟨1, _⟩ =>
      show Layout.meshLin [2, 4, 4] c.val [] * 2048 + (1024 * xco c + (j 1).val)
        = Layout.meshLin [2, 4, 4] c.val [0] * 1024 + (j 1).val
      rw [hc]
      show 0 * 2048 + (1024 * xco c + (j 1).val) = xco c * 1024 + (j 1).val
      omega
  · rw [if_neg h]
    show m (((peer c : Dev nD) : Thread nD τ).loc main_arg0) _ = _
    rw [hag (peer c)]
    show Xw _ = Xw _
    congr 1
    funext b
    refine Fin.ext ?_
    match b with
    | ⟨0, _⟩ =>
      show Layout.meshLin [2, 4, 4] (peer c).val [0] * 8192 + (j 0).val % 8192
        = Layout.meshLin [2, 4, 4] c.val [] * 16384 + (j 0).val
      rw [hp, hxp]
      show (1 - xco c) * 8192 + (j 0).val % 8192 = 0 * 16384 + (j 0).val
      omega
    | ⟨1, _⟩ =>
      show Layout.meshLin [2, 4, 4] (peer c).val [] * 2048 + (1024 * xco c + (j 1).val)
        = Layout.meshLin [2, 4, 4] c.val [0] * 1024 + (j 1).val
      rw [hc]
      show 0 * 2048 + (1024 * xco c + (j 1).val) = xco c * 1024 + (j 1).val
      omega

end Cert.KernelIdeal.A2A

end
-- ==== Proof.KernelX.Peer.lean ====
/-
  The pairing of devices. The mesh is 2 × 4 × 4, devices numbered row-major, so device `c` sits at
  (c / 16, c / 4 % 4, c % 4). Every exchange of this kernel is between a device and the one device that differs
  from it in the FIRST coordinate only: `peer c` has the other first coordinate and the same two others, which is
  `c + 16` for `c < 16` and `c - 16` otherwise. The pairing is an involution without fixed point.
-/
import proofs.«900651_g7700000000000652_dist_a2a_v7x_xyz2x4x4_x_m8192_n1024_bf16_1_alg».proof.Proof.Gen.Kernel

noncomputable section

namespace Cert.Kernel.A2A

open Cert.Kernel Idealize.ShloMosaic

/-- The device with the other first mesh coordinate and the same second and third, in the closed form the printed
    device chains evaluate to. -/
def peer (c : Dev nD) : Dev nD :=
  ⟨(4 * ((c.val / 4) % 4) + (c.val % 4) + 16) - 16 * (c.val / 16), by
    have h : c.val < 32 := c.isLt
    show (4 * ((c.val / 4) % 4) + (c.val % 4) + 16) - 16 * (c.val / 16) < 32
    omega⟩

theorem peer_peer (c : Dev nD) : peer (peer c) = c := by revert c; decide
theorem peer_ne (c : Dev nD) : peer c ≠ c := by revert c; decide

/-- The pairing as a permutation of the devices (its own inverse). -/
def pairing : Dev nD ≃ Dev nD := ⟨peer, peer, peer_peer, peer_peer⟩

/-- A device's first mesh coordinate: which half of the rows of `x` it holds, and which half of the columns of
    the result it must end with. -/
def xco (c : Dev nD) : Nat := c.val / 16

theorem xco_lt (c : Dev nD) : xco c < 2 := by revert c; decide
theorem xco_peer (c : Dev nD) : xco (peer c) = 1 - xco c := by revert c; decide

end Cert.Kernel.A2A

end
-- ==== Proof.KernelX.Tables.lean ====
import proofs.«900651_g7700000000000652_dist_a2a_v7x_xyz2x4x4_x_m8192_n1024_bf16_1_alg».proof.Proof.KernelX.Peer

noncomputable section

namespace Cert.Kernel.A2A

open Cert.Kernel Cert.Kernel.Gen Idealize.ShloMosaic Idealize.ShloMosaic.TcCoe

/-- Each printed device chain names the peer. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)
theorem dev4_eq (c : Dev nD) : (⟨k0_dev4 c, k0_dev4_lt c⟩ : Dev nD) = peer c := Fin.ext (k0_dev4_eq c)
theorem dev5_eq (c : Dev nD) : (⟨k0_dev5 c, k0_dev5_lt c⟩ : Dev nD) = peer c := Fin.ext (k0_dev5_eq c)
theorem dev6_eq (c : Dev nD) : (⟨k0_dev6 c, k0_dev6_lt c⟩ : Dev nD) = peer c := Fin.ext (k0_dev6_eq c)
theorem dev7_eq (c : Dev nD) : (⟨k0_dev7 c, k0_dev7_lt c⟩ : Dev nD) = peer c := Fin.ext (k0_dev7_eq c)
theorem dev8_eq (c : Dev nD) : (⟨k0_dev8 c, k0_dev8_lt c⟩ : Dev nD) = peer c := Fin.ext (k0_dev8_eq c)
theorem dev9_eq (c : Dev nD) : (⟨k0_dev9 c, k0_dev9_lt c⟩ : Dev nD) = peer c := Fin.ext (k0_dev9_eq c)
theorem dev10_eq (c : Dev nD) : (⟨k0_dev10 c, k0_dev10_lt c⟩ : Dev nD) = peer c := Fin.ext (k0_dev10_eq c)
theorem dev11_eq (c : Dev nD) : (⟨k0_dev11 c, k0_dev11_lt c⟩ : Dev nD) = peer c := Fin.ext (k0_dev11_eq c)
theorem dev12_eq (c : Dev nD) : (⟨k0_dev12 c, k0_dev12_lt c⟩ : Dev nD) = peer c := Fin.ext (k0_dev12_eq c)
theorem dev13_eq (c : Dev nD) : (⟨k0_dev13 c, k0_dev13_lt c⟩ : Dev nD) = peer c := Fin.ext (k0_dev13_eq c)
theorem dev14_eq (c : Dev nD) : (⟨k0_dev14 c, k0_dev14_lt c⟩ : Dev nD) = peer c := Fin.ext (k0_dev14_eq c)
theorem dev15_eq (c : Dev nD) : (⟨k0_dev15 c, k0_dev15_lt c⟩ : Dev nD) = peer c := Fin.ext (k0_dev15_eq c)
theorem dev16_eq (c : Dev nD) : (⟨k0_dev16 c, k0_dev16_lt c⟩ : Dev nD) = peer c := Fin.ext (k0_dev16_eq c)
theorem dev17_eq (c : Dev nD) : (⟨k0_dev17 c, k0_dev17_lt c⟩ : Dev nD) = peer c := Fin.ext (k0_dev17_eq c)

end Cert.Kernel.A2A

end
-- ==== Proof.KernelX.Proto.lean ====
/-
  The protocol of the exchange, as a schedule of rounds.

  Device `c` holds rows 8192·x … of the whole `x` (x its first mesh coordinate) and must end with columns 1024·x … of
  the whole result. It cuts its 8192 rows into 16 chunks of 512. Of chunk `i` it KEEPS the column half it needs itself
  (a local copy into rows 8192·x + 512·i of its own result array) and SENDS the other half to its peer, which needs
  exactly that half (a remote copy into the same rows of the PEER's result array). So each result array is written in
  its own device's row half by sixteen local copies and in the other row half by the peer's sixteen remote copies.

  Cells (one duty a round each, the duty named `()`):
  · the barrier semaphore of a device: one round, one unit, paid by the peer's entry signal. What the signal hands
    over is the signaller's result rows that the receiver will write: the sixteen chunks of the far row half, at
    their launch contents.
  · a send semaphore (four, one per scratch slot): four rounds (chunks s, s+4, s+8, s+12), each paid by the device's
    own remote copy once the slot is read; it hands the slot back, at some contents.
  · a receive semaphore (sixteen, one per chunk): one round, paid by the peer's remote copy of that chunk once it has
    landed; it hands the owner those 512 rows of its result array HOLDING WHAT THE RESULT MUST HOLD THERE.
  The load and store semaphores serve local copies only and are no cells of the schedule.
-/
import proofs.«900651_g7700000000000652_dist_a2a_v7x_xyz2x4x4_x_m8192_n1024_bf16_1_alg».proof.Proof.KernelX.Tables
import Idealize.ShloMosaic.Lib.Pipeline.Launch
import Idealize.ShloMosaic.Lib.Pipeline.Kit
import Idealize.ShloMosaic.Lib.Tactic
import Idealize.ShloMosaic.Lib.ValueIdx

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the exchange's own rounds, and the counters of the local copies -/

abbrev UB : Type := URounds (GSem nD τ sig) Unit
abbrev UX : Type := UB × Counters
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR
abbrev ER : Emb UB (MT nD τ sig Unit (Elt F) ℕ UU ℕ) := (Emb.inl : Emb UB UX).trans EX

instance ER_landsIn : (ER : Emb UB (MT nD τ sig Unit (Elt F) ℕ UU ℕ)).LandsIn (upEmb : UEmb _ (MT nD τ sig Unit (Elt F) ℕ UU ℕ)) := by
  unfold ER EX embR; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Semaphores, scratch slots and result rows, generic in the slot and the chunk

Each is the printed program's own expression with the literal index replaced by the variable's value, so that at a
literal slot or chunk it IS the program's expression (the two differ only in a numeral that evaluates). -/

theorem inbSem4 (s : Fin 4) : ∀ a, (![s.val] : Fin 1 → Nat) a + S1.size a ≤ S4.size a := by fin_cases s <;> decide
theorem inbSem16 (i : Fin 16) : ∀ a, (![i.val] : Fin 1 → Nat) a + S1.size a ≤ S16.size a := by fin_cases i <;> decide
theorem inbSlot (s : Fin 4) : ∀ a, (![s.val, 0, 0] : Fin 3 → Nat) a + S1x512x1024.size a ≤ S4x512x1024.size a := by
  fin_cases s <;> decide

/-- Slot `s`'s send semaphore. -/
abbrev sendS (s : Fin 4) : DmaSems sig S_ :=
  (cc0_scratch5.slice (Rect.unit (s := S4) ![s.val] S1.size (inbSem4 s))).squeeze S_ squeezes_S1_S_
/-- Chunk `i`'s receive semaphore. -/
abbrev recvS (i : Fin 16) : DmaSems sig S_ :=
  (cc0_scratch6.slice (Rect.unit (s := S16) ![i.val] S1.size (inbSem16 i))).squeeze S_ squeezes_S1_S_
/-- Slot `s` of the scratch buffer that holds the half to send. -/
abbrev sendSlot (s : Fin 4) : Memref sig .tc .vmem S512x1024 .bf16 :=
  ((Memref.whole cc0_scratch1).slice (Rect.unit (s := S4x512x1024) ![s.val, 0, 0] S1x512x1024.size (inbSlot s)) (fun _ => rfl)).squeeze
    S512x1024 squeezes_S1x512x1024_S512x1024
theorem inbSlotIn (s : Fin 4) : ∀ a, (![s.val, 0, 0] : Fin 3 → Nat) a + S1x512x2048.size a ≤ S4x512x2048.size a := by
  fin_cases s <;> decide
theorem inbChunkX (i : Fin 16) : ∀ a, (![512 * i.val, 0] : Fin 2 → Nat) a + S512x2048.size a ≤ S8192x2048.size a := by
  fin_cases i <;> decide
/-- Slot `s` of the scratch buffer the rows of `x` are loaded into. -/
abbrev inSlot (s : Fin 4) : Memref sig .tc .vmem S512x2048 .f32 :=
  ((Memref.whole cc0_scratch0).slice (Rect.unit (s := S4x512x2048) ![s.val, 0, 0] S1x512x2048.size (inbSlotIn s)) (fun _ => rfl)).squeeze
    S512x2048 squeezes_S1x512x2048_S512x2048
/-- Slot `s` of the scratch buffer that holds the half to keep. -/
abbrev keepSlot (s : Fin 4) : Memref sig .tc .vmem S512x1024 .bf16 :=
  ((Memref.whole cc0_scratch2).slice (Rect.unit (s := S4x512x1024) ![s.val, 0, 0] S1x512x1024.size (inbSlot s)) (fun _ => rfl)).squeeze
    S512x1024 squeezes_S1x512x1024_S512x1024
/-- Rows 512 i … 512 i + 511 of the device's block of `x`. -/
abbrev xChunk (i : Fin 16) : Memref sig .tc .hbm S512x2048 .f32 :=
  (Memref.whole main_arg0).slice (Rect.unit (s := S8192x2048) ![512 * i.val, 0] S512x2048.size (inbChunkX i)) (fun _ => rfl)
/-- The 512 rows of the result array that chunk `i` of device `d`'s rows goes to, on `d` itself and on its peer alike:
    rows 8192 (d / 16) + 512 i onwards (the printed offset function at the chunk's word). -/
abbrev outChunk (d : Dev nD) (i : Fin 16) : Memref sig .tc .hbm S512x1024 .bf16 :=
  (Memref.whole main_v1).slice (Rect.unit (s := S16384x1024) (k0_off1 d (BitVec.ofNat 32 (512 * i.val))) S512x1024.size (k0_off1_inb d i))
    (fun _ => rfl)

/-! ## Cells -/

abbrev barS : Sem sig := (SemArray.scalar (sig.barrier 0 rfl) : Sems sig S_).sem

abbrev barCell (c : Dev nD) : GSem nD τ sig := ((c : Thread nD τ), .reg barS)
abbrev sendCell (c : Dev nD) (s : Fin 4) : GSem nD τ sig := ((c : Thread nD τ), .dma (sendS s).sem)
abbrev recvCell (c : Dev nD) (i : Fin 16) : GSem nD τ sig := ((c : Thread nD τ), .dma (recvS i).sem)

/-- The credit of one half-chunk transfer (512 × 1024 bf16): the same number for every send and receive duty. -/
abbrev Nc : ℕ := (sendSlot (0 : Fin 4)).view.dmaCredit
theorem Nc_pos : 0 < Nc := View.dmaCredit_pos _ (by decide)

/-- Which chunk's receive semaphore a DMA semaphore is, found by search. -/
def recvIdx (q : DmaSem sig) : Option (Fin 16) := (List.finRange 16).find? fun i => decide ((recvS i).sem = q)
/-- Which slot's send semaphore a DMA semaphore is, found by search. -/
def sendIdx (q : DmaSem sig) : Option (Fin 4) := (List.finRange 4).find? fun s => decide ((sendS s).sem = q)

theorem recvIdx_recv (i : Fin 16) : recvIdx (recvS i).sem = some i := by fin_cases i <;> decide
theorem sendIdx_send (s : Fin 4) : sendIdx (sendS s).sem = some s := by fin_cases s <;> decide
theorem recvIdx_send (s : Fin 4) : recvIdx (sendS s).sem = none := by fin_cases s <;> decide
theorem recvIdx_send_none_of_recv (i : Fin 16) : sendIdx (recvS i).sem = none := by fin_cases i <;> decide

/-! ## Contents -/

/-- Device `d`'s block of `x` at launch. -/
abbrev xv (d : Dev nD) : Vec F S8192x2048 .f32 := m ((d : Thread nD τ).loc main_arg0)

/-- WHAT DEVICE `c`'s RESULT ARRAY MUST HOLD: at row `r`, column `k`, the (narrowed) entry of `x` at row `r` of the whole,
    column `1024·x(c) + k`. Row `r` of the whole `x` is row `r mod 8192` of the block of a device whose first coordinate is
    `r / 8192`: `c` itself or its peer. -/
def outSpec (c : Dev nD) : Buf (Elt F) ((c : Thread nD τ).loc main_v1) := fun j =>
  FloatOps.truncf .bf16 bitsLt_bf16_f32
    ((if (j 0).val / 8192 = xco c then xv m c else xv m (peer c))
      (ValueIdx.ix2 (⟨(j 0).val % 8192, Nat.mod_lt _ (by decide)⟩ : Fin 8192)
        (⟨1024 * xco c + (j 1).val, by
          have h1 := xco_lt c
          have h2 : (j 1).val < 1024 := (j 1).isLt
          omega⟩ : Fin 2048)))

/-! ## The schedule -/

/-- What the peer's entry signal hands device `c`: the sixteen chunks of the PEER's result array that `c` writes (the rows
    at `c`'s own offsets), at the peer's launch contents. -/
def barPay (c : Dev nD) : sProp 𝕄 :=
  bigSep Finset.univ fun i : Fin 16 =>
    ((outChunk c i).view.loc (peer c : Thread nD τ) ↦[(outChunk c i).view.set]{fullShare} m (((peer c : Dev nD) : Thread nD τ).loc main_v1) : sProp 𝕄)
/-- What the landing of the peer's chunk `i` hands device `c`: those rows of its result array (at the PEER's offsets),
    holding what the result must hold. -/
def recvPay (c : Dev nD) (i : Fin 16) : sProp 𝕄 :=
  ((outChunk (peer c) i).view.loc (c : Thread nD τ) ↦[(outChunk (peer c) i).view.set]{fullShare} outSpec m c : sProp 𝕄)
/-- What the completion of a send out of slot `s` hands device `c`: the slot, at some contents. -/
def sendPay (c : Dev nD) (s : Fin 4) : sProp 𝕄 :=
  iprop(∃ f, ((sendSlot s).view.loc (c : Thread nD τ) ↦[(sendSlot s).view.set]{fullShare} f : sProp 𝕄))

def sched : Rounds.Schedule (GSem nD τ sig) Unit 𝕄 where
  duties g r :=
    if g.1.2 = .tc then
      (match g.2 with
        | .reg q => if q = barS ∧ r = 0 then {()} else ∅
        | .dma q => if (recvIdx q).isSome ∧ r = 0 then {()} else if (sendIdx q).isSome ∧ r < 4 then {()} else ∅)
    else ∅
  unitless _ := False
  amount g _ _ := match g.2 with | .reg _ => 1 | .dma _ => Nc
  payload g _ _ := match g.2 with
    | .reg _ => barPay m g.1.1
    | .dma q => match recvIdx q with
      | some i => recvPay m g.1.1 i
      | none => match sendIdx q with
        | some s => sendPay g.1.1 s
        | none => iprop(emp)
  amount_pos g _ _ _ := by
    cases g.2 with
    | reg _ => exact Nat.one_pos
    | dma _ => exact Nc_pos

instance sched_payload_storable (g : GSem nD τ sig) (r : ℕ) (d : Unit) :
    BI.Storable (upEmb : UEmb _ 𝕄) ((sched (F := F) m).payload g r d) := by
  show BI.Storable upEmb (match g.2 with
    | .reg _ => barPay m g.1.1
    | .dma q => match recvIdx q with
      | some i => recvPay m g.1.1 i
      | none => match sendIdx q with
        | some s => sendPay g.1.1 s
        | none => iprop(emp))
  unfold barPay recvPay sendPay
  (repeat' split) <;> infer_instance

/-! ## The schedule's tables -/

section Tables
variable (c : Dev nD)

theorem duties_bar : (sched (F := F) m).duties (barCell c) 0 = {()} := by
  dsimp only [sched]; rw [if_pos rfl, if_pos ⟨rfl, rfl⟩]
theorem duties_recv (i : Fin 16) : (sched (F := F) m).duties (recvCell c i) 0 = {()} := by
  dsimp only [sched]; rw [if_pos rfl, recvIdx_recv, if_pos ⟨rfl, rfl⟩]
theorem duties_send (s : Fin 4) {r : ℕ} (hr : r < 4) : (sched (F := F) m).duties (sendCell c s) r = {()} := by
  dsimp only [sched]; rw [if_pos rfl, recvIdx_send, if_neg (fun h => Bool.false_ne_true h.1), sendIdx_send, if_pos ⟨rfl, hr⟩]
theorem duties_bar_later {r : ℕ} (hr : 1 ≤ r) : (sched (F := F) m).duties (barCell c) r = ∅ := by
  dsimp only [sched]; rw [if_pos rfl, if_neg (fun h => by omega)]
theorem duties_recv_later (i : Fin 16) {r : ℕ} (hr : 1 ≤ r) : (sched (F := F) m).duties (recvCell c i) r = ∅ := by
  dsimp only [sched]; rw [if_pos rfl, recvIdx_recv, if_neg (fun h => by omega), recvIdx_send_none_of_recv i, if_neg (fun h => Bool.false_ne_true h.1)]
theorem duties_send_later (s : Fin 4) {r : ℕ} (hr : 4 ≤ r) : (sched (F := F) m).duties (sendCell c s) r = ∅ := by
  dsimp only [sched]; rw [if_pos rfl, recvIdx_send, if_neg (fun h => Bool.false_ne_true h.1), if_neg (fun h => by omega)]

theorem amount_bar (r : ℕ) (d : Unit) : (sched (F := F) m).amount (barCell c) r d = 1 := rfl
theorem amount_recv (i : Fin 16) (r : ℕ) (d : Unit) : (sched (F := F) m).amount (recvCell c i) r d = Nc := rfl
theorem amount_send (s : Fin 4) (r : ℕ) (d : Unit) : (sched (F := F) m).amount (sendCell c s) r d = Nc := rfl

theorem payload_bar (r : ℕ) (d : Unit) : (sched (F := F) m).payload (barCell c) r d = barPay m c := rfl
theorem payload_recv (i : Fin 16) (r : ℕ) (d : Unit) : (sched (F := F) m).payload (recvCell c i) r d = recvPay m c i := by
  dsimp only [sched]; rw [recvIdx_recv]
theorem payload_send (s : Fin 4) (r : ℕ) (d : Unit) : (sched (F := F) m).payload (sendCell c s) r d = sendPay c s := by
  dsimp only [sched]; rw [recvIdx_send, sendIdx_send]

theorem expect_bar : (sched (F := F) m).expect (barCell c) 0 = 1 := by
  unfold Schedule.expect Schedule.amountOf; rw [duties_bar, Finset.sum_singleton, amount_bar]
theorem expect_recv (i : Fin 16) : (sched (F := F) m).expect (recvCell c i) 0 = Nc := by
  unfold Schedule.expect Schedule.amountOf; rw [duties_recv, Finset.sum_singleton, amount_recv]
theorem expect_send (s : Fin 4) {r : ℕ} (hr : r < 4) : (sched (F := F) m).expect (sendCell c s) r = Nc := by
  unfold Schedule.expect Schedule.amountOf; rw [duties_send m c s hr, Finset.sum_singleton, amount_send]

/-- The rest of a one-duty round with no duty taken is the duty's payload. -/
theorem rest_bar : bigSep ((sched (F := F) m).duties (barCell c) 0 \ ∅) (fun d => (sched (F := F) m).payload (barCell c) 0 d) = barPay m c := by
  rw [Finset.sdiff_empty, duties_bar, bigSep_singleton, payload_bar]
theorem rest_recv (i : Fin 16) : bigSep ((sched (F := F) m).duties (recvCell c i) 0 \ ∅) (fun d => (sched (F := F) m).payload (recvCell c i) 0 d) = recvPay m c i := by
  rw [Finset.sdiff_empty, duties_recv, bigSep_singleton, payload_recv]
theorem rest_send (s : Fin 4) {r : ℕ} (hr : r < 4) :
    bigSep ((sched (F := F) m).duties (sendCell c s) r \ ∅) (fun d => (sched (F := F) m).payload (sendCell c s) r d) = sendPay c s := by
  rw [Finset.sdiff_empty, duties_send m c s hr, bigSep_singleton, payload_send]

end Tables

/-! ## What a device owes

At launch: one unit to the peer's barrier cell and one transfer's credit to each of the peer's sixteen receive cells.
The receive credits are paid in chunk order, so the debt is kept as a sum whose LAST summand is the next to be paid:
`owedFrom c n` is what is still owed when `n` chunks are left to send (chunks 16 - n … 15). -/

def owedFrom (c : Dev nD) : ℕ → CellTallies nD τ sig Unit
  | 0 => 0
  | n + 1 => owedFrom c n + tallyAt (recvCell (peer c) ⟨15 - n % 16, by omega⟩) () Nc

def O₀ (c : Dev nD) : CellTallies nD τ sig Unit := owedFrom c 16 + tallyAt (barCell (peer c)) () 1

end Cert.Kernel.A2A

end
-- ==== Proof.KernelX.Ghost.lean ====
/-
  What a device's body starts from and ends with, stated once for the body's proof and for the launch.

  Levels: a device's local copies, its sends' completions and its barrier lie BELOW every receive cell, and those are
  the only cells a device waits on while it still owes anything (it owes the peer's receive cells their sixteen
  credits from launch until its last remote copy is issued; its own receive cells it awaits only after that). So no wait
  is ever on a cell at or above something the waiter still owes.
-/
import proofs.«900651_g7700000000000652_dist_a2a_v7x_xyz2x4x4_x_m8192_n1024_bf16_1_alg».proof.Proof.KernelX.Proto
import proofs.«900651_g7700000000000652_dist_a2a_v7x_xyz2x4x4_x_m8192_n1024_bf16_1_alg».proof.Proof.Gen.Kernel.Points
import proofs.«900651_g7700000000000652_dist_a2a_v7x_xyz2x4x4_x_m8192_n1024_bf16_1_alg».proof.Proof.Gen.Kernel.Launch

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The cells of one device, indexed -/

/-- The barrier cell, the four send cells, the sixteen receive cells. -/
abbrev Cl : Type := Unit ⊕ (Fin 4 ⊕ Fin 16)
abbrev csem : Cl → SemLoc sig
  | .inl _ => .reg barS
  | .inr (.inl s) => .dma (sendS s).sem
  | .inr (.inr i) => .dma (recvS i).sem
abbrev kcell (ck : Dev nD × Cl) : GSem nD τ sig := ((ck.1 : Thread nD τ), csem ck.2)

/-- The eight DMA semaphores of the local copies (loads 0–3, stores 4–7), at zero. -/
def locals (c : Dev nD) : sProp 𝕄 :=
  iprop(semVal ((c : Thread nD τ), .dma 0) 0 ∗ semVal ((c : Thread nD τ), .dma 1) 0 ∗ semVal ((c : Thread nD τ), .dma 2) 0
    ∗ semVal ((c : Thread nD τ), .dma 3) 0 ∗ semVal ((c : Thread nD τ), .dma 4) 0 ∗ semVal ((c : Thread nD τ), .dma 5) 0
    ∗ semVal ((c : Thread nD τ), .dma 6) 0 ∗ semVal ((c : Thread nD τ), .dma 7) 0)

/-! ## Levels -/

def L (g : GSem nD τ sig) : Finset Unit := if g.1.2 = .tc then {()} else ∅
/-- Receive cells at 2, barrier cells at 1, everything else at 0. -/
def lv (g : GSem nD τ sig) (_ : Unit) : ℕ :=
  match g.2 with
  | .reg _ => 1
  | .dma q => if (recvIdx q).isSome then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state a device starts from -/

/-- The cells' invariants device `c`'s body opens, at the names `K` the launch allocated them: its own twenty-one, the
    peer's barrier cell (its signal) and the peer's sixteen receive cells (its remote copies). -/
def invs (K : Dev nD × Cl → ℕ) (c : Dev nD) : sProp 𝕄 :=
  iprop((bigSep Finset.univ fun k : Cl => cellInv ER (sched m) (K (c, k)) (kcell (c, k)))
    ∗ cellInv ER (sched m) (K (peer c, .inl ())) (barCell (peer c))
    ∗ bigSep Finset.univ fun i : Fin 16 => cellInv ER (sched m) (K (peer c, .inr (.inr i))) (recvCell (peer c) i))

instance invs_persistent (K : Dev nD × Cl → ℕ) (c : Dev nD) : BI.Persistent (invs m K c) := by unfold invs; infer_instance

/-- Its positions at round 0 of its own cells; round 0 reached of the cells it pays; the duty tokens it pays with: the
    peer's barrier duty, the peer's sixteen receive duties, its own sixteen send duties (four slots, four rounds). -/
def ghost (K : Dev nD × Cl → ℕ) (c : Dev nD) : sProp 𝕄 :=
  iprop(invs m K c
    ∗ (bigSep Finset.univ fun k : Cl => atPos ER (kcell (c, k)) 0 ∅ 0)
    ∗ reached ER (barCell (peer c)) 0
    ∗ (bigSep Finset.univ fun i : Fin 16 => reached ER (recvCell (peer c) i) 0)
    ∗ (bigSep Finset.univ fun s : Fin 4 => reached ER (sendCell c s) 0)
    ∗ dutyTok ER (barCell (peer c)) 0 ()
    ∗ (bigSep Finset.univ fun i : Fin 16 => dutyTok ER (recvCell (peer c) i) 0 ())
    ∗ (bigSep Finset.univ fun sr : Fin 4 × Fin 4 => dutyTok ER (sendCell c sr.1) sr.2.val ()))

/-- The credit dealt at launch: the barrier's one unit and each receive cell's transfer credit. -/
def creds (c : Dev nD) : sProp 𝕄 :=
  iprop(cred (tallyAt (barCell c) () 1) ∗ bigSep Finset.univ fun i : Fin 16 => cred (tallyAt (recvCell c i) () Nc))

/-- The buffers: the device's block of `x` and its result array as launched, the three scratch buffers at some contents. -/
def bufs (c : Dev nD) : sProp 𝕄 :=
  iprop(((Memref.whole main_arg0).view.loc (c : Thread nD τ) ↦{fullShare} m ((c : Thread nD τ).loc main_arg0))
    ∗ ((Memref.whole main_v1).view.loc (c : Thread nD τ) ↦{fullShare} m ((c : Thread nD τ).loc main_v1))
    ∗ (∃ f, (Memref.whole cc0_scratch0).view.loc (c : Thread nD τ) ↦{fullShare} f)
    ∗ (∃ f, (Memref.whole cc0_scratch1).view.loc (c : Thread nD τ) ↦{fullShare} f)
    ∗ (∃ f, (Memref.whole cc0_scratch2).view.loc (c : Thread nD τ) ↦{fullShare} f))

/-- What device `c`'s body starts from, its debt `owes c (O₀ c) W` apart. -/
def bodyPre (K : Dev nD × Cl → ℕ) (c : Dev nD) : sProp 𝕄 :=
  iprop(ghost m K c ∗ creds c ∗ levAts L lv ∗ locals c ∗ bufs m c)

/-- What it ends with: the result array holding what it must, `x` as launched, the scratch buffers at some contents, every
    one of the kernel's twenty-eight DMA semaphores back at zero (the local copies' eight and the closed send and receive
    cells' twenty). The barrier semaphore is the runtime's: nothing of it is handed back. -/
def bodyPost (c : Dev nD) : sProp 𝕄 :=
  iprop(((Memref.whole main_v1).view.loc (c : Thread nD τ) ↦{fullShare} outSpec m c)
    ∗ ((Memref.whole main_arg0).view.loc (c : Thread nD τ) ↦{fullShare} m ((c : Thread nD τ).loc main_arg0))
    ∗ (∃ f, (Memref.whole cc0_scratch0).view.loc (c : Thread nD τ) ↦{fullShare} f)
    ∗ (∃ f, (Memref.whole cc0_scratch1).view.loc (c : Thread nD τ) ↦{fullShare} f)
    ∗ (∃ f, (Memref.whole cc0_scratch2).view.loc (c : Thread nD τ) ↦{fullShare} f)
    ∗ locals c
    ∗ (bigSep Finset.univ fun s : Fin 4 => semVal (sendCell c s) 0)
    ∗ (bigSep Finset.univ fun i : Fin 16 => semVal (recvCell c i) 0))

end Cert.Kernel.A2A

end
-- ==== Proof.KernelX.Levels.lean ====
/-
  No wait of a device is on a cell at or above something it still owes: the ledger facts the waits of the body take.
  What a device owes after its entry signal is receive credit of the peer's cells only (level 2); what it waits on while it
  owes is its own barrier cell (level 1) and DMA semaphores that are no receive semaphore (level 0).
-/
import proofs.«900651_g7700000000000652_dist_a2a_v7x_xyz2x4x4_x_m8192_n1024_bf16_1_alg».proof.Proof.KernelX.Ghost

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The levels of the three kinds of cell -/

/-- A receive cell sits at level 2: its semaphore is found among the receive semaphores. -/
theorem lv_recv (d : Dev nD) (i : Fin 16) (u : Unit) : lv (recvCell d i) u = 2 := by
  show (if (recvIdx (recvS i).sem).isSome then 2 else 0) = 2
  rw [recvIdx_recv]; rfl

/-- A DMA semaphore that is no receive semaphore sits at level 0, on whatever thread. -/
theorem lv_local (t : Thread nD τ) {q : DmaSem sig} (hq : recvIdx q = none) (u : Unit) : lv (t, .dma q) u = 0 := by
  show (if (recvIdx q).isSome then 2 else 0) = 0
  rw [hq]; rfl

/-- A regular semaphore sits at level 1, on whatever thread. -/
theorem lv_reg (t : Thread nD τ) (q : Sem sig) (u : Unit) : lv (t, .reg q) u = 1 := rfl

/-- Every cell of a TensorCore thread carries the one duty name. -/
theorem mem_L_tc (c : Dev nD) (sm : SemLoc sig) (u : Unit) : u ∈ L ((c : Thread nD τ), sm) := by
  rw [L_tc]; exact Finset.mem_singleton_self _

/-! ## Where the debt sits -/

/-- Whatever is still owed with `n` chunks left is owed to a receive cell of the peer. -/
theorem owedFrom_pos {c : Dev nD} {n : ℕ} {g : GSem nD τ sig} {u : Unit} (h : 0 < owedFrom c n g u) :
    ∃ i : Fin 16, g = recvCell (peer c) i := by
  induction n with
  | zero =>
    -- nothing is owed when no chunk is left
    have h' : 0 < (0 : CellTallies nD τ sig Unit) g u := h
    rw [Pi.zero_apply, Finsupp.coe_zero, Pi.zero_apply] at h'
    exact absurd h' (Nat.lt_irrefl 0)
  | succ n ih =>
    -- the debt with one more chunk left is the earlier debt plus one receive cell's credit
    have h' : 0 < (owedFrom c n + tallyAt (recvCell (peer c) ⟨15 - n % 16, by omega⟩) () Nc) g u := h
    rw [Pi.add_apply, Finsupp.add_apply, tallyAt_apply] at h'
    by_cases hg : g = recvCell (peer c) ⟨15 - n % 16, by omega⟩ ∧ u = ()
    · exact ⟨_, hg.1⟩
    · rw [if_neg hg, Nat.add_zero] at h'; exact ih h'

/-! ## The two kinds of wait a device makes while it owes -/

/-- A wait on a DMA semaphore that is no receive semaphore (a load's, a store's, a send's) is below everything a
    device can owe while chunks are left to send. -/
theorem mayWait_local (c : Dev nD) (q : DmaSem sig) (n : ℕ) (hq : recvIdx q = none) :
    (levAts L lv : sProp 𝕄) ⊢ MayWait (c : Thread nD τ) (.dma q) () (owedFrom c n) :=
  -- the cut is level 0: the waited cell is at 0, every owed cell is a receive cell of the peer, at 2
  MayOwe.of_cut (L := L) (lev := lv) 0
    (fun p hp => by rw [Finset.mem_singleton.mp hp]; exact mem_L_tc c _ _)
    (fun g u hg => by obtain ⟨i, rfl⟩ := owedFrom_pos hg; exact mem_L_tc (peer c) _ _)
    (fun p hp => by rw [Finset.mem_singleton.mp hp, lv_local _ hq])
    (fun g u hg => by obtain ⟨i, rfl⟩ := owedFrom_pos hg; rw [lv_recv]; exact Nat.two_pos)

/-- So is the wait on the device's own barrier semaphore. -/
theorem mayWait_bar (c : Dev nD) (n : ℕ) :
    (levAts L lv : sProp 𝕄) ⊢ MayWait (c : Thread nD τ) (.reg barS) () (owedFrom c n) :=
  -- the cut is level 1: the barrier cell is at 1, every owed cell is a receive cell of the peer, at 2
  MayOwe.of_cut (L := L) (lev := lv) 1
    (fun p hp => by rw [Finset.mem_singleton.mp hp]; exact mem_L_tc c _ _)
    (fun g u hg => by obtain ⟨i, rfl⟩ := owedFrom_pos hg; exact mem_L_tc (peer c) _ _)
    (fun p hp => by rw [Finset.mem_singleton.mp hp, lv_reg])
    (fun g u hg => by obtain ⟨i, rfl⟩ := owedFrom_pos hg; rw [lv_recv]; exact Nat.one_lt_two)

end Cert.Kernel.A2A

end
-- ==== Proof.KernelX.Parts.lean ====
/-
  Cutting the buffers the way the body addresses them, and putting them back.

  Each of the three scratch buffers is four slots [s, :, :]; the result array is thirty-two bands of 512 rows: band i of the
  row half of a device d (rows 8192·(d / 16) + 512·i, the rows d's chunk i goes to) for the sixteen i, and the same for
  the other row half, which is the peer's. The slots, and the bands, are pairwise disjoint and cover the buffer, so a
  points-to on the whole buffer is the separating conjunction of the points-to's on the parts at the same contents, and
  parts held at DIFFERENT contents join to the whole at SOME contents.
-/
import proofs.«900651_g7700000000000652_dist_a2a_v7x_xyz2x4x4_x_m8192_n1024_bf16_1_alg».proof.Proof.KernelX.Proto

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A buffer covered by pairwise disjoint parts -/

section Cover

variable {ℓ : Loc nD τ sig} {T : Type} [Fintype T]

/-- If pairwise disjoint element sets `K t` cover a buffer, the points-to on the whole buffer is the separating
    conjunction of the points-to's on the parts, at the same contents. -/
theorem split_of_cover (K : T → Finset (Idx ℓ)) (hc : (Finset.univ : Finset (Idx ℓ)) = Finset.univ.biUnion K)
    (hd : ∀ t t', t ≠ t' → Disjoint (K t) (K t')) (f : Buf (Elt F) ℓ) :
    (ℓ ↦{fullShare} f : sProp 𝕄) = bigSep Finset.univ fun t : T => (ℓ ↦[K t]{fullShare} f : sProp 𝕄) :=
  (congrArg (fun I => (ℓ ↦[I]{fullShare} f : sProp 𝕄)) hc).trans
    (pointsTo_biUnion Finset.univ K (fun t _ t' _ hne => hd t t' hne))

/-- If pairwise disjoint element sets `K t` cover a buffer, parts held at different contents join to the whole buffer
    at the contents that agree with each part's on that part. -/
theorem join_of_cover (K : T → Finset (Idx ℓ)) (hc : (Finset.univ : Finset (Idx ℓ)) = Finset.univ.biUnion K)
    (hd : ∀ t t', t ≠ t' → Disjoint (K t) (K t')) (fs : T → Buf (Elt F) ℓ) (f₀ : Buf (Elt F) ℓ) :
    (bigSep Finset.univ fun t : T => (ℓ ↦[K t]{fullShare} fs t : sProp 𝕄))
      ⊢ iprop(∃ f, (ℓ ↦{fullShare} f : sProp 𝕄)) := by
  have h := pointsTo_biUnion_join (U := UU) (Ix := Unit) (Val := Elt F) (Name := ℕ) (Lvl := ℕ) (ℓ := ℓ) (q := fullShare)
    Finset.univ K fs f₀ (fun t _ t' _ hne => hd t t' hne)
  refine h.trans (exists_elim fun g => ?_)
  have e : (ℓ ↦[Finset.univ.biUnion K]{fullShare} g : sProp 𝕄) ⊢ (ℓ ↦[Finset.univ]{fullShare} g : sProp 𝕄) :=
    Entails.of_eq (congrArg (fun I => (ℓ ↦[I]{fullShare} g : sProp 𝕄)) hc.symm)
  exact (sep_elim_right.trans e).trans (exists_intro (Φ := fun f => (ℓ ↦[Finset.univ]{fullShare} f : sProp 𝕄)) g)

end Cover

/-! ## The slots of the scratch buffers

A slot `[s, :, :]` of a buffer of shape `[4, 512, W]` holds exactly the indices whose first coordinate is `s`. -/

/-- The index `j` of a `[4, 512, 2048]` buffer lies in the rectangle `[s, :, :]` iff its first coordinate is `s`. -/
theorem mem_slot2048 (s : Fin 4) (j : S4x512x2048.Idx) :
    j ∈ (Rect.unit (s := S4x512x2048) ![s.val, 0, 0] S1x512x2048.size (inbSlotIn s)).set ↔ (j 0).val = s.val := by
  rw [Rect.mem_set_unit]
  constructor
  · intro h
    have h0 := h 0
    change s.val ≤ (j 0).val ∧ (j 0).val < s.val + 1 at h0
    omega
  · intro h a
    fin_cases a
    · show s.val ≤ (j 0).val ∧ (j 0).val < s.val + 1
      omega
    · have h1 : (j 1).val < 512 := (j 1).isLt
      show 0 ≤ (j 1).val ∧ (j 1).val < 0 + 512
      omega
    · have h2 : (j 2).val < 2048 := (j 2).isLt
      show 0 ≤ (j 2).val ∧ (j 2).val < 0 + 2048
      omega

/-- The index `j` of a `[4, 512, 1024]` buffer lies in the rectangle `[s, :, :]` iff its first coordinate is `s`. -/
theorem mem_slot1024 (s : Fin 4) (j : S4x512x1024.Idx) :
    j ∈ (Rect.unit (s := S4x512x1024) ![s.val, 0, 0] S1x512x1024.size (inbSlot s)).set ↔ (j 0).val = s.val := by
  rw [Rect.mem_set_unit]
  constructor
  · intro h
    have h0 := h 0
    change s.val ≤ (j 0).val ∧ (j 0).val < s.val + 1 at h0
    omega
  · intro h a
    fin_cases a
    · show s.val ≤ (j 0).val ∧ (j 0).val < s.val + 1
      omega
    · have h1 : (j 1).val < 512 := (j 1).isLt
      show 0 ≤ (j 1).val ∧ (j 1).val < 0 + 512
      omega
    · have h2 : (j 2).val < 1024 := (j 2).isLt
      show 0 ≤ (j 2).val ∧ (j 2).val < 0 + 1024
      omega

/-- The elements of slot `s` of the buffer of loaded rows are those of the rectangle `[s, :, :]`: squeezing keeps the
    elements, and a slice of the whole buffer has its rectangle's. -/
theorem inSlot_set (s : Fin 4) :
    (inSlot s).view.set = (Rect.unit (s := S4x512x2048) ![s.val, 0, 0] S1x512x2048.size (inbSlotIn s)).set :=
  (View.set_reshape _ _).trans (View.set_slice_whole _ _)
/-- The same for the buffer of the half to send, -/
theorem sendSlot_set (s : Fin 4) :
    (sendSlot s).view.set = (Rect.unit (s := S4x512x1024) ![s.val, 0, 0] S1x512x1024.size (inbSlot s)).set :=
  (View.set_reshape _ _).trans (View.set_slice_whole _ _)
/-- and for the buffer of the half to keep. -/
theorem keepSlot_set (s : Fin 4) :
    (keepSlot s).view.set = (Rect.unit (s := S4x512x1024) ![s.val, 0, 0] S1x512x1024.size (inbSlot s)).set :=
  (View.set_reshape _ _).trans (View.set_slice_whole _ _)

/-- An index lies in slot `s` of the buffer of loaded rows iff its first coordinate is `s`; -/
theorem mem_inSlot (s : Fin 4) (j : S4x512x2048.Idx) : j ∈ (inSlot s).view.set ↔ (j 0).val = s.val := by
  rw [inSlot_set]; exact mem_slot2048 s j
/-- the same for the buffer of the half to send, -/
theorem mem_sendSlot (s : Fin 4) (j : S4x512x1024.Idx) : j ∈ (sendSlot s).view.set ↔ (j 0).val = s.val := by
  rw [sendSlot_set]; exact mem_slot1024 s j
/-- and for the buffer of the half to keep. -/
theorem mem_keepSlot (s : Fin 4) (j : S4x512x1024.Idx) : j ∈ (keepSlot s).view.set ↔ (j 0).val = s.val := by
  rw [keepSlot_set]; exact mem_slot1024 s j

/-- Every index lies in the slot its first coordinate names. -/
theorem in_cover : (Finset.univ : Finset S4x512x2048.Idx) = Finset.univ.biUnion (fun s : Fin 4 => (inSlot s).view.set) := by
  ext j
  simp only [Finset.mem_univ, Finset.mem_biUnion, true_and, true_iff]
  exact ⟨⟨(j 0).val, (j 0).isLt⟩, (mem_inSlot _ j).mpr rfl⟩
/-- The same for the buffer of the half to send, -/
theorem send_cover : (Finset.univ : Finset S4x512x1024.Idx) = Finset.univ.biUnion (fun s : Fin 4 => (sendSlot s).view.set) := by
  ext j
  simp only [Finset.mem_univ, Finset.mem_biUnion, true_and, true_iff]
  exact ⟨⟨(j 0).val, (j 0).isLt⟩, (mem_sendSlot _ j).mpr rfl⟩
/-- and for the buffer of the half to keep. -/
theorem keep_cover : (Finset.univ : Finset S4x512x1024.Idx) = Finset.univ.biUnion (fun s : Fin 4 => (keepSlot s).view.set) := by
  ext j
  simp only [Finset.mem_univ, Finset.mem_biUnion, true_and, true_iff]
  exact ⟨⟨(j 0).val, (j 0).isLt⟩, (mem_keepSlot _ j).mpr rfl⟩

/-- Two different slots share no index: a common one would have both as its first coordinate. -/
theorem in_disj (t t' : Fin 4) (hne : t ≠ t') : Disjoint ((inSlot t).view.set) ((inSlot t').view.set) := by
  rw [Finset.disjoint_left]
  intro j h1 h2
  rw [mem_inSlot] at h1 h2
  exact hne (Fin.ext (h1.symm.trans h2))
/-- The same for the buffer of the half to send, -/
theorem send_disj (t t' : Fin 4) (hne : t ≠ t') : Disjoint ((sendSlot t).view.set) ((sendSlot t').view.set) := by
  rw [Finset.disjoint_left]
  intro j h1 h2
  rw [mem_sendSlot] at h1 h2
  exact hne (Fin.ext (h1.symm.trans h2))
/-- and for the buffer of the half to keep. -/
theorem keep_disj (t t' : Fin 4) (hne : t ≠ t') : Disjoint ((keepSlot t).view.set) ((keepSlot t').view.set) := by
  rw [Finset.disjoint_left]
  intro j h1 h2
  rw [mem_keepSlot] at h1 h2
  exact hne (Fin.ext (h1.symm.trans h2))

/-- The scratch buffer of the loaded rows, whole, is its four slots. -/
theorem in_split (c : Dev nD) (f : Buf (Elt F) ((c : Thread nD τ).loc cc0_scratch0)) :
    ((Memref.whole cc0_scratch0).view.loc (c : Thread nD τ) ↦{fullShare} f : sProp 𝕄)
      = bigSep Finset.univ fun s : Fin 4 => ((inSlot s).view.loc (c : Thread nD τ) ↦[(inSlot s).view.set]{fullShare} f : sProp 𝕄) :=
  split_of_cover (ℓ := (c : Thread nD τ).loc cc0_scratch0) (fun s : Fin 4 => (inSlot s).view.set) in_cover in_disj f
theorem send_split (c : Dev nD) (f : Buf (Elt F) ((c : Thread nD τ).loc cc0_scratch1)) :
    ((Memref.whole cc0_scratch1).view.loc (c : Thread nD τ) ↦{fullShare} f : sProp 𝕄)
      = bigSep Finset.univ fun s : Fin 4 => ((sendSlot s).view.loc (c : Thread nD τ) ↦[(sendSlot s).view.set]{fullShare} f : sProp 𝕄) :=
  split_of_cover (ℓ := (c : Thread nD τ).loc cc0_scratch1) (fun s : Fin 4 => (sendSlot s).view.set) send_cover send_disj f
theorem keep_split (c : Dev nD) (f : Buf (Elt F) ((c : Thread nD τ).loc cc0_scratch2)) :
    ((Memref.whole cc0_scratch2).view.loc (c : Thread nD τ) ↦{fullShare} f : sProp 𝕄)
      = bigSep Finset.univ fun s : Fin 4 => ((keepSlot s).view.loc (c : Thread nD τ) ↦[(keepSlot s).view.set]{fullShare} f : sProp 𝕄) :=
  split_of_cover (ℓ := (c : Thread nD τ).loc cc0_scratch2) (fun s : Fin 4 => (keepSlot s).view.set) keep_cover keep_disj f

/-- Four slots held at four contents are the whole buffer at some contents. -/
theorem in_join (c : Dev nD) (fs : Fin 4 → Buf (Elt F) ((c : Thread nD τ).loc cc0_scratch0)) :
    (bigSep Finset.univ fun s : Fin 4 => ((inSlot s).view.loc (c : Thread nD τ) ↦[(inSlot s).view.set]{fullShare} fs s : sProp 𝕄))
      ⊢ iprop(∃ f, ((Memref.whole cc0_scratch0).view.loc (c : Thread nD τ) ↦{fullShare} f : sProp 𝕄)) :=
  join_of_cover (ℓ := (c : Thread nD τ).loc cc0_scratch0) (fun s : Fin 4 => (inSlot s).view.set) in_cover in_disj fs (fs 0)
theorem send_join (c : Dev nD) (fs : Fin 4 → Buf (Elt F) ((c : Thread nD τ).loc cc0_scratch1)) :
    (bigSep Finset.univ fun s : Fin 4 => ((sendSlot s).view.loc (c : Thread nD τ) ↦[(sendSlot s).view.set]{fullShare} fs s : sProp 𝕄))
      ⊢ iprop(∃ f, ((Memref.whole cc0_scratch1).view.loc (c : Thread nD τ) ↦{fullShare} f : sProp 𝕄)) :=
  join_of_cover (ℓ := (c : Thread nD τ).loc cc0_scratch1) (fun s : Fin 4 => (sendSlot s).view.set) send_cover send_disj fs (fs 0)
theorem keep_join (c : Dev nD) (fs : Fin 4 → Buf (Elt F) ((c : Thread nD τ).loc cc0_scratch2)) :
    (bigSep Finset.univ fun s : Fin 4 => ((keepSlot s).view.loc (c : Thread nD τ) ↦[(keepSlot s).view.set]{fullShare} fs s : sProp 𝕄))
      ⊢ iprop(∃ f, ((Memref.whole cc0_scratch2).view.loc (c : Thread nD τ) ↦{fullShare} f : sProp 𝕄)) :=
  join_of_cover (ℓ := (c : Thread nD τ).loc cc0_scratch2) (fun s : Fin 4 => (keepSlot s).view.set) keep_cover keep_disj fs (fs 0)

/-! ## The bands of the result array

Band `i` at device `d`'s offsets is rows `8192 · xco d + 512 i … + 511`: the indices whose row, divided by 512, is
`16 · xco d + i`. The peer's first coordinate is the other one, so the thirty-two bands are the thirty-two values of
`row / 512`. -/

/-- A band's elements are those of its rectangle of the whole array. -/
theorem outChunk_set (d : Dev nD) (i : Fin 16) :
    (outChunk d i).view.set
      = (Rect.unit (s := S16384x1024) (k0_off1 d (BitVec.ofNat 32 (512 * i.val))) S512x1024.size (k0_off1_inb d i)).set :=
  View.set_slice_whole _ _

/-- An index lies in band `i` at `d`'s offsets iff its row over 512 is `16 · xco d + i`. -/
theorem mem_outChunk (d : Dev nD) (i : Fin 16) (j : S16384x1024.Idx) :
    j ∈ (outChunk d i).view.set ↔ (j 0).val / 512 = 16 * xco d + i.val := by
  rw [outChunk_set, Rect.mem_set_unit, k0_off1_eq]
  have hi : i.val < 16 := i.isLt
  unfold xco
  constructor
  · intro h
    have h0 := h 0
    change 8192 * (d.val / 16) + 512 * i.val ≤ (j 0).val ∧ (j 0).val < 8192 * (d.val / 16) + 512 * i.val + 512 at h0
    omega
  · intro h a
    fin_cases a
    · show 8192 * (d.val / 16) + 512 * i.val ≤ (j 0).val ∧ (j 0).val < 8192 * (d.val / 16) + 512 * i.val + 512
      omega
    · have h1 : (j 1).val < 1024 := (j 1).isLt
      show 0 ≤ (j 1).val ∧ (j 1).val < 0 + 1024
      omega

/-- The rows a device's sixteen chunks go to. -/
def outHalf (d : Dev nD) : Finset S16384x1024.Idx := Finset.univ.biUnion fun i : Fin 16 => (outChunk d i).view.set

/-- An index lies in `d`'s row half iff its row over 8192 is `xco d`. -/
theorem mem_outHalf (d : Dev nD) (j : S16384x1024.Idx) : j ∈ outHalf d ↔ (j 0).val / 8192 = xco d := by
  have hx := xco_lt d
  have hj : (j 0).val < 16384 := (j 0).isLt
  unfold outHalf
  rw [Finset.mem_biUnion]
  constructor
  · rintro ⟨i, _, hi⟩
    have hi' := (mem_outChunk d i j).mp hi
    have := i.isLt
    omega
  · intro h
    refine ⟨⟨(j 0).val / 512 % 16, Nat.mod_lt _ (by decide)⟩, Finset.mem_univ _, (mem_outChunk d _ j).mpr ?_⟩
    show (j 0).val / 512 = 16 * xco d + (j 0).val / 512 % 16
    omega

/-- Two different bands at one device's offsets share no index. -/
theorem out_disj (d : Dev nD) (t t' : Fin 16) (hne : t ≠ t') : Disjoint ((outChunk d t).view.set) ((outChunk d t').view.set) := by
  rw [Finset.disjoint_left]
  intro j h1 h2
  rw [mem_outChunk] at h1 h2
  exact hne (Fin.ext (by omega))

/-- The two row halves share no index, -/
theorem outHalf_disj (d : Dev nD) : Disjoint (outHalf d) (outHalf (peer d)) := by
  rw [Finset.disjoint_left]
  intro j h1 h2
  rw [mem_outHalf] at h1 h2
  rw [xco_peer] at h2
  have hx := xco_lt d
  omega

/-- and cover the array. -/
theorem outHalf_cover (d : Dev nD) : (Finset.univ : Finset S16384x1024.Idx) = outHalf d ∪ outHalf (peer d) := by
  ext j
  have hx := xco_lt d
  have hj : (j 0).val < 16384 := (j 0).isLt
  simp only [Finset.mem_univ, Finset.mem_union, true_iff, mem_outHalf, xco_peer]
  omega

/-- The result array ON DEVICE `c'`, whole, is the sixteen bands at device `d`'s offsets and the sixteen at its peer's (used at
    `c' = d` and at `c' = peer d`). -/
theorem out_split (c' d : Dev nD) (f : Buf (Elt F) ((c' : Thread nD τ).loc main_v1)) :
    ((Memref.whole main_v1).view.loc (c' : Thread nD τ) ↦{fullShare} f : sProp 𝕄)
      = iprop((bigSep Finset.univ fun i : Fin 16 => ((outChunk d i).view.loc (c' : Thread nD τ) ↦[(outChunk d i).view.set]{fullShare} f : sProp 𝕄))
          ∗ bigSep Finset.univ fun i : Fin 16 => ((outChunk (peer d) i).view.loc (c' : Thread nD τ) ↦[(outChunk (peer d) i).view.set]{fullShare} f : sProp 𝕄)) := by
  have hu := pointsTo_union (U := UU) (Ix := Unit) (Val := Elt F) (Name := ℕ) (Lvl := ℕ) (ℓ := (c' : Thread nD τ).loc main_v1)
    (q := fullShare) (f := f) (I := outHalf d) (J := outHalf (peer d)) (outHalf_disj d)
  have hA := pointsTo_biUnion (U := UU) (Ix := Unit) (Val := Elt F) (Name := ℕ) (Lvl := ℕ) (ℓ := (c' : Thread nD τ).loc main_v1)
    (q := fullShare) (f := f) Finset.univ (fun i : Fin 16 => (outChunk d i).view.set) (fun t _ t' _ hne => out_disj d t t' hne)
  have hB := pointsTo_biUnion (U := UU) (Ix := Unit) (Val := Elt F) (Name := ℕ) (Lvl := ℕ) (ℓ := (c' : Thread nD τ).loc main_v1)
    (q := fullShare) (f := f) Finset.univ (fun i : Fin 16 => (outChunk (peer d) i).view.set) (fun t _ t' _ hne => out_disj (peer d) t t' hne)
  exact ((congrArg (fun I => ((c' : Thread nD τ).loc main_v1 ↦[I]{fullShare} f : sProp 𝕄)) (outHalf_cover d)).trans
    (BI.equiv_iff.mp ⟨hu.1, hu.2⟩)).trans (congrArg₂ (fun P Q : sProp 𝕄 => iprop(P ∗ Q)) hA hB)

end Cert.Kernel.A2A

end
-- ==== Proof.KernelX.Send.lean ====
/-
  The remote copy of one chunk, as one rule: device `c` sends the half of chunk `i` that its peer needs, out of scratch slot
  `s` (round `r` of that slot's send cell), into the peer's result rows at `c`'s own offsets. The copy pays the slot's send
  duty (which hands the slot back, at whatever it holds) and the peer's receive duty of chunk `i`, whose payload says the
  rows now hold what the PEER's result must hold there: that is the premise `hval`, a fact about what the slot holds.
-/
import proofs.«900651_g7700000000000652_dist_a2a_v7x_xyz2x4x4_x_m8192_n1024_bf16_1_alg».proof.Proof.KernelX.Ghost

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

omit [FloatOps F] in
/-- A separating conjunction over a device's cells, by kind: the barrier cell, the four send cells, the sixteen receive cells. -/
theorem bigSep_cl (Φ : Unit ⊕ (Fin 4 ⊕ Fin 16) → sProp 𝕄) :
    bigSep Finset.univ Φ
      = iprop(Φ (.inl ()) ∗ (bigSep Finset.univ fun s : Fin 4 => Φ (.inr (.inl s))) ∗ bigSep Finset.univ fun i : Fin 16 => Φ (.inr (.inr i))) := by
  rw [bigSep_univ_sum, bigSep_univ_sum, bigSep_univ_of_subsingleton ()]
  rfl

/-- What a slot of the send buffer must hold when chunk `i` is sent: the narrowed entries of rows 512 i … of the device's block
    of `x`, in the column half the PEER needs (columns 1024·(1 - x) …). -/
def sendSpec (c : Dev nD) (i : Fin 16) : FVec F S512x1024 .bf16 := fun y =>
  FloatOps.truncf .bf16 bitsLt_bf16_f32
    (xv m c (ValueIdx.ix2 (⟨512 * i.val + (y 0).val, by have := (y 0).isLt; have h : (y 0).val < 512 := this; omega⟩ : Fin 8192)
      (⟨1024 * (1 - xco c) + (y 1).val, by have h1 := xco_lt c; have h : (y 1).val < 1024 := (y 1).isLt; omega⟩ : Fin 2048)))

/-- What a slot of the keep buffer must hold when chunk `i` is stored: the same rows, in the column half the device itself
    needs (columns 1024·x …). -/
def keepSpec (c : Dev nD) (i : Fin 16) : FVec F S512x1024 .bf16 := fun y =>
  FloatOps.truncf .bf16 bitsLt_bf16_f32
    (xv m c (ValueIdx.ix2 (⟨512 * i.val + (y 0).val, by have h : (y 0).val < 512 := (y 0).isLt; omega⟩ : Fin 8192)
      (⟨1024 * xco c + (y 1).val, by have h1 := xco_lt c; have h : (y 1).val < 1024 := (y 1).isLt; omega⟩ : Fin 2048)))

/-- The remote copy of chunk `i` out of slot `s` at round `r`, addressed to `n = peer c` (substituted, not rewritten). -/
theorem wp_send_chunk (κ₁ κ₂ : ℕ) (c n : Dev nD) (hn : n = peer c) (i : Fin 16) (s : Fin 4) (r : ℕ) (hr : r < 4)
    {hsc : ((outChunk c i : Memref sig (Dev.tc n : Thread nD τ).2.kind .hbm S512x1024 .bf16)).view.ref.isScScratch = false}
    {hsrc : (sendSlot s).view.WordExact} {hdst : (outChunk c i).view.WordExact}
    {hsem : DmaTarget.Typed .vmem (.dma (recvS i).sem) (.remote (Dev.tc n : Thread nD τ) (outChunk c i) (.dma (sendS s).sem) hsc)}
    {α : Type} {Q : α → sProp 𝕄} {k : PUnit → Prog (TpuEff nD τ sig (Elt F) Λ₀ .tc) α}
    (fs : Buf (Elt F) ((sendSlot s).view.loc (c : Thread nD τ))) (O : CellTallies nD τ sig Unit) (W : Waits sig Unit)
    (hval : ∀ j ∈ (outChunk c i).view.set,
      (outChunk c i).view.write (Elt F) (m (((peer c : Dev nD) : Thread nD τ).loc main_v1)) ((sendSlot s).view.read (Elt F) fs) Finset.univ j
        = outSpec m (peer c) j) :
    iprop(cellInv ER (sched m) κ₁ (sendCell c s) ∗ cellInv ER (sched m) κ₂ (recvCell (peer c) i)
        ∗ ((sendSlot s).view.loc (c : Thread nD τ) ↦[(sendSlot s).view.set]{fullShare} fs)
        ∗ ((outChunk c i).view.loc (peer c : Thread nD τ) ↦[(outChunk c i).view.set]{fullShare} m (((peer c : Dev nD) : Thread nD τ).loc main_v1))
        ∗ owes (c : Thread nD τ) (O + tallyAt (recvCell (peer c) i) () Nc) W
        ∗ dutyTok ER (sendCell c s) r () ∗ reached ER (sendCell c s) r
        ∗ dutyTok ER (recvCell (peer c) i) 0 () ∗ reached ER (recvCell (peer c) i) 0)
      ⊢ iprop(((cred (tallyAt (sendCell c s) () Nc) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sendSlot s) (.remote (Dev.tc n : Thread nD τ) (outChunk c i) (.dma (sendS s).sem) hsc) (.dma (recvS i).sem) hsrc hdst hsem) k) Q) := by
  subst hn
  exact Rounds.wp_send_pointsTo 𝒱₀ ER (sched m) (c : Thread nD τ) none (c' := (peer c : Thread nD τ)) (src := sendSlot s) (dst := outChunk c i)
    (sS := .dma (sendS s).sem) (sem := .dma (recvS i).sem) (q := fullShare) (fs := fs) (κ₁ := κ₁) (κ₂ := κ₂)
    (r₁ := r) (r₂ := 0) (d₁ := ()) (d₂ := ()) (fd := m (((peer c : Dev nD) : Thread nD τ).loc main_v1))
    (by rw [duties_send m c s hr]; exact Finset.mem_singleton_self _) (by rw [duties_recv]; exact Finset.mem_singleton_self _)
    () () Nc rfl (amount_send m c s r ()) (amount_recv m (peer c) i 0 ()) O rfl (W := W)
    (by rw [payload_send]; unfold sendPay; iintro H; iexists fs; iexact H)
    (by rw [payload_recv]; unfold recvPay; rw [peer_peer]; exact Entails.of_eq (BI.Region.is_congr hval))

end Cert.Kernel.A2A

end
-- ==== Proof.KernelX.Data.lean ====
/-
  What the scratch slots hold, read back, and what a landing writes.

  A chunk's 512 rows of `x` are copied whole into slot `s` of the row buffer; the body reads the slot back as one
  [1, 512, 2048] vector and stores, narrowed, one column half of it ([512, 1024], columns off …) into slot `s` of the send
  buffer and the other into slot `s` of the keep buffer. Read back through the slot, the stored half is, entry by entry,
  the narrowed entry of `x` at row 512·i + y₀ and column off + y₁. A copy of such a slot into the 512 result rows of chunk
  `i` then leaves those rows holding what the result must hold there.
-/
import proofs.«900651_g7700000000000652_dist_a2a_v7x_xyz2x4x4_x_m8192_n1024_bf16_1_alg».proof.Proof.KernelX.Send

import Idealize.ShloMosaic.Lib.Pipeline.Value

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- One column half of the rows read back, narrowed: the body's pure value between its load and its store (every one of
    the skeleton's payloads is this function at `off = 0` or `off = 1024`). -/
def half (off : Nat) (hoff : S512x2048.Slices ![0, off] S512x1024) (v : Vec F S1x512x2048 .f32) : FVec F S1x512x1024 .bf16 :=
  shapeCast S1x512x1024
    (truncf .bf16 (extractStridedSlice S512x1024 ![0, off] (shapeCast S512x2048 v shapeCasts_S1x512x2048_S512x2048) hoff) bitsLt_bf16_f32)
    shapeCasts_S512x1024_S1x512x1024

/-! ## Reading a squeezed slot back, generically -/

section Generic
variable {sig' : RefSig} {κ' : Kind} {cs' : Space} {s₀ s' : Shape} {e' : EltTy} {Val : EltTy → Type}

/-- A vector stored through a rectangle of a memref, read back through the squeezed slice at that rectangle, is the
    vector re-indexed by row-major position. -/
theorem read_squeeze_write_access (M : Memref sig' κ' cs' s₀ e') (r : Rect s₀) (hr : ∀ a, r.stride a = 1)
    (hq : r.shape.Squeezes s') (hc : r.shape.ShapeCasts s') (f : M.view.ty.Contents Val) (w : r.shape.Idx → Val e') :
    ((M.slice r hr).squeeze s' hq).view.read Val (View.write Val (M.access r) f w Finset.univ) = shapeCast s' w hc := by
  rw [Memref.read_squeeze_slice M r hr hq hc, View.readAt_rect, View.read_write_univ]

/-- A vector written whole through the squeezed slice of a memref at a rectangle, loaded back through the memref at that
    rectangle and re-indexed to the squeezed shape, is the vector. -/
theorem shapeCast_readAt_writes_whole (M : Memref sig' κ' cs' s₀ e') (r : Rect s₀) (hr : ∀ a, r.stride a = 1)
    (hq : r.shape.Squeezes s') (hc : r.shape.ShapeCasts s') (f : M.view.ty.Contents Val) (w : s'.Idx → Val e') :
    shapeCast s' (M.view.readAt Val r.toLoadRect (View.writes ((M.slice r hr).squeeze s' hq).view Val f [⟨Rect.whole s', w⟩])) hc = w := by
  rw [← Memref.read_squeeze_slice M r hr hq hc]
  funext x
  have h := View.read_writes_cons_emb ((M.slice r hr).squeeze s' hq).view f (Rect.whole s') w [] x
  rwa [Rect.emb_whole_apply] at h

/-- A narrowing of a vector reads, at an index, the narrowing of the entry there. -/
theorem truncf_at {G : FTy → Type} [FloatOps G] {s : Shape} {φ ψ : FTy} (x : FVec G s φ) (h : ψ.bits < φ.bits) (j : s.Idx) :
    truncf ψ x h j = FloatOps.truncf ψ h (x j) := rfl

/-- A slice of a whole buffer reads, at an index, the buffer at the index placed by the rectangle. -/
theorem read_slice_whole_at (b : Ref sig' κ') (r : Rect b.ty.shape) (hr : ∀ a, r.stride a = 1) (f : b.ty.Contents Val) (x : r.shape.Idx) :
    ((Memref.whole b).slice r hr).view.read Val f x = f (r.emb x) := rfl

end Generic

/-! ## What the two scratch slots hold -/

/-- The send buffer's slot `s` after the store of a half of chunk `i`, read back through the slot. -/
theorem read_sendSlot (c : Dev nD) (X : Buf (Elt F) ((c : Thread nD τ).loc main_arg0)) (i : Fin 16) (s : Fin 4)
    (off : Nat) (hoff : S512x2048.Slices ![0, off] S512x1024) (hle : off ≤ 1024)
    (pay : Vec F S1x512x2048 .f32 → FVec F S1x512x1024 .bf16) (hpay : pay = half off hoff)
    (pin : Buf (Elt F) ((c : Thread nD τ).loc cc0_scratch0)) (ps : Buf (Elt F) ((c : Thread nD τ).loc cc0_scratch1)) (y : S512x1024.Idx) :
    (sendSlot s).view.read (Elt F)
        (View.write (Elt F) ((Memref.whole cc0_scratch1).access (Rect.unit (s := S4x512x1024) ![s.val, 0, 0] S1x512x1024.size (inbSlot s))) ps
          (pay (View.readAt (Elt F) (Memref.whole cc0_scratch0).view
            (Rect.unit (s := S4x512x2048) ![s.val, 0, 0] S1x512x2048.size (inbSlotIn s)).toLoadRect
            ((inSlot s).view.writes (Elt F) pin [⟨Rect.whole S512x2048, ReadAs.same.apply (View.read (Elt F) (xChunk i).view X)⟩])))
          Finset.univ) y
      = FloatOps.truncf .bf16 bitsLt_bf16_f32
          (X (ValueIdx.ix2 (⟨512 * i.val + (y 0).val, by have h : (y 0).val < 512 := (y 0).isLt; omega⟩ : Fin 8192)
            (⟨off + (y 1).val, by have h : (y 1).val < 1024 := (y 1).isLt; omega⟩ : Fin 2048))) := by
  subst hpay
  unfold half
  -- the slot read back is the stored vector re-indexed, and the two re-indexings cancel
  refine (congrFun (read_squeeze_write_access (Memref.whole cc0_scratch1) _ (fun _ => rfl) squeezes_S1x512x1024_S512x1024
    shapeCasts_S1x512x1024_S512x1024 ps _) y).trans ?_
  refine (congrFun (shapeCast_shapeCast _ shapeCasts_S512x1024_S1x512x1024 shapeCasts_S1x512x1024_S512x1024) y).trans ?_
  -- entry by entry: the narrowing of the entry of the column half at row y₀, column y₁
  refine (truncf_at _ bitsLt_bf16_f32 y).trans (congrArg (FloatOps.truncf .bf16 bitsLt_bf16_f32) ?_)
  have hy0 : (y 0).val < 512 := (y 0).isLt
  have hy1 : (y 1).val < 1024 := (y 1).isLt
  refine (extractStridedSlice_apply ![0, off] _ hoff y
    (ValueIdx.ix2 (⟨(y 0).val, hy0⟩ : Fin 512) (⟨off + (y 1).val, by omega⟩ : Fin 2048)) (fun a => ?_)).trans ?_
  · match a with
    | ⟨0, _⟩ => show (y 0).val = 0 + (y 0).val; omega
    | ⟨1, _⟩ => rfl
  -- the rows loaded back are the chunk of `x` that was copied in, whatever the row buffer held before
  refine (congrFun (shapeCast_readAt_writes_whole (Memref.whole cc0_scratch0) _ (fun _ => rfl) squeezes_S1x512x2048_S512x2048
    shapeCasts_S1x512x2048_S512x2048 pin _) _).trans ?_
  refine (read_slice_whole_at main_arg0 _ (fun _ => rfl) X _).trans (congrArg X (funext fun a => Fin.ext ?_))
  match a with
  | ⟨0, _⟩ => show 512 * i.val + 1 * (y 0).val = 512 * i.val + (y 0).val; omega
  | ⟨1, _⟩ => show 0 + 1 * (off + (y 1).val) = off + (y 1).val; omega

/-- The same for the keep buffer. -/
theorem read_keepSlot (c : Dev nD) (X : Buf (Elt F) ((c : Thread nD τ).loc main_arg0)) (i : Fin 16) (s : Fin 4)
    (off : Nat) (hoff : S512x2048.Slices ![0, off] S512x1024) (hle : off ≤ 1024)
    (pay : Vec F S1x512x2048 .f32 → FVec F S1x512x1024 .bf16) (hpay : pay = half off hoff)
    (pin : Buf (Elt F) ((c : Thread nD τ).loc cc0_scratch0)) (ps : Buf (Elt F) ((c : Thread nD τ).loc cc0_scratch2)) (y : S512x1024.Idx) :
    (keepSlot s).view.read (Elt F)
        (View.write (Elt F) ((Memref.whole cc0_scratch2).access (Rect.unit (s := S4x512x1024) ![s.val, 0, 0] S1x512x1024.size (inbSlot s))) ps
          (pay (View.readAt (Elt F) (Memref.whole cc0_scratch0).view
            (Rect.unit (s := S4x512x2048) ![s.val, 0, 0] S1x512x2048.size (inbSlotIn s)).toLoadRect
            ((inSlot s).view.writes (Elt F) pin [⟨Rect.whole S512x2048, ReadAs.same.apply (View.read (Elt F) (xChunk i).view X)⟩])))
          Finset.univ) y
      = FloatOps.truncf .bf16 bitsLt_bf16_f32
          (X (ValueIdx.ix2 (⟨512 * i.val + (y 0).val, by have h : (y 0).val < 512 := (y 0).isLt; omega⟩ : Fin 8192)
            (⟨off + (y 1).val, by have h : (y 1).val < 1024 := (y 1).isLt; omega⟩ : Fin 2048))) := by
  subst hpay
  unfold half
  -- the slot read back is the stored vector re-indexed, and the two re-indexings cancel
  refine (congrFun (read_squeeze_write_access (Memref.whole cc0_scratch2) _ (fun _ => rfl) squeezes_S1x512x1024_S512x1024
    shapeCasts_S1x512x1024_S512x1024 ps _) y).trans ?_
  refine (congrFun (shapeCast_shapeCast _ shapeCasts_S512x1024_S1x512x1024 shapeCasts_S1x512x1024_S512x1024) y).trans ?_
  -- entry by entry: the narrowing of the entry of the column half at row y₀, column y₁
  refine (truncf_at _ bitsLt_bf16_f32 y).trans (congrArg (FloatOps.truncf .bf16 bitsLt_bf16_f32) ?_)
  have hy0 : (y 0).val < 512 := (y 0).isLt
  have hy1 : (y 1).val < 1024 := (y 1).isLt
  refine (extractStridedSlice_apply ![0, off] _ hoff y
    (ValueIdx.ix2 (⟨(y 0).val, hy0⟩ : Fin 512) (⟨off + (y 1).val, by omega⟩ : Fin 2048)) (fun a => ?_)).trans ?_
  · match a with
    | ⟨0, _⟩ => show (y 0).val = 0 + (y 0).val; omega
    | ⟨1, _⟩ => rfl
  -- the rows loaded back are the chunk of `x` that was copied in, whatever the row buffer held before
  refine (congrFun (shapeCast_readAt_writes_whole (Memref.whole cc0_scratch0) _ (fun _ => rfl) squeezes_S1x512x2048_S512x2048
    shapeCasts_S1x512x2048_S512x2048 pin _) _).trans ?_
  refine (read_slice_whole_at main_arg0 _ (fun _ => rfl) X _).trans (congrArg X (funext fun a => Fin.ext ?_))
  match a with
  | ⟨0, _⟩ => show 512 * i.val + 1 * (y 0).val = 512 * i.val + (y 0).val; omega
  | ⟨1, _⟩ => show 0 + 1 * (off + (y 1).val) = off + (y 1).val; omega

/-! ## Where a chunk's rows sit in a result array, and what the result must hold there -/

/-- Row `y` of chunk `i` at device `c`'s offsets is row 8192·x(c) + 512·i + y₀, column y₁, of the result array. -/
theorem outChunk_emb (c : Dev nD) (i : Fin 16) (y : S512x1024.Idx) :
    (outChunk c i).view.emb y
      = (ValueIdx.ix2 (⟨8192 * (c.val / 16) + 512 * i.val + (y 0).val, by
            have h : (y 0).val < 512 := (y 0).isLt
            have hc : c.val < 32 := c.isLt
            have hi := i.isLt
            omega⟩ : Fin 16384)
          (⟨(y 1).val, (y 1).isLt⟩ : Fin 1024) : S16384x1024.Idx) := by
  funext a
  refine Fin.ext ?_
  match a with
  | ⟨0, _⟩ =>
    show k0_off1 c (BitVec.ofNat 32 (512 * i.val)) 0 + 1 * (y 0).val = 8192 * (c.val / 16) + 512 * i.val + (y 0).val
    rw [k0_off1_eq]
    show 8192 * (c.val / 16) + 512 * i.val + 1 * (y 0).val = _
    omega
  | ⟨1, _⟩ =>
    show k0_off1 c (BitVec.ofNat 32 (512 * i.val)) 1 + 1 * (y 1).val = (y 1).val
    rw [k0_off1_eq]
    show 0 + 1 * (y 1).val = _
    omega

/-- A whole write through the rows of a chunk leaves, at each element under them, the written vector at the row and
    column of the element inside the chunk. -/
theorem write_outChunk (c : Dev nD) (i : Fin 16) (fd : S16384x1024.Idx → Elt F .bf16) (w : S512x1024.Idx → Elt F .bf16) :
    ∀ j ∈ (outChunk c i).view.set, ∃ y : S512x1024.Idx,
      j = (outChunk c i).view.emb y ∧ (outChunk c i).view.write (Elt F) fd w Finset.univ j = w y := by
  intro j hj
  obtain ⟨y, rfl⟩ := View.exists_emb_of_mem_set _ hj
  exact ⟨y, rfl, (View.write_emb_of_mem (v := (outChunk c i).view) fd w (Finset.mem_univ y)).trans (cast_eq _ _)⟩

/-- In a device's own row half the result must hold its own block of `x`, narrowed, in its own column half. -/
theorem outSpec_near (d : Dev nD) (r : Fin 16384) (k : Fin 1024) (h : r.val / 8192 = xco d) :
    outSpec m d (ValueIdx.ix2 r k)
      = FloatOps.truncf .bf16 bitsLt_bf16_f32 (xv m d (ValueIdx.ix2 (⟨r.val % 8192, Nat.mod_lt _ (by decide)⟩ : Fin 8192)
          (⟨1024 * xco d + k.val, by have h1 := xco_lt d; have h2 := k.isLt; omega⟩ : Fin 2048))) := by
  show FloatOps.truncf .bf16 bitsLt_bf16_f32 ((if r.val / 8192 = xco d then xv m d else xv m (peer d)) _) = _
  rw [if_pos h]
  rfl

/-- In the other row half it must hold the peer's block of `x`, narrowed, in the device's own column half. -/
theorem outSpec_far (d : Dev nD) (r : Fin 16384) (k : Fin 1024) (h : r.val / 8192 ≠ xco d) :
    outSpec m d (ValueIdx.ix2 r k)
      = FloatOps.truncf .bf16 bitsLt_bf16_f32 (xv m (peer d) (ValueIdx.ix2 (⟨r.val % 8192, Nat.mod_lt _ (by decide)⟩ : Fin 8192)
          (⟨1024 * xco d + k.val, by have h1 := xco_lt d; have h2 := k.isLt; omega⟩ : Fin 2048))) := by
  show FloatOps.truncf .bf16 bitsLt_bf16_f32 ((if r.val / 8192 = xco d then xv m d else xv m (peer d)) _) = _
  rw [if_neg h]
  rfl

/-- Entries of blocks of `x` on equal devices at equal rows and columns are equal. -/
theorem xv_congr {d d' : Dev nD} (hd : d = d') {a a' : Fin 8192} {b b' : Fin 2048} (ha : a.val = a'.val) (hb : b.val = b'.val) :
    xv m d (ValueIdx.ix2 a b) = xv m d' (ValueIdx.ix2 a' b') := by
  subst hd
  obtain rfl := Fin.ext ha
  obtain rfl := Fin.ext hb
  rfl

/-! ## The two landings -/

/-- THE LANDING OF A REMOTE COPY: a slot that reads as the half the peer needs of chunk `i` (`sendSpec`), copied into the 512
    rows of chunk `i` at `c`'s offsets of the PEER's result array (over whatever was there), leaves those rows holding what
    the peer's result must hold there. (Row 8192·x(c) + 512·i + y₀ of the whole `x` is in `c`'s block, not the peer's, and the
    peer needs the columns 1024·x(peer c) … = 1024·(1 - x(c)) ….) -/
theorem landing (c : Dev nD) (i : Fin 16) (s : Fin 4) (fs : Buf (Elt F) ((sendSlot s).view.loc (c : Thread nD τ)))
    (fd : Buf (Elt F) (((peer c : Dev nD) : Thread nD τ).loc main_v1))
    (hfs : ∀ y, (sendSlot s).view.read (Elt F) fs y = sendSpec m c i y) :
    ∀ j ∈ (outChunk c i).view.set,
      (outChunk c i).view.write (Elt F) fd ((sendSlot s).view.read (Elt F) fs) Finset.univ j = outSpec m (peer c) j := by
  intro j hj
  obtain ⟨y, rfl, e⟩ := write_outChunk c i fd ((sendSlot s).view.read (Elt F) fs) j hj
  have hy0 : (y 0).val < 512 := (y 0).isLt
  have hx := xco_lt c
  have hi := i.isLt
  refine e.trans ((hfs y).trans ?_)
  refine Eq.trans ?_ (congrArg (outSpec m (peer c)) (outChunk_emb c i y).symm)
  -- the rows are in `c`'s row half, not the peer's: the peer must hold `c`'s block of `x` there, in the peer's column half
  refine Eq.trans ?_ (outSpec_far m (peer c) _ _ ?_).symm
  · refine congrArg (FloatOps.truncf .bf16 bitsLt_bf16_f32) (xv_congr m (peer_peer c).symm ?_ ?_)
    · show 512 * i.val + (y 0).val = (8192 * (c.val / 16) + 512 * i.val + (y 0).val) % 8192
      omega
    · show 1024 * (1 - xco c) + (y 1).val = 1024 * xco (peer c) + (y 1).val
      rw [xco_peer]
  · show (8192 * (c.val / 16) + 512 * i.val + (y 0).val) / 8192 ≠ xco (peer c)
    rw [xco_peer]
    unfold xco at hx ⊢
    omega

/-- THE LANDING OF A LOCAL COPY: a slot that reads as the half the device itself needs of chunk `i` (`keepSpec`), copied into
    the 512 rows of chunk `i` of its OWN result array (one whole piece laid over whatever was there), leaves those rows holding
    what its result must hold there. -/
theorem kept (c : Dev nD) (i : Fin 16) (s : Fin 4) (fk : Buf (Elt F) ((keepSlot s).view.loc (c : Thread nD τ)))
    (fd : Buf (Elt F) ((c : Thread nD τ).loc main_v1))
    (hfk : ∀ y, (keepSlot s).view.read (Elt F) fk y = keepSpec m c i y) :
    ∀ j ∈ (outChunk c i).view.set,
      (outChunk c i).view.writes (Elt F) fd [⟨Rect.whole S512x1024, ReadAs.same.apply (View.read (Elt F) (keepSlot s).view fk)⟩] j
        = outSpec m c j := by
  intro j hj
  -- one whole piece over the old contents is one whole write
  refine (congrFun (View.write_univ_eq_writes_whole (outChunk c i).view fd [] ((keepSlot s).view.read (Elt F) fk)).symm j).trans ?_
  obtain ⟨y, rfl, e⟩ := write_outChunk c i fd ((keepSlot s).view.read (Elt F) fk) j hj
  have hy0 : (y 0).val < 512 := (y 0).isLt
  have hi := i.isLt
  refine e.trans ((hfk y).trans ?_)
  refine Eq.trans ?_ (congrArg (outSpec m c) (outChunk_emb c i y).symm)
  -- the rows are in `c`'s own row half: it must hold its own block of `x` there, in its own column half
  refine Eq.trans ?_ (outSpec_near m c _ _ ?_).symm
  · refine congrArg (FloatOps.truncf .bf16 bitsLt_bf16_f32) (xv_congr m rfl ?_ rfl)
    show 512 * i.val + (y 0).val = (8192 * (c.val / 16) + 512 * i.val + (y 0).val) % 8192
    omega
  · show (8192 * (c.val / 16) + 512 * i.val + (y 0).val) / 8192 = xco c
    unfold xco
    omega

end Cert.Kernel.A2A

end
-- ==== Proof.KernelX.Close.lean ====
/-
  Putting the result array back together at the end of the body: sixteen near bands, each at contents that agree on
  the band with what the array must hold, and the sixteen far bands the peer's landings handed over (already at what
  the array must hold), are the whole array at what it must hold.
-/
import proofs.«900651_g7700000000000652_dist_a2a_v7x_xyz2x4x4_x_m8192_n1024_bf16_1_alg».proof.Proof.KernelX.Parts

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem out_rejoin (c : Dev nD) (fn : Fin 16 → Buf (Elt F) ((c : Thread nD τ).loc main_v1))
    (hfn : ∀ i : Fin 16, ∀ j ∈ (outChunk c i).view.set, fn i j = outSpec m c j) :
    iprop((bigSep Finset.univ fun i : Fin 16 => ((outChunk c i).view.loc (c : Thread nD τ) ↦[(outChunk c i).view.set]{fullShare} fn i : sProp 𝕄))
        ∗ bigSep Finset.univ fun i : Fin 16 => recvPay m c i)
      ⊢ ((Memref.whole main_v1).view.loc (c : Thread nD τ) ↦{fullShare} outSpec m c : sProp 𝕄) := by
  -- On its own band each near points-to may be restated at the contents the array must hold.
  have h1 : (bigSep Finset.univ fun i : Fin 16 => ((outChunk c i).view.loc (c : Thread nD τ) ↦[(outChunk c i).view.set]{fullShare} fn i : sProp 𝕄))
      = bigSep Finset.univ fun i : Fin 16 => ((outChunk c i).view.loc (c : Thread nD τ) ↦[(outChunk c i).view.set]{fullShare} outSpec m c : sProp 𝕄) :=
    bigSep_congr fun i _ => pointsTo_congr (hfn i)
  -- The far bands are held at those contents already: the thirty-two bands are the whole array.
  have h2 : iprop((bigSep Finset.univ fun i : Fin 16 => ((outChunk c i).view.loc (c : Thread nD τ) ↦[(outChunk c i).view.set]{fullShare} outSpec m c : sProp 𝕄))
        ∗ bigSep Finset.univ fun i : Fin 16 => recvPay m c i)
      = ((Memref.whole main_v1).view.loc (c : Thread nD τ) ↦{fullShare} outSpec m c : sProp 𝕄) :=
    (out_split c c (outSpec m c)).symm
  rw [h1]
  exact Entails.of_eq h2

end Cert.Kernel.A2A

end
-- ==== Proof.KernelX.Body.lean ====
/-
  One thread's body, run once at a symbolic device.

  The body is straight-line (sixteen chunks unrolled). It is run by the symbolic executor from the ghost state of
  Ghost.lean with the scratch buffers held slot by slot and the result array band by band, the way the body addresses
  them; the entry signal and each of the sixteen remote copies are applied by hand, each remote copy with the fact that
  the slot it sends holds the half of its chunk that the peer needs. At the end every band of the result array holds what
  the array must hold there (the near bands by the local copies, the far bands by the peer's landings), so the array is
  whole at that one content.
-/
import proofs.«900651_g7700000000000652_dist_a2a_v7x_xyz2x4x4_x_m8192_n1024_bf16_1_alg».proof.Proof.KernelX.Levels
import proofs.«900651_g7700000000000652_dist_a2a_v7x_xyz2x4x4_x_m8192_n1024_bf16_1_alg».proof.Proof.KernelX.Parts
import proofs.«900651_g7700000000000652_dist_a2a_v7x_xyz2x4x4_x_m8192_n1024_bf16_1_alg».proof.Proof.KernelX.Data
import proofs.«900651_g7700000000000652_dist_a2a_v7x_xyz2x4x4_x_m8192_n1024_bf16_1_alg».proof.Proof.KernelX.Close
import proofs.«900651_g7700000000000652_dist_a2a_v7x_xyz2x4x4_x_m8192_n1024_bf16_1_alg».proof.Proof.Gen.Kernel.Skeleton

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Tactic

/-! ## The two conditions of the body, decided by the device's first coordinate -/

theorem cond0_x0 (c : Dev nD) (hx : c.val / 16 = 0) :
    Scalar.cmpi CmpIPredicate.ne (Scalar.extui (Scalar.cmpi CmpIPredicate.eq (Scalar.remsi (Scalar.divsi (Dev.word c) 16#32) 2#32) 0#32)) 0#32 = 1#1 := by
  revert c; decide
theorem cond1_x0 (c : Dev nD) (hx : c.val / 16 = 0) :
    ¬ Scalar.cmpi CmpIPredicate.ne (Scalar.extui (Scalar.cmpi CmpIPredicate.eq (Scalar.remsi (Scalar.divsi (Dev.word c) 16#32) 2#32) 1#32)) 0#32 = 1#1 := by
  revert c; decide
theorem cond0_x1 (c : Dev nD) (hx : c.val / 16 = 1) :
    ¬ Scalar.cmpi CmpIPredicate.ne (Scalar.extui (Scalar.cmpi CmpIPredicate.eq (Scalar.remsi (Scalar.divsi (Dev.word c) 16#32) 2#32) 0#32)) 0#32 = 1#1 := by
  revert c; decide
theorem cond1_x1 (c : Dev nD) (hx : c.val / 16 = 1) :
    Scalar.cmpi CmpIPredicate.ne (Scalar.extui (Scalar.cmpi CmpIPredicate.eq (Scalar.remsi (Scalar.divsi (Dev.word c) 16#32) 2#32) 1#32)) 0#32 = 1#1 := by
  revert c; decide

/-! ## What the slots hold, in the form the copies' landings ask for -/

/-- The send slot after the store of the half at `off = 1024·(1 - x)` of chunk `i` reads as what the peer needs. -/
theorem send_reads (c : Dev nD) (i : Fin 16) (s : Fin 4) (off : Nat) (hoff : S512x2048.Slices ![0, off] S512x1024) (hle : off ≤ 1024)
    (hoffc : off = 1024 * (1 - xco c))
    (pay : Vec F S1x512x2048 .f32 → FVec F S1x512x1024 .bf16) (hpay : pay = half off hoff)
    (pin : Buf (Elt F) ((c : Thread nD τ).loc cc0_scratch0)) (ps : Buf (Elt F) ((c : Thread nD τ).loc cc0_scratch1)) (y : S512x1024.Idx) :
    (sendSlot s).view.read (Elt F)
        (View.write (Elt F) ((Memref.whole cc0_scratch1).access (Rect.unit (s := S4x512x1024) ![s.val, 0, 0] S1x512x1024.size (inbSlot s))) ps
          (pay (View.readAt (Elt F) (Memref.whole cc0_scratch0).view
            (Rect.unit (s := S4x512x2048) ![s.val, 0, 0] S1x512x2048.size (inbSlotIn s)).toLoadRect
            ((inSlot s).view.writes (Elt F) pin [⟨Rect.whole S512x2048, ReadAs.same.apply (View.read (Elt F) (xChunk i).view (m ((c : Thread nD τ).loc main_arg0)))⟩])))
          Finset.univ) y
      = sendSpec m c i y := by
  subst hoffc
  exact read_sendSlot c (m ((c : Thread nD τ).loc main_arg0)) i s _ hoff hle pay hpay pin ps y

/-- The keep slot after the store of the half at `off = 1024·x` of chunk `i` reads as what the device itself needs. -/
theorem keep_reads (c : Dev nD) (i : Fin 16) (s : Fin 4) (off : Nat) (hoff : S512x2048.Slices ![0, off] S512x1024) (hle : off ≤ 1024)
    (hoffc : off = 1024 * xco c)
    (pay : Vec F S1x512x2048 .f32 → FVec F S1x512x1024 .bf16) (hpay : pay = half off hoff)
    (pin : Buf (Elt F) ((c : Thread nD τ).loc cc0_scratch0)) (ps : Buf (Elt F) ((c : Thread nD τ).loc cc0_scratch2)) (y : S512x1024.Idx) :
    (keepSlot s).view.read (Elt F)
        (View.write (Elt F) ((Memref.whole cc0_scratch2).access (Rect.unit (s := S4x512x1024) ![s.val, 0, 0] S1x512x1024.size (inbSlot s))) ps
          (pay (View.readAt (Elt F) (Memref.whole cc0_scratch0).view
            (Rect.unit (s := S4x512x2048) ![s.val, 0, 0] S1x512x2048.size (inbSlotIn s)).toLoadRect
            ((inSlot s).view.writes (Elt F) pin [⟨Rect.whole S512x2048, ReadAs.same.apply (View.read (Elt F) (xChunk i).view (m ((c : Thread nD τ).loc main_arg0)))⟩])))
          Finset.univ) y
      = keepSpec m c i y := by
  subst hoffc
  exact read_keepSlot c (m ((c : Thread nD τ).loc main_arg0)) i s _ hoff hle pay hpay pin ps y

/-- The rows a device hands its peer at the entry signal, seen from the signaller: the bands at the PEER's offsets of the
    signaller's own result array are the barrier payload of the peer. -/
theorem barPay_of_signaller (d e : Dev nD) (he : e = peer d) :
    (bigSep Finset.univ fun i : Fin 16 =>
        ((outChunk d i).view.loc (e : Thread nD τ) ↦[(outChunk d i).view.set]{fullShare} m ((e : Thread nD τ).loc main_v1) : sProp 𝕄))
      = barPay m d := by
  subst he; rfl

/-! ## Small restatements the run needs -/

omit [FloatOps F] in
theorem kcell_bar (c : Dev nD) : kcell (c, .inl ()) = barCell c := rfl
omit [FloatOps F] in
theorem kcell_send (c : Dev nD) (s : Fin 4) : kcell (c, .inr (.inl s)) = sendCell c s := rfl
omit [FloatOps F] in
theorem kcell_recv (c : Dev nD) (i : Fin 16) : kcell (c, .inr (.inr i)) = recvCell c i := rfl

/-- The send cell's payload as the slot's points-to itself (at some contents). -/
theorem payload_send' (c : Dev nD) (s : Fin 4) (r : ℕ) (d : Unit) :
    (sched (F := F) m).payload (sendCell c s) r d
      = iprop(∃ f, ((sendSlot s).view.loc (c : Thread nD τ) ↦[(sendSlot s).view.set]{fullShare} f : sProp 𝕄)) := payload_send m c s r d
/-- The receive cell's payload as the band's points-to itself. -/
theorem payload_recv' (c : Dev nD) (i : Fin 16) (r : ℕ) (d : Unit) :
    (sched (F := F) m).payload (recvCell c i) r d
      = ((outChunk (peer c) i).view.loc (c : Thread nD τ) ↦[(outChunk (peer c) i).view.set]{fullShare} outSpec m c : sProp 𝕄) := payload_recv m c i r d

/-- Four slots at four contents are the whole buffer at some contents (the three scratch buffers). -/
theorem in_join4 (c : Dev nD) (f0 f1 f2 f3 : Buf (Elt F) ((c : Thread nD τ).loc cc0_scratch0)) :
    iprop(((inSlot 0).view.loc (c : Thread nD τ) ↦[(inSlot 0).view.set]{fullShare} f0) ∗ ((inSlot 1).view.loc (c : Thread nD τ) ↦[(inSlot 1).view.set]{fullShare} f1)
        ∗ ((inSlot 2).view.loc (c : Thread nD τ) ↦[(inSlot 2).view.set]{fullShare} f2) ∗ ((inSlot 3).view.loc (c : Thread nD τ) ↦[(inSlot 3).view.set]{fullShare} f3))
      ⊢ iprop(∃ f, ((Memref.whole cc0_scratch0).view.loc (c : Thread nD τ) ↦{fullShare} f : sProp 𝕄)) := by
  have h := in_join (F := F) c ![f0, f1, f2, f3]
  rw [bigSep_fin4] at h
  exact h
theorem send_join4 (c : Dev nD) (f0 f1 f2 f3 : Buf (Elt F) ((c : Thread nD τ).loc cc0_scratch1)) :
    iprop(((sendSlot 0).view.loc (c : Thread nD τ) ↦[(sendSlot 0).view.set]{fullShare} f0) ∗ ((sendSlot 1).view.loc (c : Thread nD τ) ↦[(sendSlot 1).view.set]{fullShare} f1)
        ∗ ((sendSlot 2).view.loc (c : Thread nD τ) ↦[(sendSlot 2).view.set]{fullShare} f2) ∗ ((sendSlot 3).view.loc (c : Thread nD τ) ↦[(sendSlot 3).view.set]{fullShare} f3))
      ⊢ iprop(∃ f, ((Memref.whole cc0_scratch1).view.loc (c : Thread nD τ) ↦{fullShare} f : sProp 𝕄)) := by
  have h := send_join (F := F) c ![f0, f1, f2, f3]
  rw [bigSep_fin4] at h
  exact h
theorem keep_join4 (c : Dev nD) (f0 f1 f2 f3 : Buf (Elt F) ((c : Thread nD τ).loc cc0_scratch2)) :
    iprop(((keepSlot 0).view.loc (c : Thread nD τ) ↦[(keepSlot 0).view.set]{fullShare} f0) ∗ ((keepSlot 1).view.loc (c : Thread nD τ) ↦[(keepSlot 1).view.set]{fullShare} f1)
        ∗ ((keepSlot 2).view.loc (c : Thread nD τ) ↦[(keepSlot 2).view.set]{fullShare} f2) ∗ ((keepSlot 3).view.loc (c : Thread nD τ) ↦[(keepSlot 3).view.set]{fullShare} f3))
      ⊢ iprop(∃ f, ((Memref.whole cc0_scratch2).view.loc (c : Thread nD τ) ↦{fullShare} f : sProp 𝕄)) := by
  have h := keep_join (F := F) c ![f0, f1, f2, f3]
  rw [bigSep_fin4] at h
  exact h

/-- The thirty-two bands, every one at what the result must hold, are the result array whole at that. -/
theorem out_join32 (c : Dev nD) (Φ Ψ : Fin 16 → sProp 𝕄)
    (hΦ : Φ = fun i => ((outChunk c i).view.loc (c : Thread nD τ) ↦[(outChunk c i).view.set]{fullShare} outSpec m c : sProp 𝕄))
    (hΨ : Ψ = fun i => ((outChunk (peer c) i).view.loc (c : Thread nD τ) ↦[(outChunk (peer c) i).view.set]{fullShare} outSpec m c : sProp 𝕄)) :
    iprop((Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15)
        ∗ (Ψ 0 ∗ Ψ 1 ∗ Ψ 2 ∗ Ψ 3 ∗ Ψ 4 ∗ Ψ 5 ∗ Ψ 6 ∗ Ψ 7 ∗ Ψ 8 ∗ Ψ 9 ∗ Ψ 10 ∗ Ψ 11 ∗ Ψ 12 ∗ Ψ 13 ∗ Ψ 14 ∗ Ψ 15))
      ⊢ ((Memref.whole main_v1).view.loc (c : Thread nD τ) ↦{fullShare} outSpec m c : sProp 𝕄) := by
  subst hΦ hΨ
  have h := out_split (F := F) c c (outSpec m c)
  rw [bigSep_fin16, bigSep_fin16] at h
  exact Entails.of_eq h.symm

/-! ## The run

The executor reads the device equations as canonical forms and the schedule's tables as rewrites. The run is the same
text for both values of the device's first coordinate; what differs is which half of the loaded rows is sent (columns
1024… when the coordinate is 0, columns 0… when it is 1) and which is kept, so the steps below are written once, over the
two column offsets, and instantiated twice. -/

attribute [local sl_canon] dev1_eq dev2_eq dev3_eq dev4_eq dev5_eq dev6_eq dev7_eq dev8_eq dev9_eq dev10_eq dev11_eq dev12_eq dev13_eq
  dev14_eq dev15_eq dev16_eq dev17_eq
attribute [local sl_rounds] duties_bar duties_recv duties_send amount_bar amount_recv amount_send payload_bar payload_recv' payload_send'
  expect_bar expect_recv expect_send
set_option maxRecDepth 16384

set_option hygiene false in
/-- THE OPENING. The ghost state is opened into its cells' invariants, positions, reached rounds, duty tokens and credits; the
    three scratch buffers are cut into their slots and the result array into its thirty-two bands; the body runs to its entry
    signal, which hands the peer the sixteen far bands (the rows the peer will write); it runs on through the first loads
    and the barrier wait, which hands over the peer's far bands in return, to the first remote copy. -/
local macro "a2a_open" : tactic => `(tactic| (
  unfold bodyPre ghost invs creds locals bufs
  rw [bigSep_cl, bigSep_cl, bigSep_univ_prod]
  repeat rw [bigSep_fin4]
  repeat rw [bigSep_fin16]
  rw [kcell_bar]
  repeat rw [kcell_send]
  repeat rw [kcell_recv]
  iintro ⟨⟨⟨⟨⟨#HIb, ⟨#HIs0, #HIs1, #HIs2, #HIs3⟩,
            ⟨#HIr0, #HIr1, #HIr2, #HIr3, #HIr4, #HIr5, #HIr6, #HIr7, #HIr8, #HIr9, #HIr10, #HIr11, #HIr12, #HIr13, #HIr14, #HIr15⟩⟩,
          #HIbP,
          ⟨#HIrP0, #HIrP1, #HIrP2, #HIrP3, #HIrP4, #HIrP5, #HIrP6, #HIrP7, #HIrP8, #HIrP9, #HIrP10, #HIrP11, #HIrP12, #HIrP13, #HIrP14, #HIrP15⟩⟩,
        ⟨HaB, ⟨HaS0, HaS1, HaS2, HaS3⟩,
          ⟨HaR0, HaR1, HaR2, HaR3, HaR4, HaR5, HaR6, HaR7, HaR8, HaR9, HaR10, HaR11, HaR12, HaR13, HaR14, HaR15⟩⟩,
        #HrBP,
        ⟨#HrRP0, #HrRP1, #HrRP2, #HrRP3, #HrRP4, #HrRP5, #HrRP6, #HrRP7, #HrRP8, #HrRP9, #HrRP10, #HrRP11, #HrRP12, #HrRP13, #HrRP14, #HrRP15⟩,
        ⟨#HrS0, #HrS1, #HrS2, #HrS3⟩,
        HtBP,
        ⟨HtRP0, HtRP1, HtRP2, HtRP3, HtRP4, HtRP5, HtRP6, HtRP7, HtRP8, HtRP9, HtRP10, HtRP11, HtRP12, HtRP13, HtRP14, HtRP15⟩,
        ⟨⟨HtS0_0, HtS0_1, HtS0_2, HtS0_3⟩, ⟨HtS1_0, HtS1_1, HtS1_2, HtS1_3⟩, ⟨HtS2_0, HtS2_1, HtS2_2, HtS2_3⟩, ⟨HtS3_0, HtS3_1, HtS3_2, HtS3_3⟩⟩⟩,
      ⟨HcB, ⟨HcR0, HcR1, HcR2, HcR3, HcR4, HcR5, HcR6, HcR7, HcR8, HcR9, HcR10, HcR11, HcR12, HcR13, HcR14, HcR15⟩⟩,
      #Hlev, ⟨Hl0, Hl1, Hl2, Hl3, Hs0, Hs1, Hs2, Hs3⟩,
      ⟨Hx, Hout, ⟨%fin, Hin⟩, ⟨%fsend, Hsend⟩, ⟨%fkeep, Hkeep⟩⟩⟩, HO, Hk⟩
  ihave Hin := (Entails.of_eq ((in_split c fin).trans (bigSep_fin4 _))) $$ Hin
  icases Hin with ⟨Hin0, Hin1, Hin2, Hin3⟩
  ihave Hsend := (Entails.of_eq ((send_split c fsend).trans (bigSep_fin4 _))) $$ Hsend
  icases Hsend with ⟨Hsend0, Hsend1, Hsend2, Hsend3⟩
  ihave Hkeep := (Entails.of_eq ((keep_split c fkeep).trans (bigSep_fin4 _))) $$ Hkeep
  icases Hkeep with ⟨Hkeep0, Hkeep1, Hkeep2, Hkeep3⟩
  ihave Hout := (Entails.of_eq (out_split c c (m ((c : Thread nD τ).loc main_v1)))) $$ Hout
  icases Hout with ⟨Hnear, Hfar⟩
  ihave Hnear := (Entails.of_eq (bigSep_fin16 _)) $$ Hnear
  icases Hnear with ⟨Hn0, Hn1, Hn2, Hn3, Hn4, Hn5, Hn6, Hn7, Hn8, Hn9, Hn10, Hn11, Hn12, Hn13, Hn14, Hn15⟩
  ihave Hbp := (Entails.of_eq (barPay_of_signaller m (peer c) c (peer_peer c).symm)) $$ Hfar
  sl_unfold [bodyAt0, cc0_body]
  sl_exec
  iapply (Rounds.wp_signal 𝒱₀ ER (sched m) (c : Thread nD τ) none (dst := (peer c : Thread nD τ)) (κ := K (peer c, .inl ()))
      (d := ()) (by rw [duties_bar]; exact Finset.mem_singleton_self _) ((amount_bar m (peer c) 0 ()).trans (by decide)) () (owedFrom c 16) rfl)
    $$ [HO HtBP Hbp]
  · isplitr; · iexact HIbP
    isplitl [HO]; · iexact HO
    isplitl [HtBP]; · iexact HtBP
    isplitl [Hbp]; · rw [payload_bar]; iexact Hbp
    iexact HrBP
  iintro HO
  sl_exec
  unfold barPay
  ihave Hf := (Entails.of_eq (bigSep_fin16 _)) $$ HaB_pay1
  icases Hf with ⟨Hf0, Hf1, Hf2, Hf3, Hf4, Hf5, Hf6, Hf7, Hf8, Hf9, Hf10, Hf11, Hf12, Hf13, Hf14, Hf15⟩))

set_option hygiene false in
/-- ONE CHUNK'S REMOTE COPY, first round of its slot: chunk i out of slot s to the peer (the printed device chain dv names
    it), the slot holding the half at column offset off; afterwards what is still owed is O; then the body runs on to the
    next remote copy. The slot is held since the opening (sl), its round-0 duty token is ts, its round 0 was reached at
    launch (rs); hf is the peer's band the copy lands in, tr / ir / rr the peer's receive duty token, cell invariant and
    reached round; cs names the send credit the copy returns. -/
local macro "a2a_send0 " i:num ", " s:num ", " dv:ident ", " off:term:max ", " hoff:ident ", " O:term:max ", " sl:ident ", " hf:ident ", "
    ts:ident ", " tr:ident ", " is:ident ", " ir:ident ", " rs:ident ", " rr:ident ", " cs:ident : tactic => `(tactic| (
  iapply (wp_send_chunk m (K (c, .inr (.inl $s))) (K (peer c, .inr (.inr $i))) c _ ($dv c) (i := $i) (s := $s) (r := 0) (by decide) _ $O _
      (landing m c $i $s _ _ (fun y => send_reads m c $i $s $off $hoff (by decide) (by rw [hxc]) _ rfl _ _ y)))
    $$ [$sl:ident $hf:ident HO $ts:ident $tr:ident]
  · isplitr; · iexact $is:ident
    isplitr; · iexact $ir:ident
    isplitl [$sl:ident]; · iexact $sl:ident
    isplitl [$hf:ident]; · iexact $hf:ident
    isplitl [HO]; · iexact HO
    isplitl [$ts:ident]; · iexact $ts:ident
    isplitr; · iexact $rs:ident
    isplitl [$tr:ident]; · iexact $tr:ident
    iexact $rr:ident
  iintro ⟨$cs:ident, HO⟩
  sl_exec))

set_option hygiene false in
/-- The same at a later round r of the slot: the slot (sl) and that round r is reached (rs, a fact the wait on the slot's
    send cell handed back with the slot) both come from that wait. -/
local macro "a2a_sendR " i:num ", " s:num ", " r:num ", " dv:ident ", " off:term:max ", " hoff:ident ", " O:term:max ", " sl:ident ", " hf:ident ", "
    ts:ident ", " tr:ident ", " is:ident ", " ir:ident ", " rs:ident ", " rr:ident ", " cs:ident : tactic => `(tactic| (
  iapply (wp_send_chunk m (K (c, .inr (.inl $s))) (K (peer c, .inr (.inr $i))) c _ ($dv c) (i := $i) (s := $s) (r := $r) (by decide) _ $O _
      (landing m c $i $s _ _ (fun y => send_reads m c $i $s $off $hoff (by decide) (by rw [hxc]) _ rfl _ _ y)))
    $$ [$sl:ident $hf:ident HO $ts:ident $rs:ident $tr:ident]
  · isplitr; · iexact $is:ident
    isplitr; · iexact $ir:ident
    isplitl [$sl:ident]; · iexact $sl:ident
    isplitl [$hf:ident]; · iexact $hf:ident
    isplitl [HO]; · iexact HO
    isplitl [$ts:ident]; · iexact $ts:ident
    isplitl [$rs:ident]; · iexact $rs:ident
    isplitl [$tr:ident]; · iexact $tr:ident
    iexact $rr:ident
  iintro ⟨$cs:ident, HO⟩
  sl_exec))

set_option hygiene false in
/-- A near band after its local copy holds, on the band, what the result must hold: chunk i out of keep slot s, the slot
    holding the half at column offset off. -/
local macro "a2a_near " i:num ", " s:num ", " off:term:max ", " hoff:ident ", " hn:ident : tactic => `(tactic| (
  ihave $hn:ident := (Entails.of_eq (pointsTo_congr (kept m c $i $s _ _ (fun y => keep_reads m c $i $s $off $hoff (by decide) (by rw [hxc]) _ rfl _ _ y)))) $$ $hn:ident))

set_option hygiene false in
/-- A send cell after its four rounds is closed: its counter is the device's again, at zero. -/
local macro "a2a_closeS " s:num ", " ha:ident ", " hi:ident ", " hz:ident : tactic => `(tactic| (
  imod (Rounds.cell_close ER (sched m) (Set.mem_univ (K (c, .inr (.inl $s)))) (fun h => h) (R := 4) (fun r hr => duties_send_later m c $s hr)) $$ [$ha:ident] with $hz:ident
  · isplitr; · iexact $hi:ident
    iexact $ha:ident))

set_option hygiene false in
/-- A receive cell after its one round is closed likewise. -/
local macro "a2a_closeR " i:num ", " ha:ident ", " hi:ident ", " hz:ident : tactic => `(tactic| (
  imod (Rounds.cell_close ER (sched m) (Set.mem_univ (K (c, .inr (.inr $i)))) (fun h => h) (R := 1) (fun r hr => duties_recv_later m c $i hr)) $$ [$ha:ident] with $hz:ident
  · isplitr; · iexact $hi:ident
    iexact $ha:ident))

set_option hygiene false in
/-- THE RETURN. The thirty-two bands are the result array whole at what it must hold; the slots are the scratch buffers
    whole at some contents; the twenty-eight counters are at zero; nothing is owed. -/
local macro "a2a_finish" : tactic => `(tactic| (
  sl_step
  iapply Hk
  unfold bodyPost locals
  rw [bigSep_fin4, bigSep_fin16]
  isplitr [HO]
  · isplitl [Hn0 Hn1 Hn2 Hn3 Hn4 Hn5 Hn6 Hn7 Hn8 Hn9 Hn10 Hn11 Hn12 Hn13 Hn14 Hn15 HaR0_pay1 HaR1_pay1 HaR2_pay1 HaR3_pay1 HaR4_pay1 HaR5_pay1 HaR6_pay1
        HaR7_pay1 HaR8_pay1 HaR9_pay1 HaR10_pay1 HaR11_pay1 HaR12_pay1 HaR13_pay1 HaR14_pay1 HaR15_pay1]
    · iapply (out_join32 m c _ _ rfl rfl)
      isplitl [Hn0 Hn1 Hn2 Hn3 Hn4 Hn5 Hn6 Hn7 Hn8 Hn9 Hn10 Hn11 Hn12 Hn13 Hn14 Hn15]
      · isplitl [Hn0]; · iexact Hn0
        isplitl [Hn1]; · iexact Hn1
        isplitl [Hn2]; · iexact Hn2
        isplitl [Hn3]; · iexact Hn3
        isplitl [Hn4]; · iexact Hn4
        isplitl [Hn5]; · iexact Hn5
        isplitl [Hn6]; · iexact Hn6
        isplitl [Hn7]; · iexact Hn7
        isplitl [Hn8]; · iexact Hn8
        isplitl [Hn9]; · iexact Hn9
        isplitl [Hn10]; · iexact Hn10
        isplitl [Hn11]; · iexact Hn11
        isplitl [Hn12]; · iexact Hn12
        isplitl [Hn13]; · iexact Hn13
        isplitl [Hn14]; · iexact Hn14
        iexact Hn15
      · isplitl [HaR0_pay1]; · iexact HaR0_pay1
        isplitl [HaR1_pay1]; · iexact HaR1_pay1
        isplitl [HaR2_pay1]; · iexact HaR2_pay1
        isplitl [HaR3_pay1]; · iexact HaR3_pay1
        isplitl [HaR4_pay1]; · iexact HaR4_pay1
        isplitl [HaR5_pay1]; · iexact HaR5_pay1
        isplitl [HaR6_pay1]; · iexact HaR6_pay1
        isplitl [HaR7_pay1]; · iexact HaR7_pay1
        isplitl [HaR8_pay1]; · iexact HaR8_pay1
        isplitl [HaR9_pay1]; · iexact HaR9_pay1
        isplitl [HaR10_pay1]; · iexact HaR10_pay1
        isplitl [HaR11_pay1]; · iexact HaR11_pay1
        isplitl [HaR12_pay1]; · iexact HaR12_pay1
        isplitl [HaR13_pay1]; · iexact HaR13_pay1
        isplitl [HaR14_pay1]; · iexact HaR14_pay1
        iexact HaR15_pay1
    isplitl [Hx]; · iexact Hx
    isplitl [Hin0 Hin1 Hin2 Hin3]
    · iapply (in_join4 c _ _ _ _)
      isplitl [Hin0]; · iexact Hin0
      isplitl [Hin1]; · iexact Hin1
      isplitl [Hin2]; · iexact Hin2
      iexact Hin3
    isplitl [HaS0_pay1 HaS1_pay1 HaS2_pay1 HaS3_pay1]
    · iapply (send_join4 c _ _ _ _)
      isplitl [HaS0_pay1]; · iexact HaS0_pay1
      isplitl [HaS1_pay1]; · iexact HaS1_pay1
      isplitl [HaS2_pay1]; · iexact HaS2_pay1
      iexact HaS3_pay1
    isplitl [Hkeep0 Hkeep1 Hkeep2 Hkeep3]
    · iapply (keep_join4 c _ _ _ _)
      isplitl [Hkeep0]; · iexact Hkeep0
      isplitl [Hkeep1]; · iexact Hkeep1
      isplitl [Hkeep2]; · iexact Hkeep2
      iexact Hkeep3
    isplitl [Hl0 Hl1 Hl2 Hl3 Hs0 Hs1 Hs2 Hs3]
    · isplitl [Hl0]; · iexact Hl0
      isplitl [Hl1]; · iexact Hl1
      isplitl [Hl2]; · iexact Hl2
      isplitl [Hl3]; · iexact Hl3
      isplitl [Hs0]; · iexact Hs0
      isplitl [Hs1]; · iexact Hs1
      isplitl [Hs2]; · iexact Hs2
      iexact Hs3
    isplitl [HzS0 HzS1 HzS2 HzS3]
    · isplitl [HzS0]; · iexact HzS0
      isplitl [HzS1]; · iexact HzS1
      isplitl [HzS2]; · iexact HzS2
      iexact HzS3
    isplitl [HzR0]; · iexact HzR0
    isplitl [HzR1]; · iexact HzR1
    isplitl [HzR2]; · iexact HzR2
    isplitl [HzR3]; · iexact HzR3
    isplitl [HzR4]; · iexact HzR4
    isplitl [HzR5]; · iexact HzR5
    isplitl [HzR6]; · iexact HzR6
    isplitl [HzR7]; · iexact HzR7
    isplitl [HzR8]; · iexact HzR8
    isplitl [HzR9]; · iexact HzR9
    isplitl [HzR10]; · iexact HzR10
    isplitl [HzR11]; · iexact HzR11
    isplitl [HzR12]; · iexact HzR12
    isplitl [HzR13]; · iexact HzR13
    isplitl [HzR14]; · iexact HzR14
    iexact HzR15
  · iexists _; iexact HO))

set_option hygiene false in
/-- THE WHOLE BODY over the two column offsets: offS / hoffS the half that is sent, offK / hoffK the half that is kept. Chunk i
    goes out of slot i mod 4 at round i div 4; the slots of rounds 1–3 and their reached rounds come back from the waits on
    the slots' send cells (the executor's names for them); after chunk 15 nothing is owed. -/
local macro "a2a_body " offS:term:max ", " hoffS:ident ", " offK:term:max ", " hoffK:ident : tactic => `(tactic| (
  a2a_open
  a2a_send0 0, 0, dev2_eq, $offS, $hoffS, (owedFrom c 15), Hsend0, Hf0, HtS0_0, HtRP0, HIs0, HIrP0, HrS0, HrRP0, HcS0
  a2a_send0 1, 1, dev3_eq, $offS, $hoffS, (owedFrom c 14), Hsend1, Hf1, HtS1_0, HtRP1, HIs1, HIrP1, HrS1, HrRP1, HcS1
  a2a_send0 2, 2, dev4_eq, $offS, $hoffS, (owedFrom c 13), Hsend2, Hf2, HtS2_0, HtRP2, HIs2, HIrP2, HrS2, HrRP2, HcS2
  a2a_send0 3, 3, dev5_eq, $offS, $hoffS, (owedFrom c 12), Hsend3, Hf3, HtS3_0, HtRP3, HIs3, HIrP3, HrS3, HrRP3, HcS3
  a2a_sendR 4, 0, 1, dev6_eq, $offS, $hoffS, (owedFrom c 11), HaS0_pay1, Hf4, HtS0_1, HtRP4, HIs0, HIrP4, HaS0_reached, HrRP4, HcS0
  a2a_sendR 5, 1, 1, dev7_eq, $offS, $hoffS, (owedFrom c 10), HaS1_pay1, Hf5, HtS1_1, HtRP5, HIs1, HIrP5, HaS1_reached, HrRP5, HcS1
  a2a_sendR 6, 2, 1, dev8_eq, $offS, $hoffS, (owedFrom c 9), HaS2_pay1, Hf6, HtS2_1, HtRP6, HIs2, HIrP6, HaS2_reached, HrRP6, HcS2
  a2a_sendR 7, 3, 1, dev9_eq, $offS, $hoffS, (owedFrom c 8), HaS3_pay1, Hf7, HtS3_1, HtRP7, HIs3, HIrP7, HaS3_reached, HrRP7, HcS3
  a2a_sendR 8, 0, 2, dev10_eq, $offS, $hoffS, (owedFrom c 7), HaS0_pay1, Hf8, HtS0_2, HtRP8, HIs0, HIrP8, HaS0_reached, HrRP8, HcS0
  a2a_sendR 9, 1, 2, dev11_eq, $offS, $hoffS, (owedFrom c 6), HaS1_pay1, Hf9, HtS1_2, HtRP9, HIs1, HIrP9, HaS1_reached, HrRP9, HcS1
  a2a_sendR 10, 2, 2, dev12_eq, $offS, $hoffS, (owedFrom c 5), HaS2_pay1, Hf10, HtS2_2, HtRP10, HIs2, HIrP10, HaS2_reached, HrRP10, HcS2
  a2a_sendR 11, 3, 2, dev13_eq, $offS, $hoffS, (owedFrom c 4), HaS3_pay1, Hf11, HtS3_2, HtRP11, HIs3, HIrP11, HaS3_reached, HrRP11, HcS3
  a2a_sendR 12, 0, 3, dev14_eq, $offS, $hoffS, (owedFrom c 3), HaS0_pay1, Hf12, HtS0_3, HtRP12, HIs0, HIrP12, HaS0_reached, HrRP12, HcS0
  a2a_sendR 13, 1, 3, dev15_eq, $offS, $hoffS, (owedFrom c 2), HaS1_pay1, Hf13, HtS1_3, HtRP13, HIs1, HIrP13, HaS1_reached, HrRP13, HcS1
  a2a_sendR 14, 2, 3, dev16_eq, $offS, $hoffS, (owedFrom c 1), HaS2_pay1, Hf14, HtS2_3, HtRP14, HIs2, HIrP14, HaS2_reached, HrRP14, HcS2
  a2a_sendR 15, 3, 3, dev17_eq, $offS, $hoffS, (0), HaS3_pay1, Hf15, HtS3_3, HtRP15, HIs3, HIrP15, HaS3_reached, HrRP15, HcS3
  a2a_near 0, 0, $offK, $hoffK, Hn0
  a2a_near 1, 1, $offK, $hoffK, Hn1
  a2a_near 2, 2, $offK, $hoffK, Hn2
  a2a_near 3, 3, $offK, $hoffK, Hn3
  a2a_near 4, 0, $offK, $hoffK, Hn4
  a2a_near 5, 1, $offK, $hoffK, Hn5
  a2a_near 6, 2, $offK, $hoffK, Hn6
  a2a_near 7, 3, $offK, $hoffK, Hn7
  a2a_near 8, 0, $offK, $hoffK, Hn8
  a2a_near 9, 1, $offK, $hoffK, Hn9
  a2a_near 10, 2, $offK, $hoffK, Hn10
  a2a_near 11, 3, $offK, $hoffK, Hn11
  a2a_near 12, 0, $offK, $hoffK, Hn12
  a2a_near 13, 1, $offK, $hoffK, Hn13
  a2a_near 14, 2, $offK, $hoffK, Hn14
  a2a_near 15, 3, $offK, $hoffK, Hn15
  a2a_closeS 0, HaS0, HIs0, HzS0
  a2a_closeS 1, HaS1, HIs1, HzS1
  a2a_closeS 2, HaS2, HIs2, HzS2
  a2a_closeS 3, HaS3, HIs3, HzS3
  a2a_closeR 0, HaR0, HIr0, HzR0
  a2a_closeR 1, HaR1, HIr1, HzR1
  a2a_closeR 2, HaR2, HIr2, HzR2
  a2a_closeR 3, HaR3, HIr3, HzR3
  a2a_closeR 4, HaR4, HIr4, HzR4
  a2a_closeR 5, HaR5, HIr5, HzR5
  a2a_closeR 6, HaR6, HIr6, HzR6
  a2a_closeR 7, HaR7, HIr7, HzR7
  a2a_closeR 8, HaR8, HIr8, HzR8
  a2a_closeR 9, HaR9, HIr9, HzR9
  a2a_closeR 10, HaR10, HIr10, HzR10
  a2a_closeR 11, HaR11, HIr11, HzR11
  a2a_closeR 12, HaR12, HIr12, HzR12
  a2a_closeR 13, HaR13, HIr13, HzR13
  a2a_closeR 14, HaR14, HIr14, HzR14
  a2a_closeR 15, HaR15, HIr15, HzR15
  a2a_finish))

set_option maxHeartbeats 32000000 in
/-- The body on a device whose first coordinate is 0: it keeps the left column half of its rows and sends the right. -/
theorem sound_body_x0 (K : Dev nD × Cl → ℕ) (c : Dev nD) (hx : c.val / 16 = 0) (W : Waits sig Unit) (Kt : PUnit → sProp 𝕄) :
    iprop(bodyPre m K c ∗ owes (c : Thread nD τ) (O₀ c) W ∗ ((bodyPost m c ∗ ∃ W', owes (c : Thread nD τ) 0 W') -∗ Kt ⟨⟩))
      ⊢ wp frame (wpE (defs₀ (F := F)) 𝒱₀ c none) Set.univ (bodyAt0 (F := F) t0_0) Kt := by
  have h34 := cond0_x0 c hx
  have h37 := cond1_x0 c hx
  have hmwB := mayWait_bar (F := F) c 16
  have hmw := fun (q : DmaSem sig) (n : ℕ) (hq : recvIdx q = none) => mayWait_local (F := F) c q n hq
  have hxc : xco c = 0 := hx
  a2a_body 1024, slices_S512x2048_o0_1024_S512x1024, 0, slices_S512x2048_o0_0_S512x1024

set_option maxHeartbeats 32000000 in
/-- The body on a device whose first coordinate is 1: it keeps the right column half of its rows and sends the left. -/
theorem sound_body_x1 (K : Dev nD × Cl → ℕ) (c : Dev nD) (hx : c.val / 16 = 1) (W : Waits sig Unit) (Kt : PUnit → sProp 𝕄) :
    iprop(bodyPre m K c ∗ owes (c : Thread nD τ) (O₀ c) W ∗ ((bodyPost m c ∗ ∃ W', owes (c : Thread nD τ) 0 W') -∗ Kt ⟨⟩))
      ⊢ wp frame (wpE (defs₀ (F := F)) 𝒱₀ c none) Set.univ (bodyAt0 (F := F) t0_0) Kt := by
  have h34 := cond0_x1 c hx
  have h37 := cond1_x1 c hx
  have hmwB := mayWait_bar (F := F) c 16
  have hmw := fun (q : DmaSem sig) (n : ℕ) (hq : recvIdx q = none) => mayWait_local (F := F) c q n hq
  have hxc : xco c = 1 := hx
  a2a_body 0, slices_S512x2048_o0_0_S512x1024, 1024, slices_S512x2048_o0_1024_S512x1024

/-- THE BODY: from `bodyPre` and the launch debt, one thread's body runs to its return with `bodyPost` and nothing owed. -/
theorem sound_body (K : Dev nD × Cl → ℕ) (c : Dev nD) (W : Waits sig Unit) (Kt : PUnit → sProp 𝕄) :
    iprop(bodyPre m K c ∗ owes (c : Thread nD τ) (O₀ c) W ∗ ((bodyPost m c ∗ ∃ W', owes (c : Thread nD τ) 0 W') -∗ Kt ⟨⟩))
      ⊢ wp frame (wpE (defs₀ (F := F)) 𝒱₀ c none) Set.univ (bodyAt0 (F := F) t0_0) Kt := by
  have h : c.val / 16 = 0 ∨ c.val / 16 = 1 := by have := c.isLt; have h32 : c.val < 32 := this; omega
  rcases h with h | h
  · exact sound_body_x0 m K c h W Kt
  · exact sound_body_x1 m K c h W Kt

end Cert.Kernel.A2A

end
-- ==== Proof.KernelX.Deal.lean ====
/-
  The ghost state of the exchange dealt at launch, for all thirty-two devices at once.

  The exchange's cells are, on every device, its barrier cell, its four send cells and its sixteen receive cells; their duties
  one for the barrier cell, one for each receive cell and four (one a round) for each send cell. The launch element funds every
  cell's round state, position and round-0 mark and every duty's token. A device's counters at zero (the barrier semaphore,
  which the launch does not scope, and twenty of the kernel's twenty-eight DMA semaphores; the other eight serve local copies
  and are no cells) become its cells' invariants. Since a device pays into its peer's cells, the invariants are allocated for
  all devices under one update and every device is then handed the records it reads and the tokens of the duties IT pays: its
  peer's barrier and receive tokens, its own send tokens. Last, the launch credit: what the peer owes a device at launch is one
  unit on its barrier cell and one transfer's credit on each of its receive cells.
-/
import proofs.«900651_g7700000000000652_dist_a2a_v7x_xyz2x4x4_x_m8192_n1024_bf16_1_alg».proof.Proof.KernelX.Body

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Launch

/-! ## The exchange's cells and duty tokens, over all devices -/

/-- The kernel's own (scoped) semaphores: its twenty-eight DMA semaphores. -/
abbrev osem : Fin 28 → SemLoc sig := fun k => .dma ⟨k.val, k.isLt⟩

theorem ownSemFacts : Pipeline.OwnSemFacts cfg0.spec osem := by decide

theorem csem_injective : Function.Injective (csem : Cl → SemLoc sig) := by decide

theorem kcell_injective : Function.Injective (kcell : Dev nD × Cl → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl

/-- Every device's twenty-one cells. -/
def myCells : Finset (GSem nD τ sig) := Finset.univ.map ⟨kcell, kcell_injective⟩

/-- The duties of one device's cells: the barrier's, the sixteen receive cells', and the four send cells' four rounds. -/
abbrev Tk : Type := Unit ⊕ (Fin 16 ⊕ (Fin 4 × Fin 4))

/-- A duty's cell on its device, and its round. -/
abbrev tokAt : Tk → SemLoc sig × ℕ
  | .inl _ => (.reg barS, 0)
  | .inr (.inl i) => (.dma (recvS i).sem, 0)
  | .inr (.inr sr) => (.dma (sendS sr.1).sem, sr.2.val)

theorem tokAt_injective : Function.Injective tokAt := by decide

abbrev tokOf (ct : Dev nD × Tk) : GSem nD τ sig × ℕ × Unit := (((ct.1 : Thread nD τ), (tokAt ct.2).1), (tokAt ct.2).2, ())

theorem tokOf_injective : Function.Injective (tokOf : Dev nD × Tk → GSem nD τ sig × ℕ × Unit) := by
  rintro ⟨c, t⟩ ⟨c', t'⟩ h
  have h1 : c = c' := congrArg (fun x : GSem nD τ sig × ℕ × Unit => x.1.1.1) h
  subst h1
  have h2 : t = t' := tokAt_injective (Prod.ext (congrArg (fun x : GSem nD τ sig × ℕ × Unit => x.1.2) h)
    (congrArg (fun x : GSem nD τ sig × ℕ × Unit => x.2.1) h))
  subst h2; rfl

/-- Every duty of every device's cells. -/
def myToks : Finset (GSem nD τ sig × ℕ × Unit) := Finset.univ.map ⟨tokOf, tokOf_injective⟩

/-- The launch element: the staging cells' (there are none), the exchange's cells and duties, no counter of a local copy. -/
def u₀ : UU :=
  (initOf (Pipeline.cells cfgs cellOf_inj) (Pipeline.launchToks cfgs cellOf_inj), (initOf myCells myToks, 1))

/-- The duty tokens of device `c`'s own cells. -/
def toks (c : Dev nD) : sProp 𝕄 :=
  iprop(dutyTok ER (barCell c) 0 ()
    ∗ (bigSep Finset.univ fun i : Fin 16 => dutyTok ER (recvCell c i) 0 ())
    ∗ bigSep Finset.univ fun sr : Fin 4 × Fin 4 => dutyTok ER (sendCell c sr.1) sr.2.val ())

/-- What the launch element deals device `c`. -/
def G (c : Dev nD) : sProp 𝕄 :=
  iprop((bigSep Finset.univ fun k : Cl => roundState ER (sched m) (kcell (c, k)) 0)
    ∗ (bigSep Finset.univ fun k : Cl => iprop(atPos ER (kcell (c, k)) 0 ∅ 0 ∗ reached ER (kcell (c, k)) 0)) ∗ toks c)

/-- What the global step makes of it and of the semaphores at zero: the body's ghost state at some names, and the local
    copies' semaphores, which are no cells. -/
def G' (c : Dev nD) : sProp 𝕄 := iprop((∃ K, ghost m K c) ∗ locals c)

theorem fund_cells : BI.own (ER (initOf myCells myToks)) ⊢ (|==> bigSep Finset.univ (G m) : sProp 𝕄) := by
  have hX (Φ : GSem nD τ sig → sProp 𝕄) : bigSep myCells Φ = bigSep Finset.univ fun c : Dev nD => bigSep Finset.univ fun k : Cl => Φ (kcell (c, k)) := by
    unfold myCells; rw [bigSep_map, bigSep_univ_prod]; rfl
  have hT : bigSep myToks (fun x => (dutyTok ER x.1 x.2.1 x.2.2 : sProp 𝕄)) = bigSep Finset.univ fun c : Dev nD => toks c := by
    unfold myToks; rw [bigSep_map, bigSep_univ_prod]
    exact bigSep_congr fun c _ => by
      unfold toks
      rw [bigSep_univ_sum, bigSep_univ_sum, bigSep_univ_of_subsingleton ()]
      rfl
  iintro HX
  imod (Rounds.fund ER (sched m) myCells myToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero, regrouped -/

omit [FloatOps F] in
/-- A conjunction over a device's cells: the barrier cell's, the four send cells', the sixteen receive cells'. -/
theorem bigSep_Cl (Φ : Cl → sProp 𝕄) :
    bigSep Finset.univ Φ = iprop(Φ (.inl ()) ∗ (bigSep Finset.univ fun s : Fin 4 => Φ (.inr (.inl s)))
      ∗ bigSep Finset.univ fun i : Fin 16 => Φ (.inr (.inr i))) := by
  rw [bigSep_univ_sum, bigSep_univ_sum, bigSep_univ_of_subsingleton ()]
  rfl

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem bigSep_fin28 (Φ : Fin 28 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15
      ∗ Φ 16 ∗ Φ 17 ∗ Φ 18 ∗ Φ 19 ∗ Φ 20 ∗ Φ 21 ∗ Φ 22 ∗ Φ 23 ∗ Φ 24 ∗ Φ 25 ∗ Φ 26 ∗ Φ 27) :=
  bigSep_univ_eq_bigSepL [0, 1, 2, 3, 4, 5, 6, 7, 8, 9, 10, 11, 12, 13, 14, 15, 16, 17, 18, 19, 20, 21, 22, 23, 24, 25, 26, 27] (by decide) (by decide) Φ
omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

omit [FloatOps F] in
/-- Dealt out: the cells' counters, and the local copies' semaphores beside them. -/
theorem sems_deal (c : Dev nD) :
    iprop(Pipeline.ownSems0 (Ix := Unit) (Name := ℕ) (U := UU) (Lvl := ℕ) (Val := Elt F) (τ := τ) osem c ∗ unscopedSems0 c)
      ⊢ iprop((bigSep Finset.univ fun k : Cl => semVal (kcell (c, k)) 0) ∗ locals c : sProp 𝕄) := by
  unfold Pipeline.ownSems0
  rw [bigSep_fin28, unscopedSems0_eq, bigSep_Cl, bigSep_fin4, bigSep_fin16]
  unfold locals
  iintro ⟨⟨H0, H1, H2, H3, H4, H5, H6, H7, H8, H9, H10, H11, H12, H13, H14, H15, H16, H17, H18, H19, H20, H21, H22, H23, H24, H25, H26, H27⟩, HB⟩
  isplitl [HB H8 H9 H10 H11 H12 H13 H14 H15 H16 H17 H18 H19 H20 H21 H22 H23 H24 H25 H26 H27]
  · isplitl [HB]; · iexact HB
    isplitl [H8 H9 H10 H11]
    · isplitl [H8]; · iexact H8
      isplitl [H9]; · iexact H9
      isplitl [H10]; · iexact H10
      iexact H11
    · isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      iexact H27
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

omit [FloatOps F] in
/-- Handed back: the local copies' semaphores and the closed send and receive cells' are the kernel's twenty-eight. -/
theorem sems_back (c : Dev nD) :
    iprop(locals c ∗ (bigSep Finset.univ fun s : Fin 4 => semVal (sendCell c s) 0) ∗ bigSep Finset.univ fun i : Fin 16 => semVal (recvCell c i) 0)
      ⊢ (Pipeline.ownSems0 (Ix := Unit) (Name := ℕ) (U := UU) (Lvl := ℕ) (Val := Elt F) (τ := τ) osem c : sProp 𝕄) := by
  unfold Pipeline.ownSems0
  rw [bigSep_fin28, bigSep_fin4, bigSep_fin16]
  unfold locals
  iintro ⟨⟨H0, H1, H2, H3, H4, H5, H6, H7⟩, ⟨H8, H9, H10, H11⟩, H12, H13, H14, H15, H16, H17, H18, H19, H20, H21, H22, H23, H24, H25, H26, H27⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

/-! ## The cells' invariants allocated, and the ghost state dealt to the payers -/

/-- One device's step: its cells' invariants from their counters and round states at zero. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cl => iprop(∃ κ : ℕ, cellInv ER (sched m) κ (kcell (c, k))))
          ∗ (bigSep Finset.univ fun k : Cl => iprop(atPos ER (kcell (c, k)) 0 ∅ 0 ∗ reached ER (kcell (c, k)) 0)) ∗ toks c ∗ locals c) := by
  unfold G
  iintro ⟨Hos, Hus, Hst, Hat, Htok⟩
  ihave Hv := (sems_deal (F := F) c) $$ [Hos Hus]
  · isplitl [Hos] <;> iassumption
  icases Hv with ⟨Hv, Hloc⟩
  imod (show iprop((bigSep Finset.univ fun k : Cl => semVal (kcell (c, k)) 0) ∗ bigSep Finset.univ fun k : Cl => roundState ER (sched m) (kcell (c, k)) 0)
      ⊢ (|={Set.univ}=> bigSep Finset.univ fun k : Cl => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-- Every cell's invariant at the names `K`, and round 0 of every cell reached: what every device may read. -/
def records (K : Dev nD × Cl → ℕ) : sProp 𝕄 :=
  iprop((bigSep Finset.univ fun ck : Dev nD × Cl => cellInv ER (sched m) (K ck) (kcell ck))
    ∗ bigSep Finset.univ fun ck : Dev nD × Cl => reached ER (kcell ck) 0)

instance records_persistent (K : Dev nD × Cl → ℕ) : BI.Persistent (records m K) := by unfold records; infer_instance

omit [FloatOps F] in
/-- Of a conjunction over all devices' cells: one cell's conjunct; -/
theorem all_at (Ψ : Dev nD × Cl → sProp 𝕄) (ck : Dev nD × Cl) : bigSep Finset.univ Ψ ⊢ Ψ ck := bigSep_elim (Finset.mem_univ ck)
omit [FloatOps F] in
/-- one device's; -/
theorem all_row (Ψ : Dev nD × Cl → sProp 𝕄) (d : Dev nD) : bigSep Finset.univ Ψ ⊢ bigSep Finset.univ fun k : Cl => Ψ (d, k) := by
  rw [bigSep_univ_prod]; exact bigSep_elim (Finset.mem_univ d)
omit [FloatOps F] in
/-- one device's send cells'; -/
theorem all_send (Ψ : Dev nD × Cl → sProp 𝕄) (d : Dev nD) : bigSep Finset.univ Ψ ⊢ bigSep Finset.univ fun s : Fin 4 => Ψ (d, .inr (.inl s)) := by
  refine (all_row Ψ d).trans ?_
  rw [bigSep_Cl]
  iintro ⟨-, H, -⟩; iexact H
omit [FloatOps F] in
/-- one device's receive cells'. -/
theorem all_recv (Ψ : Dev nD × Cl → sProp 𝕄) (d : Dev nD) : bigSep Finset.univ Ψ ⊢ bigSep Finset.univ fun i : Fin 16 => Ψ (d, .inr (.inr i)) := by
  refine (all_row Ψ d).trans ?_
  rw [bigSep_Cl]
  iintro ⟨-, -, H⟩; iexact H

/-- The tokens of the duties device `c` pays: the peer's barrier duty, the peer's sixteen receive duties, its own sixteen send
    duties. -/
def payToks (c : Dev nD) : sProp 𝕄 :=
  iprop(dutyTok ER (barCell (peer c)) 0 ()
    ∗ (bigSep Finset.univ fun i : Fin 16 => dutyTok ER (recvCell (peer c) i) 0 ())
    ∗ bigSep Finset.univ fun sr : Fin 4 × Fin 4 => dutyTok ER (sendCell c sr.1) sr.2.val ())
/-- What stays with device `c`: its positions and those tokens. -/
def linear (c : Dev nD) : sProp 𝕄 :=
  iprop((bigSep Finset.univ fun k : Cl => atPos ER (kcell (c, k)) 0 ∅ 0) ∗ payToks c)

theorem ghost_intro (K : Dev nD × Cl → ℕ) (c : Dev nD) : iprop(records m K ∗ linear c) ⊢ iprop(∃ K, ghost m K c) := by
  unfold records linear payToks ghost invs
  iintro ⟨⟨#HI, #HR⟩, Hat, HtB, HtR, HtS⟩
  iexists K
  isplitr
  · isplitr; · iapply (all_row (fun ck => cellInv ER (sched m) (K ck) (kcell ck)) c); iexact HI
    isplitr; · iapply (all_at (fun ck => cellInv ER (sched m) (K ck) (kcell ck)) (peer c, .inl ())); iexact HI
    iapply (all_recv (fun ck => cellInv ER (sched m) (K ck) (kcell ck)) (peer c)); iexact HI
  isplitl [Hat]; · iexact Hat
  isplitr; · iapply (all_at (fun ck => reached ER (kcell ck) 0) (peer c, .inl ())); iexact HR
  isplitr; · iapply (all_recv (fun ck => reached ER (kcell ck) 0) (peer c)); iexact HR
  isplitr; · iapply (all_send (fun ck => reached ER (kcell ck) 0) c); iexact HR
  isplitl [HtB]; · iexact HtB
  isplitl [HtR]; · iexact HtR
  iexact HtS

omit [FloatOps F] in
/-- The tokens dealt to the payers: a device's barrier and receive tokens go to its peer, its send tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pairing (fun c : Dev nD => (dutyTok ER (barCell c) 0 () : sProp 𝕄)),
    bigSep_univ_equiv pairing (fun c : Dev nD => (bigSep Finset.univ fun i : Fin 16 => dutyTok ER (recvCell c i) 0 () : sProp 𝕄))]
  iintro ⟨H1, H2, H3⟩
  isplitl [H1]; · iexact H1
  isplitl [H2]; · iexact H2
  iexact H3

theorem regroup :
    (bigSep Finset.univ fun c : Dev nD => iprop((bigSep Finset.univ fun k : Cl => iprop(∃ κ : ℕ, cellInv ER (sched m) κ (kcell (c, k))))
          ∗ (bigSep Finset.univ fun k : Cl => iprop(atPos ER (kcell (c, k)) 0 ∅ 0 ∗ reached ER (kcell (c, k)) 0)) ∗ toks c ∗ locals c) : sProp 𝕄)
      ⊢ bigSep Finset.univ (G' m) := by
  rw [bigSep_sep', bigSep_sep', bigSep_sep', ← bigSep_univ_prod (fun ck : Dev nD × Cl => iprop(∃ κ : ℕ, cellInv ER (sched m) κ (kcell ck))),
    bigSep_congr (s := Finset.univ) (fun (c : Dev nD) _ => bigSep_sep' Finset.univ (fun k : Cl => (atPos ER (kcell (c, k)) 0 ∅ 0 : sProp 𝕄)) (fun k => reached ER (kcell (c, k)) 0)),
    bigSep_sep', ← bigSep_univ_prod (fun ck : Dev nD × Cl => (reached ER (kcell ck) 0 : sProp 𝕄))]
  iintro ⟨HI, ⟨Hat, #HR⟩, Htok, Hloc⟩
  ihave HK := (BI.bigSep_exists_pi Finset.univ (fun (ck : Dev nD × Cl) (κ : ℕ) => (cellInv ER (sched m) κ (kcell ck) : sProp 𝕄))) $$ HI
  icases HK with ⟨%K, #HI⟩
  ihave Htk := (toks_around (F := F)) $$ Htok
  iapply (Entails.of_eq (bigSep_sep' Finset.univ (fun c : Dev nD => iprop(∃ K, ghost m K c)) (fun c : Dev nD => locals c)).symm)
  isplitr [Hloc]
  · iapply (bigSep_with_persistent (R := records m K) fun c _ => ghost_intro m K c)
    isplitr
    · unfold records; isplitl; · iexact HI
      iexact HR
    · iapply (Entails.of_eq (bigSep_sep' Finset.univ (fun c : Dev nD => bigSep Finset.univ fun k : Cl => (atPos ER (kcell (c, k)) 0 ∅ 0 : sProp 𝕄)) payToks).symm)
      isplitl [Hat]; · iexact Hat
      iexact Htk
  · iexact Hloc

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- What is owed with `n` chunks left, as a sum over the chunks counted from the last. -/
theorem owedFrom_eq_sum (d : Dev nD) (n : ℕ) :
    owedFrom d n = ∑ k ∈ Finset.range n, (tallyAt (recvCell (peer d) ⟨15 - k % 16, by omega⟩) () Nc : CellTallies nD τ sig Unit) := by
  induction n with
  | zero => rfl
  | succ n ih => rw [Finset.sum_range_succ, ← ih]; rfl

omit [FloatOps F] in
/-- At launch a device owes each of its peer's sixteen receive cells one transfer's credit. -/
theorem owedFrom_16 (d : Dev nD) :
    owedFrom d 16 = ∑ i : Fin 16, (tallyAt (recvCell (peer d) i) () Nc : CellTallies nD τ sig Unit) := by
  rw [owedFrom_eq_sum, Finset.sum_range,
    ← Equiv.sum_comp Fin.revPerm (fun i : Fin 16 => (tallyAt (recvCell (peer d) i) () Nc : CellTallies nD τ sig Unit))]
  refine Finset.sum_congr rfl fun i _ => ?_
  have hi : (⟨15 - i.val % 16, by omega⟩ : Fin 16) = Fin.revPerm i := by
    refine Fin.ext ?_
    have := i.isLt
    simp only [Fin.revPerm_apply, Fin.val_rev]
    omega
  rw [hi]

omit [FloatOps F] in
theorem O₀_eq : (O₀ : Dev nD → CellTallies nD τ sig Unit)
    = fun d => (∑ i : Fin 16, (tallyAt (recvCell (peer d) i) () Nc : CellTallies nD τ sig Unit)) + tallyAt (barCell (peer d)) () 1 := by
  funext d; unfold O₀; rw [owedFrom_16]

omit [FloatOps F] in
/-- Each receive cell's launch credit, the peer being the one device that owes it. -/
theorem cred_recv (c : Dev nD) :
    (bigSep Finset.univ fun i : Fin 16 => Pipeline.launchCred (fun d : Dev nD => (tallyAt (recvCell (peer d) i) () Nc : CellTallies nD τ sig Unit)) c : sProp 𝕄)
      ⊢ bigSep Finset.univ fun i : Fin 16 => cred (tallyAt (recvCell c i) () Nc) :=
  bigSep_mono fun i _ => Pipeline.launchCred_tallyAt (SemLoc.dma (recvS i).sem) peer peer peer_peer peer_peer () Nc c

omit [FloatOps F] in
/-- The launch deals a device the credit its peer owes it: the barrier's unit and each receive cell's transfer credit. -/
theorem creds_intro (c : Dev nD) : (Pipeline.launchCred O₀ c : sProp 𝕄) ⊢ creds c := by
  rw [O₀_eq, Pipeline.launchCred_add (fun d : Dev nD => ∑ i : Fin 16, (tallyAt (recvCell (peer d) i) () Nc : CellTallies nD τ sig Unit))
      (fun d : Dev nD => tallyAt (barCell (peer d)) () 1) c,
    Pipeline.launchCred_sum Finset.univ (fun (i : Fin 16) (d : Dev nD) => (tallyAt (recvCell (peer d) i) () Nc : CellTallies nD τ sig Unit)) c]
  unfold creds
  iintro ⟨HR, HB⟩
  isplitl [HB]
  · iapply (Pipeline.launchCred_tallyAt (SemLoc.reg barS) peer peer peer_peer peer_peer () 1 c); iexact HB
  · iapply (cred_recv (F := F) c); iexact HR

end Launch

end Cert.Kernel.A2A

end
-- ==== Proof.KernelX.Run.lean ====
/-
  The run of the exchange on the 32 devices: every weakly fair execution of @main terminates, nothing faulting, with every
  device's result array holding what it must (`outSpec`: its column block of the whole narrowed `x`, stated through the
  devices' own blocks) and its block of `x` unchanged.

  From one thread's body to the run of all of them. The launch element is split between the staging cells (none here) and the
  exchange's own cells; every device is dealt the round state, position and round-0 mark of its twenty-one cells and the
  tokens of their duties; the cells' invariants are allocated for all devices at once, since a device pays into its peer's
  cells; the tokens are dealt to the payers (the barrier and receive tokens to the peer, the send tokens to the owner); the
  launch credit is what the peer owes: one unit on the barrier cell, one transfer's credit on each receive cell.
-/
import proofs.«900651_g7700000000000652_dist_a2a_v7x_xyz2x4x4_x_m8192_n1024_bf16_1_alg».proof.Proof.KernelX.Deal

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Launch

/-! ## The proof data: one point, no window -/

/-- Before the one point: the body's start at some names of the invariants, owing the launch debt. After it: the body's end,
    owing nothing. -/
def dats (_ : Fin 1) (c : Dev nD) : Dat τ (Elt F) Unit ℕ UU ℕ cfg0 c where
  A w := (s₀ m ρ).mem ((cfg0.win w).arr.view.loc (c : Thread nD τ))
  after w _ := w.elim0
  Φ t := match t with
    | ⟨0, _⟩ => iprop(∃ K, bodyPre m K c)
    | ⟨_ + 1, _⟩ => bodyPost m c
  q _ := fullShare
  owed t := match t with
    | ⟨0, _⟩ => O₀ c
    | ⟨_ + 1, _⟩ => 0

omit [FloatOps F] in
/-- A conjunction over the windows, of which there are none, is empty. -/
theorem bigSep_noWindow (Φ : Fin cfg0.W → sProp 𝕄) : bigSep Finset.univ Φ = iprop(emp) := by
  rw [show (Finset.univ : Finset (Fin cfg0.W)) = ∅ from Finset.univ_eq_empty, BI.bigSep_empty]; rfl

/-- The library's body obligation on device `c`: the one point's obligation is the body lemma, the start's names opened and
    the debt's recorded set read off. -/
theorem body_obligation (c : Dev nD) : BodyObligation (dats (F := F) m ρ 0 c) (defs₀ (F := F)) 𝒱₀ () Set.univ := fun t => by
  rw [Gen.fin_N0 t, bigSep_noWindow, bigSep_noWindow]
  show iprop((∃ K, bodyPre m K c)
      ∗ (∃ W : Waits sig Unit, ⌜(↑W : Set (SemLoc sig × Unit)) ⊆ (dats m ρ 0 c).bound () t0_0.castSucc⌝ ∗ owes (c : Thread nD τ) (O₀ c) W) ∗ emp)
    ⊢ wp frame (wpE (defs₀ (F := F)) 𝒱₀ c none) Set.univ (bodyAt0 (F := F) t0_0)
        (fun _ => iprop(bodyPost m c
          ∗ (∃ W : Waits sig Unit, ⌜(↑W : Set (SemLoc sig × Unit)) ⊆ (dats m ρ 0 c).bound () t0_0.succ⌝ ∗ owes (c : Thread nD τ) 0 W) ∗ emp))
  iintro ⟨⟨%K, Hpre⟩, ⟨%W, %hW, HO⟩, -⟩
  iapply (sound_body m K c W _)
  isplitl [Hpre]; · iexact Hpre
  isplitl [HO]; · iexact HO
  iintro ⟨Hpost, %W', HO'⟩
  isplitl [Hpost]; · iexact Hpost
  isplitl [HO']
  · iexists W'
    isplitr; · ipureintro; exact fun _ _ => Or.inl trivial
    iexact HO'
  · iempintro

/-! ## The launch theorem's side conditions -/

/-- What a device holds after the global step, before its scoped buffers: the body's ghost state, the launch credit, the
    levels, the local copies' semaphores, its block of `x` and its result array as launched. -/
def X (c : Dev nD) : sProp 𝕄 :=
  iprop((∃ K, ghost m K c) ∗ creds c ∗ levAts L lv ∗ locals c
    ∗ (((c : Thread nD τ).loc main_arg0) ↦{fullShare} m ((c : Thread nD τ).loc main_arg0))
    ∗ (((c : Thread nD τ).loc main_v1) ↦{fullShare} m ((c : Thread nD τ).loc main_v1)))

/-- What is read off at the end: the result array and the block of `x`. -/
def Y (c : Dev nD) : sProp 𝕄 :=
  iprop((((c : Thread nD τ).loc main_v1) ↦{fullShare} outSpec m c)
    ∗ (((c : Thread nD τ).loc main_arg0) ↦{fullShare} m ((c : Thread nD τ).loc main_arg0)))

theorem X_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  iintro ⟨⟨Hx, Hv⟩, Hlev, Hcr, -, HG⟩
  ihave Hc := (creds_intro (F := F) c) $$ Hcr
  unfold G'
  icases HG with ⟨HG, Hloc⟩
  imodintro
  unfold X
  isplitl
  · isplitl [HG]; · iexact HG
    isplitl [Hc]; · iexact Hc
    isplitl [Hlev]; · iexact Hlev
    isplitl [Hloc]; · iexact Hloc
    isplitl [Hx]; · iexact Hx
    iexact Hv
  · iempintro

theorem phi0_intro (c : Dev nD) :
    iprop(X m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(∃ K, bodyPre m K c) from rfl, scopedRest0_eq]
  unfold X bodyPre bufs
  iintro ⟨⟨⟨%K, HG⟩, Hc, Hlev, Hloc, Hx, Hv⟩, -, ⟨%f0, H0⟩, ⟨%f1, H1⟩, ⟨%f2, H2⟩⟩
  iexists K
  isplitl [HG]; · iexact HG
  isplitl [Hc]; · iexact Hc
  isplitl [Hlev]; · iexact Hlev
  isplitl [Hloc]; · iexact Hloc
  isplitl [Hx]; · iexact Hx
  isplitl [Hv]; · iexact Hv
  isplitl [H0]; · iexists f0; iexact H0
  isplitl [H1]; · iexists f1; iexact H1
  iexists f2; iexact H2

theorem phi1_exit (c : Dev nD) :
    (dats m ρ 0 c).Φ (Fin.last cfg0.N) ⊢ iprop(Y m c ∗ Pipeline.ownSems0 osem c ∗ Pipeline.scopedRest cfg0.spec c) := by
  rw [show (dats m ρ 0 c).Φ (Fin.last cfg0.N) = bodyPost m c from rfl, scopedRest0_eq]
  unfold bodyPost Y
  iintro ⟨Hv, Hx, ⟨%f0, H0⟩, ⟨%f1, H1⟩, ⟨%f2, H2⟩, Hloc, HS, HR⟩
  isplitl [Hv Hx]
  · isplitl [Hv] <;> iassumption
  isplitl [Hloc HS HR]
  · iapply (sems_back (F := F) c)
    isplitl [Hloc]; · iexact Hloc
    isplitl [HS] <;> iassumption
  isplitl [H0]; · iexists f0; iexact H0
  isplitl [H1]; · iexists f1; iexact H1
  iexists f2; iexact H2

theorem waits (c : Dev nD) : (levAts L lv : sProp 𝕄) ⊢ Pipeline.cellsWaits cfgs (dats m ρ) () 0 c :=
  Pipeline.cellsWaits_intro cfgs (dats m ρ) () 0 c fun w => w.elim0

end Launch

open Launch in
set_option maxRecDepth 8000 in
/-- At the compiled mesh of thirty-two devices, for any float values, from any memory with zero counters: every weakly fair
    execution of @main (the devices paired across the first mesh axis, each pair shaking hands on the barrier semaphore and then
    exchanging sixteen half-chunks) terminates, and every final state has each device's result array holding its column block of
    the whole narrowed `x` (`outSpec`) and its block of `x` unchanged. -/
theorem run_main :
    θ_run (defs (F := F)) (onTc (τ := τ) (main (F := F))) ⟨m, fun _ => 0, ρ⟩ (fun r => ∀ c : Dev nD,
      r.2.mem ((c.tc : Thread nD τ).loc main_v1) = outSpec m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave H' := (own_pair_emb EX _ _) $$ HX
      icases H' with ⟨HR, -⟩
      imod (fund_cells m) $$ HR with HG
      imodintro
      isplitl [HP] <;> iassumption)
    (hglob := glob m)
    (hA := fun _ _ => rfl) (hpf := fun _ k => k.elim0)
    (X := X m) (Y := Y m) (Z := fun _ => iprop(emp))
    (hX := X_intro m ρ) (hin := phi0_intro m ρ) (hout := phi1_exit m ρ)
    (QY := fun c s => s.mem ((c.tc : Thread nD τ).loc main_v1) = outSpec m c
      ∧ s.mem ((c.tc : Thread nD τ).loc main_arg0) = m ((c.tc : Thread nD τ).loc main_arg0))
    (hY := fun c s' => by
      unfold Y
      iintro ⟨⟨Hv, Hx⟩, -, HSI⟩
      icombine HSI Hv gives %hv
      icombine HSI Hx gives %hx
      imodintro
      isplitr; · ipureintro; exact ⟨Buf.eq_of_forall_mem_univ hv, Buf.eq_of_forall_mem_univ hx⟩
      iexact HSI)
    (hQ := fun _ h c => (h c).2.2)

/-- info: 'Cert.Kernel.A2A.run_main' depends on axioms: [propext, Classical.choice, Quot.sound] -/
#guard_msgs in #print axioms run_main

end Cert.Kernel.A2A

end
-- ==== Proof.lean ====
/-
  The five conjuncts of `Cert.Claim`, for the all-to-all exchange over a mesh of 2 × 4 × 4 devices and its reference
  on one device.

  Every device holds a row block (8192 rows) of the whole array `x` (16384 × 2048) and must end holding a column block
  (1024 columns) of `x` narrowed to the shorter format; the reference narrows the whole `x`. The exchange moves data and
  narrows it, nothing else, so none of the conjuncts needs its precondition.

  · The kernel as printed runs and leaves its argument unchanged: the second half of what its run establishes, on every
    device.
  · The kernel read over exact values runs and leaves its argument unchanged: the same half of the same run, at the
    exact values.
  · The reference runs and leaves its argument unchanged: the second half of the reference's run.
  · The kernel read over exact values is the printed kernel with no operation rewritten: nothing to prove.
  · Kernel and reference agree. The kernel's run leaves on device `c` the array `outSpec`: at row `r`, column `k`, the
    narrowed entry at row `r mod 8192`, column `1024·x(c) + k` of the block held by the device of the pair (`c`, its peer)
    whose first mesh coordinate is `r / 8192`. When every device's block is its row block of one whole array, that is
    column block `x(c)` of the whole array narrowed (`outSpec_eq_block`); and the whole array narrowed is what the
    reference's run leaves as its result.
-/
import proofs.«900651_g7700000000000652_dist_a2a_v7x_xyz2x4x4_x_m8192_n1024_bf16_1_alg».proof.Defs
import proofs.«900651_g7700000000000652_dist_a2a_v7x_xyz2x4x4_x_m8192_n1024_bf16_1_alg».proof.Proof.Gen.Kernel
import proofs.«900651_g7700000000000652_dist_a2a_v7x_xyz2x4x4_x_m8192_n1024_bf16_1_alg».proof.Proof.Gen.KernelIdeal
import proofs.«900651_g7700000000000652_dist_a2a_v7x_xyz2x4x4_x_m8192_n1024_bf16_1_alg».proof.Proof.Gen.ReferenceIdeal
import proofs.«900651_g7700000000000652_dist_a2a_v7x_xyz2x4x4_x_m8192_n1024_bf16_1_alg».proof.Proof.Gen.Pre_finite_inputs_Kernel
import proofs.«900651_g7700000000000652_dist_a2a_v7x_xyz2x4x4_x_m8192_n1024_bf16_1_alg».proof.Proof.Gen.Pre_finite_inputs_ReferenceIdeal
import proofs.«900651_g7700000000000652_dist_a2a_v7x_xyz2x4x4_x_m8192_n1024_bf16_1_alg».proof.Proof.Gen.ReferenceIdeal.Run
import proofs.«900651_g7700000000000652_dist_a2a_v7x_xyz2x4x4_x_m8192_n1024_bf16_1_alg».proof.Proof.KernelIdealX.Run
import proofs.«900651_g7700000000000652_dist_a2a_v7x_xyz2x4x4_x_m8192_n1024_bf16_1_alg».proof.Proof.KernelIdealX.OutValue
import proofs.«900651_g7700000000000652_dist_a2a_v7x_xyz2x4x4_x_m8192_n1024_bf16_1_alg».proof.Proof.KernelX.Run
import Idealize.ShloMosaic.Adequacy
import Idealize.ShloMosaic.Init

noncomputable section

namespace Cert.Proof.Exchange

open Idealize.ShloMosaic Idealize.SL.Sem

/-- The printed kernel runs on every device and each device's block of `x` ends as it began: the second half of the
    kernel's run, device by device. -/
theorem frame_p :
    Cert.frame_Kernel (hKernel := Cert.Kernel.Gen.facts)
      (hPre_finite_inputs_Kernel := Cert.Pre_finite_inputs_Kernel.Gen.facts) :=
  fun m ρ _ => (θ_run _ _ _).mono (fun _ h c => (h c).2) (Cert.Kernel.A2A.run_main (F := Bits) m ρ)

/-- The kernel over exact values runs on every device and each device's block of `x` ends as it began: the second half
    of its run, device by device. -/
theorem frame_pi :
    Cert.frame_KernelIdeal (hKernelIdeal := Cert.KernelIdeal.Gen.facts)
      (hPre_finite_inputs_Kernel := Cert.Pre_finite_inputs_Kernel.Gen.facts) :=
  fun m ρ _ => (θ_run _ _ _).mono (fun _ h c => (h c).2) (Cert.KernelIdeal.A2A.run_main (F := Ideal) m ρ)

/-- The reference runs and the whole `x` ends as it began: the second half of the reference's run. -/
theorem frame_ri :
    Cert.frame_ReferenceIdeal (hReferenceIdeal := Cert.ReferenceIdeal.Gen.facts)
      (hPre_finite_inputs_ReferenceIdeal := Cert.Pre_finite_inputs_ReferenceIdeal.Gen.facts) :=
  fun m ρ _ => (θ_run Cert.ReferenceIdeal.defs _ _).mono (fun _ h c => (h c).2)
    (Cert.ReferenceIdeal.Value.run (F := Ideal) m ρ)

/-- No operation of the kernel was rewritten on the way to exact values, so there is no rewrite to justify. -/
theorem preserves : Cert.preserves_Kernel_KernelIdeal := trivial

/-- Kernel against reference at exact values. The common value of the result is the whole `x` narrowed. The reference's
    run leaves exactly that. The kernel's run leaves `outSpec` on each device, which is that device's column block of the
    whole `x` narrowed once every device's argument is its row block of the whole `x`; its arguments end unchanged. -/
theorem algebraic :
    Cert.algebraic_KernelIdeal_ReferenceIdeal (hKernelIdeal := Cert.KernelIdeal.Gen.facts)
      (hReferenceIdeal := Cert.ReferenceIdeal.Gen.facts)
      (hPre_finite_inputs_Kernel := Cert.Pre_finite_inputs_Kernel.Gen.facts) := by
  intro m ρ m' ρ' _ hagree
  refine ⟨truncf (F := Ideal) (s := ⟨2, ![16384, 2048]⟩) (φ := .f32) .bf16
      (m' (((0 : Dev Cert.ReferenceIdeal.nD).tc : Thread Cert.ReferenceIdeal.nD Cert.ReferenceIdeal.τ).loc
        Cert.ReferenceIdeal.main_arg0))
      Cert.ReferenceIdeal.Gen.bitsLt_bf16_f32, ?_, ?_⟩
  · exact (θ_run _ _ _).mono
      (fun _ h c => ⟨(h c).1.trans (Cert.KernelIdeal.A2A.outSpec_eq_block m _ hagree c), (h c).2⟩)
      (Cert.KernelIdeal.A2A.run_main (F := Ideal) m ρ)
  · exact (θ_run Cert.ReferenceIdeal.defs _ _).mono (fun _ h => h 0)
      (Cert.ReferenceIdeal.Value.run (F := Ideal) m' ρ')

end Cert.Proof.Exchange

namespace Cert.Proof

/-- The five conjuncts, under the witnesses of the facts the programs and the precondition state. -/
theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Exchange.frame_p, Exchange.frame_pi, Exchange.frame_ri, Exchange.preserves, Exchange.algebraic⟩

end Cert.Proof

end
